-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S5000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x10 : Shape := ⟨2, ![128, 10]⟩
abbrev S10 : Shape := ⟨1, ![10]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg11 : FVec F S10 .f32) (main_v48 : IVec S_ 1) (main_v49 : FVec F S128x10 .f32) (main_v50 : FVec F S128x10 .f32) : IVec S_ 1 :=
  let main_v51 : IVec S128x10 1 := cmpf .olt main_v49 main_v50
  let main_c_19 : IVec S_ 1 := constantI S_ 1 1#1
  let main_v52 : IVec S_ 1 := (fun x v => Host.reduce IntOp.andi x v reducesTo_S128x10_S_d0_1 h_S_) main_v51 main_c_19
  let main_v53 : IVec S_ 1 := andi main_v48 main_v52
  let main_v54 : FVec F S10 .f32 := Host.absf main_arg11
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg7 : FVec F S2x128 .f32) (main_arg8 : FVec F S128x128 .f32) (main_arg9 : FVec F S128 .f32) (main_arg10 : FVec F S128x10 .f32) (main_arg11 : FVec F S10 .f32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x10 .f32 := Host.absf main_arg10
  let main_cst_18 : FVec F S_ .f32 := constant S_ .f32 0x7F800000#32
  let main_v50 : FVec F S128x10 .f32 := broadcastInDim S128x10 ![] bcast_S_S128x10 main_cst_18
  fn_part3 (F := F) main_arg11 main_v48 main_v49 main_v50

def fn_part1 {F : FTy → Type} [FloatOps F] (main_arg4 : FVec F S128 .f32) (main_arg5 : FVec F S2x128x128 .f32) (main_arg6 : FVec F S2x128x128 .f32) (main_arg7 : FVec F S2x128 .f32) (main_arg8 : FVec F S128x128 .f32) (main_arg9 : FVec F S128 .f32) (main_arg10 : FVec F S128x10 .f32) (main_arg11 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128x128 .f32 := Host.absf main_arg5
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128x128 .f32 := Host.absf main_arg6
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x128 .f32) (main_arg1 : FVec F S1600000 .f32) (main_arg2 : FVec F S128x128 .f32) (main_arg3 : FVec F S128x128 .f32) (main_arg4 : FVec F S128 .f32) (main_arg5 : FVec F S2x128x128 .f32) (main_arg6 : FVec F S2x128x128 .f32) (main_arg7 : FVec F S2x128 .f32) (main_arg8 : FVec F S128x128 .f32) (main_arg9 : FVec F S128 .f32) (main_arg10 : FVec F S128x10 .f32) (main_arg11 : FVec F S10 .f32) (main_arg12 : IVec S2x1600000 32) (main_arg13 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x10 : Shape := ⟨2, ![128, 10]⟩
abbrev S10 : Shape := ⟨1, ![10]⟩
abbrev S2x1600000 : Shape := ⟨2, ![2, 1600000]⟩
abbrev S100000 : Shape := ⟨1, ![100000]⟩
abbrev S1x1600000 : Shape := ⟨2, ![1, 1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩
abbrev S1x128x128 : Shape := ⟨3, ![1, 128, 128]⟩
abbrev S128x1 : Shape := ⟨2, ![128, 1]⟩
abbrev S1x10 : Shape := ⟨2, ![1, 10]⟩

abbrev nBuf : Space → Nat
  | .hbm => 95
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S2x128x128, .f32⟩
  | .hbm, ⟨6, _⟩ => ⟨S2x128x128, .f32⟩
  | .hbm, ⟨7, _⟩ => ⟨S2x128, .f32⟩
  | .hbm, ⟨8, _⟩ => ⟨S128x128, .f32⟩
  | .hbm, ⟨9, _⟩ => ⟨S128, .f32⟩
  | .hbm, ⟨10, _⟩ => ⟨S128x10, .f32⟩
  | .hbm, ⟨11, _⟩ => ⟨S10, .f32⟩
  | .hbm, ⟨12, _⟩ => ⟨S2x1600000, .i32⟩
  | .hbm, ⟨13, _⟩ => ⟨S100000, .i32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S1600000x1, .f32⟩
  | .hbm, ⟨35, _⟩ => ⟨S1600000x128, .f32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .bf16⟩
  | .hbm, ⟨42, _⟩ => ⟨S1x128x128, .f32⟩
  | .hbm, ⟨43, _⟩ => ⟨S128x128, .f32⟩
  | .hbm, ⟨44, _⟩ => ⟨S1x128x128, .f32⟩
  | .hbm, ⟨45, _⟩ => ⟨S128x128, .f32⟩
  | .hbm, ⟨46, _⟩ => ⟨S1x128, .f32⟩
  | .hbm, ⟨47, _⟩ => ⟨S128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .bf16⟩
  | .hbm, ⟨57, _⟩ => ⟨S1600000x128, .f32⟩
  | .hbm, ⟨58, _⟩ => ⟨S1600000x1, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .bf16⟩
  | .hbm, ⟨66, _⟩ => ⟨S1x128x128, .f32⟩
  | .hbm, ⟨67, _⟩ => ⟨S128x128, .f32⟩
  | .hbm, ⟨68, _⟩ => ⟨S1x128x128, .f32⟩
  | .hbm, ⟨69, _⟩ => ⟨S128x128, .f32⟩
  | .hbm, ⟨70, _⟩ => ⟨S1x128, .f32⟩
  | .hbm, ⟨71, _⟩ => ⟨S128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .bf16⟩
  | .hbm, ⟨81, _⟩ => ⟨S1600000x128, .f32⟩
  | .hbm, ⟨82, _⟩ => ⟨S1600000x1, .f32⟩
  | .hbm, ⟨83, _⟩ => ⟨S1600000x128, .f32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x128, .bf16⟩
  | .hbm, ⟨90, _⟩ => ⟨S100000x1, .i32⟩
  | .hbm, ⟨91, _⟩ => ⟨S128x128, .f32⟩
  | .hbm, ⟨92, _⟩ => ⟨S128, .f32⟩
  | .hbm, ⟨93, _⟩ => ⟨S128x1, .f32⟩
  | .hbm, ⟨94, _⟩ => ⟨S128x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x128, .bf16⟩
  | .local _ .vmem, ⟨14, _⟩ => ⟨S5000x128, .bf16⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S5000x128, .bf16⟩
  | .local _ .vmem, ⟨21, _⟩ => ⟨S5000x128, .bf16⟩
  | .local _ .vmem, ⟨22, _⟩ => ⟨S5000x128, .f32⟩
  | .local _ .vmem, ⟨23, _⟩ => ⟨S5000x128, .f32⟩
  | .local _ .vmem, ⟨24, _⟩ => ⟨S5000x128, .bf16⟩
  | .local _ .vmem, ⟨25, _⟩ => ⟨S5000x128, .bf16⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S128x128, .f32⟩
  | .local _ .vmem, ⟨30, _⟩ => ⟨S128, .f32⟩
  | .local _ .vmem, ⟨31, _⟩ => ⟨S5000x128, .bf16⟩
  | .local _ .vmem, ⟨32, _⟩ => ⟨S5000x128, .bf16⟩
  | .local _ .vmem, ⟨33, _⟩ => ⟨S5000x128, .bf16⟩
  | .local _ .vmem, ⟨34, _⟩ => ⟨S5000x128, .bf16⟩
  | .local _ .vmem, ⟨35, _⟩ => ⟨S5000x1, .i32⟩
  | .local _ .vmem, ⟨36, _⟩ => ⟨S5000x1, .i32⟩
  | .local _ .vmem, ⟨37, _⟩ => ⟨S128x128, .f32⟩
  | .local _ .vmem, ⟨38, _⟩ => ⟨S128, .f32⟩
  | .local _ .vmem, ⟨39, _⟩ => ⟨S128x128, .f32⟩
  | .local _ .vmem, ⟨40, _⟩ => ⟨S128, .f32⟩
  | .local _ .vmem, ⟨41, _⟩ => ⟨S128x128, .f32⟩
  | .local _ .vmem, ⟨42, _⟩ => ⟨S128x1, .f32⟩
  | .local _ .vmem, ⟨43, _⟩ => ⟨S128x128, .f32⟩
  | .local _ .vmem, ⟨44, _⟩ => ⟨S128, .f32⟩
  | .local _ .vmem, ⟨45, _⟩ => ⟨S128x10, .f32⟩
  | .local _ .vmem, ⟨46, _⟩ => ⟨S10, .f32⟩
  | .local _ .vmem, ⟨47, _⟩ => ⟨S128x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_3 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_6 : Ref sig .tc := ⟨.hbm, 72, rfl⟩
abbrev main_v50 : Ref sig .tc := ⟨.hbm, 73, rfl⟩
abbrev main_v51 : Ref sig .tc := ⟨.hbm, 74, rfl⟩
abbrev main_c_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_8 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66_0 : Ref sig .tc := ⟨.hbm, 91, rfl⟩
abbrev main_v66_1 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_scratch0 : Ref sig .tc := ⟨.vmem, 39, rfl⟩
abbrev cc3_scratch1 : Ref sig .tc := ⟨.vmem, 40, rfl⟩
abbrev cc4_stg0_0 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc4_sem0_0 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem6_0 : DmaSem sig := 45

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_11 : BitVec 32 := 0#32
  let v29 : BitVec 1 := Scalar.cmpi .ne v28 c0_i32_11
  v29

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

abbrev stage3_0 : Fin 2 → Memref sig .tc .vmem S5000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x10 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128x128_S128x128 : S128x128.ShapeCasts S128x128
  shapeCasts_S128_S128 : S128.ShapeCasts S128
  slices_S2x128x128_S1x128x128_1_0_0 : S2x128x128.Slices ![1, 0, 0] S1x128x128
  slices_S2x128_S1x128_1_0 : S2x128.Slices ![1, 0] S1x128
  iota_S1x128_d1_w32 : S1x128.Iotas .tc 32 [1]
  natLt_1_32 : 1 < 32
  reduces_S5000x128_S128 : S5000x128.Reduces [0] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x128 : S128x1.Broadcasts S128x128
  broadcasts_S1x128_S128x128 : S1x128.Broadcasts S128x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S128x10 : S1x10.Broadcasts S128x10
  reduces_S128x10_S128 : S128x10.Reduces [1] S128
  broadcasts_S128x1_S128x10 : S128x1.Broadcasts S128x10
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S5000x128_S128x128_0_0_1_1_n_n_wf : DotDims.WF S5000x128 S5000x128 S128x128 [0] [0] [1] [1] [] []
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .bf16 = 32 ∨ (Rect.block (s := S100000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .bf16 = 32 ∨ (Rect.block (s := S100000x128) S5000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .bf16 = 32 ∨ (Rect.block (s := S100000x128) S5000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .bf16 = 32 ∨ (Rect.block (s := S100000x128) S5000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x128.size a ≤ S128x128.size a
  hwx4_0 : ∀ i : grid4.Coords, EltTy.bits .f32 = 32 ∨ (Rect.block (s := S128x128) S128x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x10.size a ≤ S128x10.size a
  hwx4_4 : ∀ i : grid4.Coords, EltTy.bits .f32 = 32 ∨ (Rect.block (s := S128x10) S128x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S10.size a ≤ S10.size a
  hwx4_5 : ∀ i : grid4.Coords, EltTy.bits .f32 = 32 ∨ (Rect.block (s := S10) S10.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x10.size a ≤ S128x10.size a
  hwx4_6 : ∀ i : grid4.Coords, EltTy.bits .f32 = 32 ∨ (Rect.block (s := S128x10) S128x10.size (cc4_transform_6 i) (hinb4_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66_0) S128x128.size cc3_transform_2 reads3_2 true true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66_1) S128.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun i => !(k3_cond2 i == 1#1) | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v66_0) S128x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v67) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S128x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg11) S10.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v68) S128x10.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x10 : Shape := ⟨2, ![128, 10]⟩
abbrev S10 : Shape := ⟨1, ![10]⟩
abbrev S2x1600000 : Shape := ⟨2, ![2, 1600000]⟩
abbrev S100000 : Shape := ⟨1, ![100000]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x128x128 : Shape := ⟨3, ![1, 128, 128]⟩
abbrev S128x1 : Shape := ⟨2, ![128, 1]⟩
abbrev S1x10 : Shape := ⟨2, ![1, 10]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S1600000, .f32⟩
  | 2 => ⟨S128x128, .f32⟩
  | 3 => ⟨S128x128, .f32⟩
  | 4 => ⟨S128, .f32⟩
  | 5 => ⟨S2x128x128, .f32⟩
  | 6 => ⟨S2x128x128, .f32⟩
  | 7 => ⟨S2x128, .f32⟩
  | 8 => ⟨S128x128, .f32⟩
  | 9 => ⟨S128, .f32⟩
  | 10 => ⟨S128x10, .f32⟩
  | 11 => ⟨S10, .f32⟩
  | 12 => ⟨S2x1600000, .i32⟩
  | 13 => ⟨S100000, .i32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S1600000x1, .f32⟩
  | 28 => ⟨S1600000x128, .f32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S_, .f32⟩
  | 35 => ⟨S1600000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x128, .f32⟩
  | 45 => ⟨S100000x128, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S1x128x128, .f32⟩
  | 56 => ⟨S128x128, .f32⟩
  | 57 => ⟨S1x128x128, .f32⟩
  | 58 => ⟨S128x128, .f32⟩
  | 59 => ⟨S1x128, .f32⟩
  | 60 => ⟨S128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S1600000x1, .f32⟩
  | 71 => ⟨S1600000x128, .f32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S_, .f32⟩
  | 78 => ⟨S1600000, .f32⟩
  | 79 => ⟨S_, .f32⟩
  | 80 => ⟨S100000, .f32⟩
  | 81 => ⟨S1600000x1, .i32⟩
  | 82 => ⟨S100000, .f32⟩
  | 83 => ⟨S_, .f32⟩
  | 84 => ⟨S100000, .f32⟩
  | 85 => ⟨S100000, .f32⟩
  | 86 => ⟨S100000x1, .f32⟩
  | 87 => ⟨S100000x128, .f32⟩
  | 88 => ⟨S100000x128, .f32⟩
  | 89 => ⟨S100000x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S1x128x128, .f32⟩
  | 99 => ⟨S128x128, .f32⟩
  | 100 => ⟨S1x128x128, .f32⟩
  | 101 => ⟨S128x128, .f32⟩
  | 102 => ⟨S1x128, .f32⟩
  | 103 => ⟨S128, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S1600000x1, .f32⟩
  | 114 => ⟨S1600000x128, .f32⟩
  | 115 => ⟨S1600000x128, .f32⟩
  | 116 => ⟨S_, .f32⟩
  | 117 => ⟨S100000x128, .f32⟩
  | 118 => ⟨S1600000x1, .i32⟩
  | 119 => ⟨S100000x128, .f32⟩
  | 120 => ⟨S_, .f32⟩
  | 121 => ⟨S1600000, .f32⟩
  | 122 => ⟨S_, .f32⟩
  | 123 => ⟨S100000, .f32⟩
  | 124 => ⟨S1600000x1, .i32⟩
  | 125 => ⟨S100000, .f32⟩
  | 126 => ⟨S_, .f32⟩
  | 127 => ⟨S100000, .f32⟩
  | _ => ⟨S100000x128, .f32⟩

abbrev hbmTy0_1 (i : Nat) : BufTy := match i % 128 with
  | 0 => ⟨S100000, .f32⟩
  | 1 => ⟨S100000x1, .f32⟩
  | 2 => ⟨S100000x128, .f32⟩
  | 3 => ⟨S100000x128, .f32⟩
  | 4 => ⟨S100000x128, .f32⟩
  | 5 => ⟨S100000x128, .f32⟩
  | 6 => ⟨S100000x128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S_, .f32⟩
  | 14 => ⟨S128x128, .f32⟩
  | 15 => ⟨S100000x1, .i32⟩
  | 16 => ⟨S128x128, .f32⟩
  | 17 => ⟨S_, .f32⟩
  | 18 => ⟨S100000, .f32⟩
  | 19 => ⟨S_, .f32⟩
  | 20 => ⟨S128, .f32⟩
  | 21 => ⟨S100000x1, .i32⟩
  | 22 => ⟨S128, .f32⟩
  | 23 => ⟨S_, .f32⟩
  | 24 => ⟨S128, .f32⟩
  | 25 => ⟨S128, .f32⟩
  | 26 => ⟨S128x1, .f32⟩
  | 27 => ⟨S128x128, .f32⟩
  | 28 => ⟨S128x128, .f32⟩
  | 29 => ⟨S128x128, .f32⟩
  | 30 => ⟨S1x128, .f32⟩
  | 31 => ⟨S128x128, .f32⟩
  | 32 => ⟨S128x128, .f32⟩
  | 33 => ⟨S_, .f32⟩
  | 34 => ⟨S128x128, .f32⟩
  | 35 => ⟨S128x128, .f32⟩
  | 36 => ⟨S128x10, .f32⟩
  | 37 => ⟨S1x10, .f32⟩
  | 38 => ⟨S128x10, .f32⟩
  | 39 => ⟨S128x10, .f32⟩
  | 40 => ⟨S_, .f32⟩
  | 41 => ⟨S128, .f32⟩
  | 42 => ⟨S_, .f32⟩
  | 43 => ⟨S128, .f32⟩
  | 44 => ⟨S128, .f32⟩
  | 45 => ⟨S128x1, .f32⟩
  | 46 => ⟨S128x10, .f32⟩
  | 47 => ⟨S128x10, .f32⟩
  | 48 => ⟨S128x10, .f32⟩
  | 49 => ⟨S_, .f32⟩
  | 50 => ⟨S128, .f32⟩
  | 51 => ⟨S128x1, .f32⟩
  | 52 => ⟨S128x1, .f32⟩
  | 53 => ⟨S128x10, .f32⟩
  | 54 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call0_cst : Ref sig .tc := ⟨.hbm, 52, rfl⟩
abbrev main_call0_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_4 : Ref sig .tc := ⟨.hbm, 61, rfl⟩
abbrev main_v39 : Ref sig .tc := ⟨.hbm, 62, rfl⟩
abbrev main_v40 : Ref sig .tc := ⟨.hbm, 63, rfl⟩
abbrev main_c_5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_6 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_7 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call1_cst : Ref sig .tc := ⟨.hbm, 95, rfl⟩
abbrev main_call1_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_10 : Ref sig .tc := ⟨.hbm, 104, rfl⟩
abbrev main_v74 : Ref sig .tc := ⟨.hbm, 105, rfl⟩
abbrev main_v75 : Ref sig .tc := ⟨.hbm, 106, rfl⟩
abbrev main_c_11 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_12 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_13 : Ref sig .tc := ⟨.hbm, 120, rfl⟩
abbrev main_v87 : Ref sig .tc := ⟨.hbm, 121, rfl⟩
abbrev main_cst_14 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_15 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_call2_cst : Ref sig .tc := ⟨.hbm, 138, rfl⟩
abbrev main_call2_v0 : Ref sig .tc := ⟨.hbm, 139, rfl⟩
abbrev main_v102 : Ref sig .tc := ⟨.hbm, 140, rfl⟩
abbrev main_cst_16 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_17 : Ref sig .tc := ⟨.hbm, 145, rfl⟩
abbrev main_v106 : Ref sig .tc := ⟨.hbm, 146, rfl⟩
abbrev main_cst_18 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_19 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_call3_cst : Ref sig .tc := ⟨.hbm, 161, rfl⟩
abbrev main_call3_v0 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_call4_cst : Ref sig .tc := ⟨.hbm, 168, rfl⟩
abbrev main_call4_v0 : Ref sig .tc := ⟨.hbm, 169, rfl⟩
abbrev main_call4_cst_0 : Ref sig .tc := ⟨.hbm, 170, rfl⟩
abbrev main_call4_v1 : Ref sig .tc := ⟨.hbm, 171, rfl⟩
abbrev main_call4_v2 : Ref sig .tc := ⟨.hbm, 172, rfl⟩
abbrev main_call4_v3 : Ref sig .tc := ⟨.hbm, 173, rfl⟩
abbrev main_call4_v4 : Ref sig .tc := ⟨.hbm, 174, rfl⟩
abbrev main_call4_v5 : Ref sig .tc := ⟨.hbm, 175, rfl⟩
abbrev main_call4_v6 : Ref sig .tc := ⟨.hbm, 176, rfl⟩
abbrev main_call4_cst_1 : Ref sig .tc := ⟨.hbm, 177, rfl⟩
abbrev main_call4_v7 : Ref sig .tc := ⟨.hbm, 178, rfl⟩
abbrev main_call4_v8 : Ref sig .tc := ⟨.hbm, 179, rfl⟩
abbrev main_call4_v9 : Ref sig .tc := ⟨.hbm, 180, rfl⟩
abbrev main_call4_v10 : Ref sig .tc := ⟨.hbm, 181, rfl⟩
abbrev main_v124 : Ref sig .tc := ⟨.hbm, 182, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.K.Reg0.lean ====
/-
  Region 0 of the program (one dense layer over a 5000-row tile): the part of its run that does not depend on what the
  arrays hold. At the contents `V` the region is entered with: each window's block at a grid point, what the body leaves
  in the output tile as one function of the six input blocks, the body's triple, the pipeline's proof data and the
  obligation that the body meets it at every grid point. The inputs stay in place; the output tile is stored whole.
-/
import proofs.«420397_j11227044511906_3_alg».proof.Proof.Gen.Kernel.Launch
import proofs.«420397_j11227044511906_3_alg».proof.Proof.Gen.Kernel.Skeleton
import proofs.«420397_j11227044511906_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not it was fetched there: unfetched, the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether or not it was fetched there: unfetched, the
    block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether or not it was fetched there: unfetched, the
    block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether or not it was fetched there: unfetched, the
    block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether or not it was fetched there: unfetched, the
    block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether or not it was fetched there: unfetched, the
    block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole-tile rectangles the body loads and stores through. -/
abbrev rb_S5000x1280 : Rect S5000x128 := Rect.unit (s := S5000x128) ![0, 0] S5000x128.size inb_S5000x128_S5000x128_0_0
abbrev rb_S5000x10 : Rect S5000x1 := Rect.unit (s := S5000x1) ![0, 0] S5000x1.size inb_S5000x1_S5000x1_0_0
abbrev rb_S128x1280 : Rect S128x128 := Rect.unit (s := S128x128) ![0, 0] S128x128.size inb_S128x128_S128x128_0_0
abbrev rb_S1280 : Rect S128 := Rect.unit (s := S128) ![0] S128.size inb_S128_S128_0

/-- The output tile after the body, from the six input blocks (aggregate, features, degree column, the two weight
    matrices, the bias): its one whole-tile store. -/
def out0_6 (x0 : Vec F S5000x128 .f32) (x1 : Vec F S5000x128 .f32) (x2 : Vec F S5000x1 .f32) (x3 : Vec F S128x128 .f32) (x4 : Vec F S128x128 .f32) (x5 : Vec F S128 .f32) : Vec F S5000x128 .bf16 :=
  View.canon [⟨rb_S5000x1280, k0_pay1 (View.ld x2 rb_S5000x10) (View.ld x0 rb_S5000x1280) (View.ld x1 rb_S5000x1280) (View.ld x3 rb_S128x1280) (View.ld x4 rb_S128x1280) (View.ld x5 rb_S1280)⟩]

/-- The one store covers the tile. -/
theorem cover0_6 (p0 : Vec F S5000x128 .bf16) (y : S5000x128.Idx) :
    ∃ pc ∈ ([⟨rb_S5000x1280, p0⟩] : List (View.Piece (Elt F) S5000x128 .bf16)), y ∈ pc.1.set :=
  View.cover_of_tiled [⟨rb_S5000x1280, p0⟩] S5000x128.size (by rfl) y

set_option maxHeartbeats 1000000 in
/-- The body on whole staging buffers, the inputs' at contents `xW` and the output's at anything, runs to the continuation
    with the inputs as they were and the output at `out0_6` of them. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .bf16) (harg7 : arg7.IsWhole)
    (x0 : Vec F S5000x128 .f32) (x1 : Vec F S5000x128 .f32) (x2 : Vec F S5000x1 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__sage_dense_kernel i arg1 harg1 arg2 harg2 arg3 harg3 arg4 harg4 arg5 harg5 arg6 harg6 arg7 harg7) K := by
  simp only [cc0__sage_dense_kernel_eq_skeleton]; unfold cc0__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover0_6 _)

/-- The proof data of the region's pipeline on core `c`: the arrays as found; after the body each input's buffer at its
    block and the output's at `out0_6` of the input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the program (one dense layer over a 5000-row tile): the part of its run that does not depend on what the
  arrays hold. At the contents `V` the region is entered with: each window's block at a grid point, what the body leaves
  in the output tile as one function of the six input blocks, the body's triple, the pipeline's proof data and the
  obligation that the body meets it at every grid point. The inputs stay in place; the output tile is stored whole.
-/
import proofs.«420397_j11227044511906_3_alg».proof.Proof.Gen.Kernel.Launch
import proofs.«420397_j11227044511906_3_alg».proof.Proof.Gen.Kernel.Skeleton
import proofs.«420397_j11227044511906_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not it was fetched there: unfetched, the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether or not it was fetched there: unfetched, the
    block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether or not it was fetched there: unfetched, the
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether or not it was fetched there: unfetched, the
    block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether or not it was fetched there: unfetched, the
    block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether or not it was fetched there: unfetched, the
    block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-tile rectangles the body loads and stores through. -/
abbrev rb_S5000x1281 : Rect S5000x128 := Rect.unit (s := S5000x128) ![0, 0] S5000x128.size inb_S5000x128_S5000x128_0_0
abbrev rb_S5000x11 : Rect S5000x1 := Rect.unit (s := S5000x1) ![0, 0] S5000x1.size inb_S5000x1_S5000x1_0_0
abbrev rb_S128x1281 : Rect S128x128 := Rect.unit (s := S128x128) ![0, 0] S128x128.size inb_S128x128_S128x128_0_0
abbrev rb_S1281 : Rect S128 := Rect.unit (s := S128) ![0] S128.size inb_S128_S128_0

/-- The output tile after the body, from the six input blocks (aggregate, features, degree column, the two weight
    matrices, the bias): its one whole-tile store. -/
def out1_6 (x0 : Vec F S5000x128 .f32) (x1 : Vec F S5000x128 .bf16) (x2 : Vec F S5000x1 .f32) (x3 : Vec F S128x128 .f32) (x4 : Vec F S128x128 .f32) (x5 : Vec F S128 .f32) : Vec F S5000x128 .bf16 :=
  View.canon [⟨rb_S5000x1281, k1_pay1 (View.ld x2 rb_S5000x11) (View.ld x0 rb_S5000x1281) (View.ld x1 rb_S5000x1281) (View.ld x3 rb_S128x1281) (View.ld x4 rb_S128x1281) (View.ld x5 rb_S1281)⟩]

/-- The one store covers the tile. -/
theorem cover1_6 (p0 : Vec F S5000x128 .bf16) (y : S5000x128.Idx) :
    ∃ pc ∈ ([⟨rb_S5000x1281, p0⟩] : List (View.Piece (Elt F) S5000x128 .bf16)), y ∈ pc.1.set :=
  View.cover_of_tiled [⟨rb_S5000x1281, p0⟩] S5000x128.size (by rfl) y

set_option maxHeartbeats 1000000 in
/-- The body on whole staging buffers, the inputs' at contents `xW` and the output's at anything, runs to the continuation
    with the inputs as they were and the output at `out1_6` of them. -/
theorem sound_kernel1 (c : Dev nD) (E : Set ℕ) (i : grid1.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .bf16) (harg7 : arg7.IsWhole)
    (x0 : Vec F S5000x128 .f32) (x1 : Vec F S5000x128 .bf16) (x2 : Vec F S5000x1 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__sage_dense_kernel i arg1 harg1 arg2 harg2 arg3 harg3 arg4 harg4 arg5 harg5 arg6 harg6 arg7 harg7) K := by
  simp only [cc1__sage_dense_kernel_eq_skeleton]; unfold cc1__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover1_6 _)

/-- The proof data of the region's pipeline on core `c`: the arrays as found; after the body each input's buffer at its
    block and the output's at `out1_6` of the input blocks; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of the program (one dense layer over a 5000-row tile): the part of its run that does not depend on what the
  arrays hold. At the contents `V` the region is entered with: each window's block at a grid point, what the body leaves
  in the output tile as one function of the six input blocks, the body's triple, the pipeline's proof data and the
  obligation that the body meets it at every grid point. The inputs stay in place; the output tile is stored whole.
-/
import proofs.«420397_j11227044511906_3_alg».proof.Proof.Gen.Kernel.Launch
import proofs.«420397_j11227044511906_3_alg».proof.Proof.Gen.Kernel.Skeleton
import proofs.«420397_j11227044511906_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether or not it was fetched there: unfetched, the
    block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether or not it was fetched there: unfetched, the
    block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether or not it was fetched there: unfetched, the
    block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether or not it was fetched there: unfetched, the
    block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether or not it was fetched there: unfetched, the
    block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether or not it was fetched there: unfetched, the
    block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-tile rectangles the body loads and stores through. -/
abbrev rb_S5000x1282 : Rect S5000x128 := Rect.unit (s := S5000x128) ![0, 0] S5000x128.size inb_S5000x128_S5000x128_0_0
abbrev rb_S5000x12 : Rect S5000x1 := Rect.unit (s := S5000x1) ![0, 0] S5000x1.size inb_S5000x1_S5000x1_0_0
abbrev rb_S128x1282 : Rect S128x128 := Rect.unit (s := S128x128) ![0, 0] S128x128.size inb_S128x128_S128x128_0_0
abbrev rb_S1282 : Rect S128 := Rect.unit (s := S128) ![0] S128.size inb_S128_S128_0

/-- The output tile after the body, from the six input blocks (aggregate, features, degree column, the two weight
    matrices, the bias): its one whole-tile store. -/
def out2_6 (x0 : Vec F S5000x128 .f32) (x1 : Vec F S5000x128 .bf16) (x2 : Vec F S5000x1 .f32) (x3 : Vec F S128x128 .f32) (x4 : Vec F S128x128 .f32) (x5 : Vec F S128 .f32) : Vec F S5000x128 .bf16 :=
  View.canon [⟨rb_S5000x1282, k2_pay1 (View.ld x2 rb_S5000x12) (View.ld x0 rb_S5000x1282) (View.ld x1 rb_S5000x1282) (View.ld x3 rb_S128x1282) (View.ld x4 rb_S128x1282) (View.ld x5 rb_S1282)⟩]

/-- The one store covers the tile. -/
theorem cover2_6 (p0 : Vec F S5000x128 .bf16) (y : S5000x128.Idx) :
    ∃ pc ∈ ([⟨rb_S5000x1282, p0⟩] : List (View.Piece (Elt F) S5000x128 .bf16)), y ∈ pc.1.set :=
  View.cover_of_tiled [⟨rb_S5000x1282, p0⟩] S5000x128.size (by rfl) y

set_option maxHeartbeats 1000000 in
/-- The body on whole staging buffers, the inputs' at contents `xW` and the output's at anything, runs to the continuation
    with the inputs as they were and the output at `out2_6` of them. -/
theorem sound_kernel2 (c : Dev nD) (E : Set ℕ) (i : grid2.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .bf16) (harg7 : arg7.IsWhole)
    (x0 : Vec F S5000x128 .f32) (x1 : Vec F S5000x128 .bf16) (x2 : Vec F S5000x1 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__sage_dense_kernel i arg1 harg1 arg2 harg2 arg3 harg3 arg4 harg4 arg5 harg5 arg6 harg6 arg7 harg7) K := by
  simp only [cc2__sage_dense_kernel_eq_skeleton]; unfold cc2__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover2_6 _)

/-- The proof data of the region's pipeline on core `c`: the arrays as found; after the body each input's buffer at its
    block and the output's at `out2_6` of the input blocks; the scoped rest and the generator register untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  Region 3 of the program (the per-graph pooling over twenty 5000-row tiles): the part of its run that does not depend on
  what the arrays hold. The body keeps two accumulators of its own between grid points, a 128 x 128 sum and a 128-entry
  count: it clears them at the first point, adds the point's tile into them at every point, and copies them into the two
  output tiles at the last point only, where alone the pipeline writes those tiles back. At the contents `V` the region is
  entered with: each window's block at a grid point, the two accumulators after each point by recursion on the point,
  the body's triple in each of its three cases (first point, a middle point, last point), the pipeline's proof data whose
  invariant carries the accumulators from point to point, the obligation that the body meets it at every point, and what
  the two output arrays hold when the region is left.
-/
import proofs.«420397_j11227044511906_3_alg».proof.Proof.Gen.Kernel.Launch
import proofs.«420397_j11227044511906_3_alg».proof.Proof.Gen.Kernel.Skeleton
import proofs.«420397_j11227044511906_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The two accumulators after the body at point `n`: at the first point the point's tile added into the cleared
    accumulators, afterwards added into what the point before left. -/
def acc3 (c : Dev nD) : (n : ℕ) → n < cfg3.N → Vec F S128x128 .f32 × Vec F S128 .f32
  | 0, hn => (k3_pay4 (iblk3 V c 1 ⟨0, hn⟩) (iblk3 V c 0 ⟨0, hn⟩) k3_pay1, k3_pay5 (iblk3 V c 1 ⟨0, hn⟩) k3_pay2)
  | n + 1, hn => (k3_pay4 (iblk3 V c 1 ⟨n + 1, hn⟩) (iblk3 V c 0 ⟨n + 1, hn⟩) (acc3 c n (Nat.lt_of_succ_lt hn)).1,
      k3_pay5 (iblk3 V c 1 ⟨n + 1, hn⟩) (acc3 c n (Nat.lt_of_succ_lt hn)).2)

theorem acc3_zero (c : Dev nD) (hn : 0 < cfg3.N) :
    acc3 V c 0 hn = (k3_pay4 (iblk3 V c 1 ⟨0, hn⟩) (iblk3 V c 0 ⟨0, hn⟩) k3_pay1, k3_pay5 (iblk3 V c 1 ⟨0, hn⟩) k3_pay2) := rfl

theorem acc3_succ (c : Dev nD) (n : ℕ) (hn : n + 1 < cfg3.N) :
    acc3 V c (n + 1) hn = (k3_pay4 (iblk3 V c 1 ⟨n + 1, hn⟩) (iblk3 V c 0 ⟨n + 1, hn⟩) (acc3 V c n (Nat.lt_of_succ_lt hn)).1,
      k3_pay5 (iblk3 V c 1 ⟨n + 1, hn⟩) (acc3 V c n (Nat.lt_of_succ_lt hn)).2) := rfl

/-- The two accumulators as the body is handed them: whole scoped buffers of the kernel's own. -/
abbrev scM3_0 : Memref sig .tc .vmem S128x128 .f32 := Memref.whole cc3_scratch0
abbrev scM3_1 : Memref sig .tc .vmem S128 .f32 := Memref.whole cc3_scratch1

/-- The region invariant before position `n`: before the first point every scoped buffer that is no staging buffer at
    anything and the generator register at some state; afterwards the two accumulators at what the point before left in
    them, the other such buffers at anything, the register at some state. -/
def Phi3 (c : Dev nD) : (n : ℕ) → n ≤ cfg3.N → sProp 𝕄
  | 0, _ => Pipeline.ΦA spec3 c
  | n + 1, hn => iprop(iprop(iprop(owns (c : Thread nD τ) scM3_0 fullShare (acc3 V c n hn).1 ∗ owns (c : Thread nD τ) scM3_1 fullShare (acc3 V c n hn).2)
      ∗ Pipeline.scopedRestBut (Ix := Unit) (Name := ℕ) (U := UR sig nD τ) (Lvl := ℕ) (Val := Elt F) spec3 c [cc3_scratch0, cc3_scratch1]) ∗ (∃ r, prngReg c r))

/-- The zero offsets of a whole-buffer rectangle, shape by shape. -/
theorem hzT3 : (![0, 0] : Fin S5000x128.rank → Nat) = fun _ => 0 := funext fun a => by fin_cases a <;> rfl
theorem hzI3 : (![0, 0] : Fin S5000x1.rank → Nat) = fun _ => 0 := funext fun a => by fin_cases a <;> rfl
theorem hzA3 : (![0, 0] : Fin S128x128.rank → Nat) = fun _ => 0 := funext fun a => by fin_cases a <;> rfl
theorem hzC3 : (![0] : Fin S128.rank → Nat) = fun _ => 0 := funext fun a => by fin_cases a <;> rfl

/-- A load through the whole-shape rectangle at zero offsets reads the buffer's contents. -/
theorem readAt_whole3 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb _

/-- A store through it, made last, leaves its payload, whatever was stored before and whatever the buffer held. -/
theorem read_writes_whole3 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- The first branch of the body (clearing the accumulators) is taken where the grid coordinate is zero, -/
abbrev cond3_0 (i : grid3.Coords) : Prop := (Scalar.cmpi .ne (Scalar.extui (Scalar.cmpi .eq (BitVec.ofNat 32 (i 0).val) 0#32)) 0#32) = 1#1
/-- the last (copying them out) where it is nineteen. -/
abbrev cond3_1 (i : grid3.Coords) : Prop := k3_cond2 i = 1#1

theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val = 19 :=
  (by decide +kernel : ∀ t : Fin grid3.N, cond3_1 (grid3.coords t) ↔ t.val = 19)

/-! ## Where the windows are idle -/

/-- The two input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- Away from the last point the two output windows are idle and not written back; at it they are live. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The inputs' staging buffers -/

/-- An input window's staging buffer holds its block at every point: both are fetched at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body, case by case -/

set_option maxHeartbeats 1000000 in
/-- The body at the first point: whatever the accumulators held, they are cleared and take the point's tile; the output
    tiles are not touched. -/
theorem sound_kernel3_first (c : Dev nD) (E : Set ℕ) (i : grid3.Coords) (arg1 : Memref sig .tc .vmem S5000x128 .bf16) (harg1 : arg1.IsWhole) (arg2 : Memref sig .tc .vmem S5000x1 .i32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole)
    (hc0 : cond3_0 i) (hc1 : ¬cond3_1 i)
    (x0 : Vec F S5000x128 .bf16) (x1 : Vec F S5000x1 .i32) (s0 : Vec F S128x128 .f32) (s1 : Vec F S128 .f32) (K : PUnit → sProp 𝕄) :
    iprop(owns (c : Thread nD τ) arg1 fullShare x0 ∗ owns (c : Thread nD τ) arg2 fullShare x1 ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg5 fullShare (k3_pay4 x1 x0 k3_pay1) ∗ owns (c : Thread nD τ) arg6 fullShare (k3_pay5 x1 k3_pay2)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%g0, %hg0, S0⟩, ⟨%g1, %hg1, S1⟩, Hk⟩
  subst hf0; subst hf1; subst hg0; subst hg1
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [S0]
  · iexists _; isplitr
    swap; · iexact S0
    ipureintro
    sl_unfold_run_names
    rw [read_writes_whole3 _ _ hzA3, readAt_whole3 _ _ hzI3, readAt_whole3 _ _ hzT3, View.readCov_unit_zero _ hzA3]
  iexists _; isplitr
  swap; · iexact S1
  ipureintro
  sl_unfold_run_names
  rw [read_writes_whole3 _ _ hzC3, readAt_whole3 _ _ hzI3, View.readCov_unit_zero _ hzC3]

set_option maxHeartbeats 1000000 in
/-- The body at a point that is neither first nor last: the inputs stay, each accumulator takes the point's tile added
    into what it held; the output tiles are not touched. -/
theorem sound_kernel3_mid (c : Dev nD) (E : Set ℕ) (i : grid3.Coords) (arg1 : Memref sig .tc .vmem S5000x128 .bf16) (harg1 : arg1.IsWhole) (arg2 : Memref sig .tc .vmem S5000x1 .i32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole)
    (hc0 : ¬cond3_0 i) (hc1 : ¬cond3_1 i)
    (x0 : Vec F S5000x128 .bf16) (x1 : Vec F S5000x1 .i32) (s0 : Vec F S128x128 .f32) (s1 : Vec F S128 .f32) (K : PUnit → sProp 𝕄) :
    iprop(owns (c : Thread nD τ) arg1 fullShare x0 ∗ owns (c : Thread nD τ) arg2 fullShare x1 ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg5 fullShare (k3_pay4 x1 x0 s0) ∗ owns (c : Thread nD τ) arg6 fullShare (k3_pay5 x1 s1)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%g0, %hg0, S0⟩, ⟨%g1, %hg1, S1⟩, Hk⟩
  subst hf0; subst hf1; subst hg0; subst hg1
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [S0]
  · iexists _; isplitr
    swap; · iexact S0
    ipureintro
    rw [read_writes_whole3 _ _ hzA3, readAt_whole3 _ _ hzI3, readAt_whole3 _ _ hzT3, readAt_whole3 _ _ hzA3]
  iexists _; isplitr
  swap; · iexact S1
  ipureintro
  rw [read_writes_whole3 _ _ hzC3, readAt_whole3 _ _ hzI3, readAt_whole3 _ _ hzC3]

set_option maxHeartbeats 1000000 in
/-- The body at the last point: the accumulators take the point's tile as at a middle point, and what they then hold is
    copied into the two output tiles, whatever those held. -/
theorem sound_kernel3_last (c : Dev nD) (E : Set ℕ) (i : grid3.Coords) (arg1 : Memref sig .tc .vmem S5000x128 .bf16) (harg1 : arg1.IsWhole) (arg2 : Memref sig .tc .vmem S5000x1 .i32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole)
    (hc0 : ¬cond3_0 i) (hc1 : cond3_1 i)
    (x0 : Vec F S5000x128 .bf16) (x1 : Vec F S5000x1 .i32) (s0 : Vec F S128x128 .f32) (s1 : Vec F S128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare (k3_pay4 x1 x0 s0) ∗ owns (c : Thread nD τ) arg4 fullShare (k3_pay5 x1 s1) ∗ owns (c : Thread nD τ) arg5 fullShare (k3_pay4 x1 x0 s0) ∗ owns (c : Thread nD τ) arg6 fullShare (k3_pay5 x1 s1)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%d2, %f2, -, H2⟩, ⟨%d3, %f3, -, H3⟩, ⟨%g0, %hg0, S0⟩, ⟨%g1, %hg1, S1⟩, Hk⟩
  subst hf0; subst hf1; subst hg0; subst hg1
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]
  · iexists _; isplitr
    swap; · iexact H2
    ipureintro
    sl_unfold_run_names
    rw [read_writes_whole3 _ _ hzA3, View.readCov_unit_zero _ hzA3, readAt_whole3 _ _ hzI3, readAt_whole3 _ _ hzT3, readAt_whole3 _ _ hzA3]
  isplitl [H3]
  · iexists _; isplitr
    swap; · iexact H3
    ipureintro
    sl_unfold_run_names
    rw [read_writes_whole3 _ _ hzC3, View.readCov_unit_zero _ hzC3, readAt_whole3 _ _ hzI3, readAt_whole3 _ _ hzC3]
  isplitl [S0]
  · iexists _; isplitr
    swap; · iexact S0
    ipureintro
    sl_unfold_run_names
    rw [read_writes_whole3 _ _ hzA3, readAt_whole3 _ _ hzI3, readAt_whole3 _ _ hzT3, readAt_whole3 _ _ hzA3]
  iexists _; isplitr
  swap; · iexact S1
  ipureintro
  sl_unfold_run_names
  rw [read_writes_whole3 _ _ hzC3, readAt_whole3 _ _ hzI3, readAt_whole3 _ _ hzC3]

/-! ## The pipeline's proof data -/

/-- The proof data of the region's pipeline on core `c`: the arrays as found; after the body each input's buffer at its
    block and the two outputs' at the accumulators after the point (they are stored at the last point only, where alone
    that is read); the invariant carrying the accumulators; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (acc3 V c t.val t.isLt).1
    | ⟨3, _⟩ => (acc3 V c t.val t.isLt).2
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (acc3 V c t.val t.isLt).1 := by dsimp only [dat3]
theorem after3_3 (c : Dev nD) (t : Fin cfg3.N) : (dat3 V c).after 3 t = (acc3 V c t.val t.isLt).2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The accumulators and the invariant, point by point -/

/-- The accumulators after the first point. -/
theorem acc3_first (c : Dev nD) (t : Fin cfg3.N) (h : t.val = 0) :
    acc3 V c t.val t.isLt = (k3_pay4 (iblk3 V c 1 t) (iblk3 V c 0 t) k3_pay1, k3_pay5 (iblk3 V c 1 t) k3_pay2) := by
  obtain ⟨n, hn⟩ := t
  cases n with
  | zero => rfl
  | succ n => exact absurd h (Nat.succ_ne_zero n)

/-- The accumulators after a later point, over what the point before left. -/
theorem acc3_later (c : Dev nD) (t : Fin cfg3.N) (h : t.val ≠ 0) :
    acc3 V c t.val t.isLt
      = (k3_pay4 (iblk3 V c 1 t) (iblk3 V c 0 t) (acc3 V c (t.val - 1) (Nat.lt_of_le_of_lt (Nat.sub_le _ _) t.isLt)).1,
         k3_pay5 (iblk3 V c 1 t) (acc3 V c (t.val - 1) (Nat.lt_of_le_of_lt (Nat.sub_le _ _) t.isLt)).2) := by
  obtain ⟨n, hn⟩ := t
  cases n with
  | zero => exact absurd rfl h
  | succ n => rfl

theorem Phi3_zero (c : Dev nD) (n : ℕ) (h : n ≤ cfg3.N) (hz : n = 0) : Phi3 V c n h = Pipeline.ΦA spec3 c := by
  subst hz; rfl

/-- After point `n` (before point `n + 1`): the accumulators at that point's contents. -/
theorem Phi3_succ (c : Dev nD) (n : ℕ) (hn : n < cfg3.N) :
    Phi3 V c (n + 1) hn = iprop(iprop(iprop(owns (c : Thread nD τ) scM3_0 fullShare (acc3 V c n hn).1 ∗ owns (c : Thread nD τ) scM3_1 fullShare (acc3 V c n hn).2)
      ∗ Pipeline.scopedRestBut (Ix := Unit) (Name := ℕ) (U := UR sig nD τ) (Lvl := ℕ) (Val := Elt F) spec3 c [cc3_scratch0, cc3_scratch1]) ∗ (∃ r, prngReg c r)) := rfl

/-- Before a point that is not the first: the accumulators at what the point before left. -/
theorem Phi3_pos (c : Dev nD) (n : ℕ) (h : n ≤ cfg3.N) (hz : n ≠ 0) :
    Phi3 V c n h = iprop(iprop(iprop(owns (c : Thread nD τ) scM3_0 fullShare (acc3 V c (n - 1) (by omega)).1 ∗ owns (c : Thread nD τ) scM3_1 fullShare (acc3 V c (n - 1) (by omega)).2)
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-- What the launch hands the region, with the two accumulators named: each at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

/-- The invariant at a point's start, restated at the point's position. -/
theorem Phi3_castSucc (c : Dev nD) (t : Fin cfg3.N) :
    (dat3 V c).Φ t.castSucc = Phi3 V c t.val (Nat.le_of_lt t.isLt) := by
  dsimp only [dat3]; simp only [Fin.coe_castSucc]

/-! ## The body obligation -/

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4000000 in
/-- The body at any point. The inputs' buffers hold their blocks. The point's position decides the case. At the first
    point the invariant hands over the accumulators at anything and takes them back at that point's contents; at a later
    point it hands them over at what the point before left. Away from the last point the output tiles go back as they
    came (the windows are idle there); at the last point they are stored whole. The core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  have hN : t.val < 20 := lt_of_lt_of_eq t.isLt (show cfg3.N = 20 from N_3)
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 2 t (idleAt3_2 t hc1) (noFlush3_2 t hc1),
      Dat.leavesExact_idle (dat3 V c) 3 t (idleAt3_3 t hc1) (noFlush3_3 t hc1)]
    rw [acc3_first V c t h0]; dsimp only
    rw [Phi3_castSucc V c t, Phi3_zero V c _ _ h0, PhiA3_eq]
    iintro ⟨⟨⟨⟨⟨%e0, HS0⟩, ⟨%e1, HS1⟩⟩, HR⟩, Hg⟩, Ho, ⟨%d0, H0⟩, ⟨%d1, H1⟩, H2, H3⟩
    iapply (sound_kernel3_first c Set.univ _ _ _ _ _ _ _ _ _ _ _ _ _ hc0 hc1 (iblk3 V c 0 t) (iblk3 V c 1 t) e0 e1 _)
    isplitl [H0]; · iexact H0
    isplitl [H1]; · iexact H1
    isplitl [HS0]; · iexact HS0
    isplitl [HS1]; · iexact HS1
    iintro ⟨H0, H1, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    iexact H3
  · have hc0 : ¬cond3_0 (grid3.coords t) := fun h => h0 ((hcond3_0 t).mp h)
    by_cases h1 : t.val = 19
    · have hc1 : cond3_1 (grid3.coords t) := (hcond3_1 t).mpr h1
      rw [show (dat3 V c).leavesExact 2 t = owns (c : Thread nD τ) (st3_2 t) fullShare ((dat3 V c).after 2 t) from by
        unfold Dat.leavesExact; rw [liveAt3_2 t hc1], after3_2]
      rw [show (dat3 V c).leavesExact 3 t = owns (c : Thread nD τ) (st3_3 t) fullShare ((dat3 V c).after 3 t) from by
        unfold Dat.leavesExact; rw [liveAt3_3 t hc1], after3_3]
      rw [acc3_later V c t h0]; dsimp only
      rw [Phi3_castSucc V c t, Phi3_pos V c _ _ h0]
      iintro ⟨⟨⟨⟨HS0, HS1⟩, HR⟩, Hg⟩, Ho, ⟨%d0, H0⟩, ⟨%d1, H1⟩, ⟨%d2, H2⟩, ⟨%d3, H3⟩⟩
      iapply (sound_kernel3_last c Set.univ _ _ _ _ _ _ _ _ _ _ _ _ _ hc0 hc1 (iblk3 V c 0 t) (iblk3 V c 1 t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      iexact H3
    · have hc1 : ¬cond3_1 (grid3.coords t) := fun h => h1 ((hcond3_1 t).mp h)
      rw [Dat.leavesExact_idle (dat3 V c) 2 t (idleAt3_2 t hc1) (noFlush3_2 t hc1),
        Dat.leavesExact_idle (dat3 V c) 3 t (idleAt3_3 t hc1) (noFlush3_3 t hc1)]
      rw [acc3_later V c t h0]; dsimp only
      rw [Phi3_castSucc V c t, Phi3_pos V c _ _ h0]
      iintro ⟨⟨⟨⟨HS0, HS1⟩, HR⟩, Hg⟩, Ho, ⟨%d0, H0⟩, ⟨%d1, H1⟩, H2, H3⟩
      iapply (sound_kernel3_mid c Set.univ _ _ _ _ _ _ _ _ _ _ _ _ _ hc0 hc1 (iblk3 V c 0 t) (iblk3 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After any point but the first the invariant gives the launch's back: the accumulators' contents are forgotten. -/
theorem Phi3_out (c : Dev nD) (t : Fin (cfg3.N + 1)) (ht : t.val ≠ 0) : (dat3 V c).Φ t ⊢ Pipeline.ΦA spec3 c := by
  rw [show (dat3 V c).Φ t = Phi3 V c t.val (Nat.le_of_lt_succ t.isLt) from rfl, Phi3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout3 (c : Dev nD) : (dat3 V c).Φ (Fin.last cfg3.N) ⊢ Pipeline.ΦA spec3 c :=
  Phi3_out V c _ (by rw [Fin.val_last]; have : cfg3.N = 20 := N_3; omega)

/-! ## The two output arrays after the region -/

/-- Point 19 is a point of the grid. -/
theorem pt19_3 : 19 < cfg3.N := by rw [show cfg3.N = 20 from N_3]; decide

/-- The first output array after the region: each output is one block, written back once, at the last point, and that
    write-back covers the whole array; so the array ends at the sum accumulator after the last point. -/
theorem arrAt3_2 (c : Dev nD) : (dat3 V c).arrAt 2 cfg3.N = (acc3 V c 19 (by rw [show cfg3.N = 20 from N_3]; decide)).1 := by
  have e := (dat3 V c).arrAt_succ 2 ⟨19, pt19_3⟩
  have hf : (cfg3.win 2).flush ⟨19, pt19_3⟩ = true := (flush3_2 _).mpr rfl
  rw [hf, if_pos rfl] at e
  have hz : (fun a => (win3_2.index ⟨19, pt19_3⟩) a * main_v66_0.ty.shape.size a) = fun _ => 0 := funext fun a => by fin_cases a <;> decide +kernel
  have hw := fun f w => Memref.write_access_unit_zero_univ (Elt F) main_v66_0 hz (fun a => by fin_cases a <;> decide +kernel) f w
  refine (congrArg ((dat3 V c).arrAt 2) (show cfg3.N = 20 from N_3)).trans (e.trans ((hw _ _).trans ?_))
  show (cfg3.win 2).cut _ ((dat3 V c).after 2 ⟨19, pt19_3⟩) = _
  rw [after3_2]
  rfl

/-- The second output array after the region, likewise: the count accumulator after the last point. -/
theorem arrAt3_3 (c : Dev nD) : (dat3 V c).arrAt 3 cfg3.N = (acc3 V c 19 (by rw [show cfg3.N = 20 from N_3]; decide)).2 := by
  have e := (dat3 V c).arrAt_succ 3 ⟨19, pt19_3⟩
  have hf : (cfg3.win 3).flush ⟨19, pt19_3⟩ = true := (flush3_3 _).mpr rfl
  rw [hf, if_pos rfl] at e
  have hz : (fun a => (win3_3.index ⟨19, pt19_3⟩) a * main_v66_1.ty.shape.size a) = fun _ => 0 := funext fun a => by fin_cases a <;> decide +kernel
  have hw := fun f w => Memref.write_access_unit_zero_univ (Elt F) main_v66_1 hz (fun a => by fin_cases a <;> decide +kernel) f w
  refine (congrArg ((dat3 V c).arrAt 3) (show cfg3.N = 20 from N_3)).trans (e.trans ((hw _ _).trans ?_))
  show (cfg3.win 3).cut _ ((dat3 V c).after 3 ⟨19, pt19_3⟩) = _
  rw [after3_3]
  rfl

end Cert.Kernel.Hand

end
-- ==== Proof.K.Reg4.lean ====
/-
  Region 4 of the program (the head: mean pool, two affine layers, log-soft-maximum, on one grid point): the part of
  its run that does not depend on what the arrays hold. At the contents `V` the region is entered with: each window's
  block, what the body leaves in the output buffer as one function of the six input blocks, the body's triple, the
  pipeline's proof data and the obligation that the body meets it at the grid's one point.
-/
import proofs.«420397_j11227044511906_3_alg».proof.Proof.Gen.Kernel.Launch
import proofs.«420397_j11227044511906_3_alg».proof.Proof.Gen.Kernel.Skeleton
import proofs.«420397_j11227044511906_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at the point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at the point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at the point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at the point. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at the point. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at the point. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev rh_S128x128 : Rect S128x128 := Rect.unit (s := S128x128) ![0, 0] S128x128.size inb_S128x128_S128x128_0_0
abbrev rh_S128x1 : Rect S128x1 := Rect.unit (s := S128x1) ![0, 0] S128x1.size inb_S128x1_S128x1_0_0
abbrev rh_S128 : Rect S128 := Rect.unit (s := S128) ![0] S128.size inb_S128_S128_0
abbrev rh_S128x10 : Rect S128x10 := Rect.unit (s := S128x10) ![0, 0] S128x10.size inb_S128x10_S128x10_0_0
abbrev rh_S10 : Rect S10 := Rect.unit (s := S10) ![0] S10.size inb_S10_S10_0

/-- The output buffer after the body, from the six input blocks (pooled sums, count column, first weights and bias,
    second weights and bias): its one whole-buffer store. -/
def out4_6 (x0 : Vec F S128x128 .f32) (x1 : Vec F S128x1 .f32) (x2 : Vec F S128x128 .f32) (x3 : Vec F S128 .f32) (x4 : Vec F S128x10 .f32) (x5 : Vec F S10 .f32) : Vec F S128x10 .f32 :=
  View.canon [⟨rh_S128x10, k4_pay1 (View.ld x1 rh_S128x1) (View.ld x0 rh_S128x128) (View.ld x2 rh_S128x128) (View.ld x3 rh_S128) (View.ld x4 rh_S128x10) (View.ld x5 rh_S10)⟩]

/-- The one store covers the buffer. -/
theorem cover4_6 (p0 : Vec F S128x10 .f32) (y : S128x10.Idx) :
    ∃ pc ∈ ([⟨rh_S128x10, p0⟩] : List (View.Piece (Elt F) S128x10 .f32)), y ∈ pc.1.set :=
  View.cover_of_tiled [⟨rh_S128x10, p0⟩] S128x10.size (by rfl) y

set_option maxHeartbeats 1000000 in
/-- The body on whole staging buffers, the inputs' at contents `xW` and the output's at anything, runs to the continuation
    with the inputs as they were and the output at `out4_6` of them. -/
theorem sound_kernel4 (c : Dev nD) (E : Set ℕ) (i : grid4.Coords) (arg1 : Memref sig .tc .vmem S128x128 .f32) (harg1 : arg1.IsWhole) (arg2 : Memref sig .tc .vmem S128x1 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x10 .f32) (harg5 : arg5.IsWhole) (arg6 : Memref sig .tc .vmem S10 .f32) (harg6 : arg6.IsWhole) (arg7 : Memref sig .tc .vmem S128x10 .f32) (harg7 : arg7.IsWhole)
    (x0 : Vec F S128x128 .f32) (x1 : Vec F S128x1 .f32) (x2 : Vec F S128x128 .f32) (x3 : Vec F S128 .f32) (x4 : Vec F S128x10 .f32) (x5 : Vec F S10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__mlp_kernel i arg1 harg1 arg2 harg2 arg3 harg3 arg4 harg4 arg5 harg5 arg6 harg6 arg7 harg7) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover4_6 _)

/-- The proof data of the region's pipeline on core `c`: the arrays as found; after the body each input's buffer at its
    block and the output's at `out4_6` of the input blocks; the scoped rest and the generator register untouched;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t
    = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

set_option maxHeartbeats 1000000 in
/-- The body at the point: the inputs' buffers hold their blocks, so the triple applies; the invariant and the core's
    dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at the point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
/-
  The run of the whole program: its five kernel regions among its host operations, from the launch to the return. The
  contents of the unscoped buffers between items are spelt out one by one (a host stretch applies its operations; a
  region changes only its output arrays, to what its write-backs leave), then the regions' records over them, and the
  launch: every final memory holds each unscoped buffer at the last contents.
-/
import proofs.«420397_j11227044511906_3_alg».proof.Proof.K.RunCond
import proofs.«420397_j11227044511906_3_alg».proof.Proof.K.Reg0
import proofs.«420397_j11227044511906_3_alg».proof.Proof.K.Reg1
import proofs.«420397_j11227044511906_3_alg».proof.Proof.K.Reg2
import proofs.«420397_j11227044511906_3_alg».proof.Proof.K.Reg3
import proofs.«420397_j11227044511906_3_alg».proof.Proof.K.Reg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between items, spelt out -/

/-- A valuation read at the TensorCore's references. -/
abbrev rd (W : Dev nD → Valuation τ sig (Elt F)) : (c : Dev nD) → (b : Ref sig .tc) → Buf (Elt F) ((c : Thread nD τ).loc b) :=
  fun c b => W c b

/-- After the first host stretch. -/
def U1 (c : Dev nD) : Valuation τ sig (Elt F) := V1 m c
/-- What region 0 leaves in its output array. -/
def o2 (c : Dev nD) : Buf (Elt F) ((c : Thread nD τ).loc main_v22) := (dat0 (rd (U1 m)) c).arrAt 6 cfg0.N
def U2 (c : Dev nD) : Valuation τ sig (Elt F) := Function.update (U1 m c) main_v22 (o2 m c)
def U3 (c : Dev nD) : Valuation τ sig (Elt F) := StableHlo.after hostOps1 (U2 m c)
/-- What region 1 leaves in its output array. -/
def o4 (c : Dev nD) : Buf (Elt F) ((c : Thread nD τ).loc main_v43) := (dat1 (rd (U3 m)) c).arrAt 6 cfg1.N
def U4 (c : Dev nD) : Valuation τ sig (Elt F) := Function.update (U3 m c) main_v43 (o4 m c)
def U5 (c : Dev nD) : Valuation τ sig (Elt F) := StableHlo.after hostOps2 (U4 m c)
/-- What region 2 leaves in its output array. -/
def o6 (c : Dev nD) : Buf (Elt F) ((c : Thread nD τ).loc main_v64) := (dat2 (rd (U5 m)) c).arrAt 6 cfg2.N
def U6 (c : Dev nD) : Valuation τ sig (Elt F) := Function.update (U5 m c) main_v64 (o6 m c)
def U7 (c : Dev nD) : Valuation τ sig (Elt F) := StableHlo.after hostOps3 (U6 m c)
/-- What region 3 leaves in its two output arrays. -/
def o8a (c : Dev nD) : Buf (Elt F) ((c : Thread nD τ).loc main_v66_0) := (dat3 (rd (U7 m)) c).arrAt 2 cfg3.N
def o8b (c : Dev nD) : Buf (Elt F) ((c : Thread nD τ).loc main_v66_1) := (dat3 (rd (U7 m)) c).arrAt 3 cfg3.N
def U8 (c : Dev nD) : Valuation τ sig (Elt F) := Function.update (Function.update (U7 m c) main_v66_0 (o8a m c)) main_v66_1 (o8b m c)
def U9 (c : Dev nD) : Valuation τ sig (Elt F) := StableHlo.after hostOps4 (U8 m c)
/-- What region 4 leaves in its output array, the program's result. -/
def o10 (c : Dev nD) : Buf (Elt F) ((c : Thread nD τ).loc main_v68) := (dat4 (rd (U9 m)) c).arrAt 6 cfg4.N
def U10 (c : Dev nD) : Valuation τ sig (Elt F) := Function.update (U9 m c) main_v68 (o10 m c)

theorem U2_at_main_v22 (c : Dev nD) : rd (U2 m) c main_v22 = o2 m c := by unfold rd U2; exact Function.update_self ..
theorem U2_other (c : Dev nD) (b : Ref sig .tc) (h : b ≠ main_v22) : rd (U2 m) c b = rd (U1 m) c b := by
  unfold rd U2; exact Function.update_of_ne (StableHlo.devRef_ne_of_ne h) _ _
theorem U4_at_main_v43 (c : Dev nD) : rd (U4 m) c main_v43 = o4 m c := by unfold rd U4; exact Function.update_self ..
theorem U4_other (c : Dev nD) (b : Ref sig .tc) (h : b ≠ main_v43) : rd (U4 m) c b = rd (U3 m) c b := by
  unfold rd U4; exact Function.update_of_ne (StableHlo.devRef_ne_of_ne h) _ _
theorem U6_at_main_v64 (c : Dev nD) : rd (U6 m) c main_v64 = o6 m c := by unfold rd U6; exact Function.update_self ..
theorem U6_other (c : Dev nD) (b : Ref sig .tc) (h : b ≠ main_v64) : rd (U6 m) c b = rd (U5 m) c b := by
  unfold rd U6; exact Function.update_of_ne (StableHlo.devRef_ne_of_ne h) _ _
theorem U8_at_main_v66_1 (c : Dev nD) : rd (U8 m) c main_v66_1 = o8b m c := by unfold rd U8; exact Function.update_self ..
theorem U8_at_main_v66_0 (c : Dev nD) : rd (U8 m) c main_v66_0 = o8a m c := by
  unfold rd U8
  exact (Function.update_of_ne (StableHlo.devRef_ne_of_ne (by decide : main_v66_0 ≠ main_v66_1)) _ _).trans (Function.update_self ..)
theorem U8_other (c : Dev nD) (b : Ref sig .tc) (h0 : b ≠ main_v66_0) (h1 : b ≠ main_v66_1) : rd (U8 m) c b = rd (U7 m) c b := by
  unfold rd U8
  exact (Function.update_of_ne (StableHlo.devRef_ne_of_ne h1) _ _).trans (Function.update_of_ne (StableHlo.devRef_ne_of_ne h0) _ _)
theorem U10_at_main_v68 (c : Dev nD) : rd (U10 m) c main_v68 = o10 m c := by unfold rd U10; exact Function.update_self ..
theorem U10_other (c : Dev nD) (b : Ref sig .tc) (h : b ≠ main_v68) : rd (U10 m) c b = rd (U9 m) c b := by
  unfold rd U10; exact Function.update_of_ne (StableHlo.devRef_ne_of_ne h) _ _

/-- The regions' outputs as one table of unknowns, read at the item after which each is written. -/
def outs : Outs (F := F) := fun j r c => match j with
  | 2 => Function.update (fun r : Ref sig .tc => m ((c : Thread nD τ).loc r)) main_v22 (o2 m c) r
  | 4 => Function.update (fun r : Ref sig .tc => m ((c : Thread nD τ).loc r)) main_v43 (o4 m c) r
  | 6 => Function.update (fun r : Ref sig .tc => m ((c : Thread nD τ).loc r)) main_v64 (o6 m c) r
  | 8 => Function.update (Function.update (fun r : Ref sig .tc => m ((c : Thread nD τ).loc r)) main_v66_0 (o8a m c)) main_v66_1 (o8b m c) r
  | 10 => Function.update (fun r : Ref sig .tc => m ((c : Thread nD τ).loc r)) main_v68 (o10 m c) r
  | _ => m ((c : Thread nD τ).loc r)

theorem outs_2 (c : Dev nD) : outs m 2 main_v22 c = o2 m c := by unfold outs; exact Function.update_self ..
theorem outs_4 (c : Dev nD) : outs m 4 main_v43 c = o4 m c := by unfold outs; exact Function.update_self ..
theorem outs_6 (c : Dev nD) : outs m 6 main_v64 c = o6 m c := by unfold outs; exact Function.update_self ..
theorem outs_8b (c : Dev nD) : outs m 8 main_v66_1 c = o8b m c := by unfold outs; exact Function.update_self ..
theorem outs_8a (c : Dev nD) : outs m 8 main_v66_0 c = o8a m c := by
  unfold outs
  exact (Function.update_of_ne (by decide : main_v66_0 ≠ main_v66_1) _ _).trans (Function.update_self ..)
theorem outs_10 (c : Dev nD) : outs m 10 main_v68 c = o10 m c := by unfold outs; exact Function.update_self ..

theorem V2_eq (c : Dev nD) : V2 m (outs m) c = U2 m c := by
  show Function.update (V1 m c) _ (outs m 2 main_v22 c) = _; rw [outs_2]; rfl
theorem V3_eq (c : Dev nD) : V3 m (outs m) c = U3 m c := by
  show StableHlo.after hostOps1 (V2 m (outs m) c) = _; rw [V2_eq]; rfl
theorem V4_eq (c : Dev nD) : V4 m (outs m) c = U4 m c := by
  show Function.update (V3 m (outs m) c) _ (outs m 4 main_v43 c) = _; rw [V3_eq, outs_4]; rfl
theorem V5_eq (c : Dev nD) : V5 m (outs m) c = U5 m c := by
  show StableHlo.after hostOps2 (V4 m (outs m) c) = _; rw [V4_eq]; rfl
theorem V6_eq (c : Dev nD) : V6 m (outs m) c = U6 m c := by
  show Function.update (V5 m (outs m) c) _ (outs m 6 main_v64 c) = _; rw [V5_eq, outs_6]; rfl
theorem V7_eq (c : Dev nD) : V7 m (outs m) c = U7 m c := by
  show StableHlo.after hostOps3 (V6 m (outs m) c) = _; rw [V6_eq]; rfl
theorem V8_eq (c : Dev nD) : V8 m (outs m) c = U8 m c := by
  show Function.update (Function.update (V7 m (outs m) c) _ (outs m 8 main_v66_0 c)) _ (outs m 8 main_v66_1 c) = _
  rw [V7_eq, outs_8a, outs_8b]; rfl
theorem V9_eq (c : Dev nD) : V9 m (outs m) c = U9 m c := by
  show StableHlo.after hostOps4 (V8 m (outs m) c) = _; rw [V8_eq]; rfl
theorem V10_eq (c : Dev nD) : V10 m (outs m) c = U10 m c := by
  show Function.update (V9 m (outs m) c) _ (outs m 10 main_v68 c) = _; rw [V9_eq, outs_10]; rfl

set_option maxHeartbeats 2000000 in
/-- At the region's exit each of its arrays holds what the write-backs leave, -/
theorem hF0 (c : Dev nD) : ∀ w : Fin cfg0.W, (dat0 (rd (U1 m)) c).arrAt w cfg0.N = rd (U2 m) c (Pipeline.arrRef spec0 w) :=
  fun w => match w with
    | ⟨0, _⟩ => ((dat0 (rd (U1 m)) c).arrAt_in 0 rfl _).trans ((A_eq0 (rd (U1 m)) c 0).trans (U2_other m c _ (by decide)).symm)
    | ⟨1, _⟩ => ((dat0 (rd (U1 m)) c).arrAt_in 1 rfl _).trans ((A_eq0 (rd (U1 m)) c 1).trans (U2_other m c _ (by decide)).symm)
    | ⟨2, _⟩ => ((dat0 (rd (U1 m)) c).arrAt_in 2 rfl _).trans ((A_eq0 (rd (U1 m)) c 2).trans (U2_other m c _ (by decide)).symm)
    | ⟨3, _⟩ => ((dat0 (rd (U1 m)) c).arrAt_in 3 rfl _).trans ((A_eq0 (rd (U1 m)) c 3).trans (U2_other m c _ (by decide)).symm)
    | ⟨4, _⟩ => ((dat0 (rd (U1 m)) c).arrAt_in 4 rfl _).trans ((A_eq0 (rd (U1 m)) c 4).trans (U2_other m c _ (by decide)).symm)
    | ⟨5, _⟩ => ((dat0 (rd (U1 m)) c).arrAt_in 5 rfl _).trans ((A_eq0 (rd (U1 m)) c 5).trans (U2_other m c _ (by decide)).symm)
    | ⟨6, _⟩ => (U2_at_main_v22 m c).symm
/-- and every other buffer what it held at entry. -/
theorem hrest0 (c : Dev nD) : ∀ b, b ∉ Finset.univ.image (Pipeline.arrRef spec0) → rd (U2 m) c b = rd (U1 m) c b :=
  fun b hb => U2_other m c b (fun e => hb (by rw [e]; exact Finset.mem_image.mpr ⟨6, Finset.mem_univ _, rfl⟩))

set_option maxHeartbeats 2000000 in
/-- At the region's exit each of its arrays holds what the write-backs leave, -/
theorem hF1 (c : Dev nD) : ∀ w : Fin cfg1.W, (dat1 (rd (U3 m)) c).arrAt w cfg1.N = rd (U4 m) c (Pipeline.arrRef spec1 w) :=
  fun w => match w with
    | ⟨0, _⟩ => ((dat1 (rd (U3 m)) c).arrAt_in 0 rfl _).trans ((A_eq1 (rd (U3 m)) c 0).trans (U4_other m c _ (by decide)).symm)
    | ⟨1, _⟩ => ((dat1 (rd (U3 m)) c).arrAt_in 1 rfl _).trans ((A_eq1 (rd (U3 m)) c 1).trans (U4_other m c _ (by decide)).symm)
    | ⟨2, _⟩ => ((dat1 (rd (U3 m)) c).arrAt_in 2 rfl _).trans ((A_eq1 (rd (U3 m)) c 2).trans (U4_other m c _ (by decide)).symm)
    | ⟨3, _⟩ => ((dat1 (rd (U3 m)) c).arrAt_in 3 rfl _).trans ((A_eq1 (rd (U3 m)) c 3).trans (U4_other m c _ (by decide)).symm)
    | ⟨4, _⟩ => ((dat1 (rd (U3 m)) c).arrAt_in 4 rfl _).trans ((A_eq1 (rd (U3 m)) c 4).trans (U4_other m c _ (by decide)).symm)
    | ⟨5, _⟩ => ((dat1 (rd (U3 m)) c).arrAt_in 5 rfl _).trans ((A_eq1 (rd (U3 m)) c 5).trans (U4_other m c _ (by decide)).symm)
    | ⟨6, _⟩ => (U4_at_main_v43 m c).symm
/-- and every other buffer what it held at entry. -/
theorem hrest1 (c : Dev nD) : ∀ b, b ∉ Finset.univ.image (Pipeline.arrRef spec1) → rd (U4 m) c b = rd (U3 m) c b :=
  fun b hb => U4_other m c b (fun e => hb (by rw [e]; exact Finset.mem_image.mpr ⟨6, Finset.mem_univ _, rfl⟩))

set_option maxHeartbeats 2000000 in
/-- At the region's exit each of its arrays holds what the write-backs leave, -/
theorem hF2 (c : Dev nD) : ∀ w : Fin cfg2.W, (dat2 (rd (U5 m)) c).arrAt w cfg2.N = rd (U6 m) c (Pipeline.arrRef spec2 w) :=
  fun w => match w with
    | ⟨0, _⟩ => ((dat2 (rd (U5 m)) c).arrAt_in 0 rfl _).trans ((A_eq2 (rd (U5 m)) c 0).trans (U6_other m c _ (by decide)).symm)
    | ⟨1, _⟩ => ((dat2 (rd (U5 m)) c).arrAt_in 1 rfl _).trans ((A_eq2 (rd (U5 m)) c 1).trans (U6_other m c _ (by decide)).symm)
    | ⟨2, _⟩ => ((dat2 (rd (U5 m)) c).arrAt_in 2 rfl _).trans ((A_eq2 (rd (U5 m)) c 2).trans (U6_other m c _ (by decide)).symm)
    | ⟨3, _⟩ => ((dat2 (rd (U5 m)) c).arrAt_in 3 rfl _).trans ((A_eq2 (rd (U5 m)) c 3).trans (U6_other m c _ (by decide)).symm)
    | ⟨4, _⟩ => ((dat2 (rd (U5 m)) c).arrAt_in 4 rfl _).trans ((A_eq2 (rd (U5 m)) c 4).trans (U6_other m c _ (by decide)).symm)
    | ⟨5, _⟩ => ((dat2 (rd (U5 m)) c).arrAt_in 5 rfl _).trans ((A_eq2 (rd (U5 m)) c 5).trans (U6_other m c _ (by decide)).symm)
    | ⟨6, _⟩ => (U6_at_main_v64 m c).symm
/-- and every other buffer what it held at entry. -/
theorem hrest2 (c : Dev nD) : ∀ b, b ∉ Finset.univ.image (Pipeline.arrRef spec2) → rd (U6 m) c b = rd (U5 m) c b :=
  fun b hb => U6_other m c b (fun e => hb (by rw [e]; exact Finset.mem_image.mpr ⟨6, Finset.mem_univ _, rfl⟩))

set_option maxHeartbeats 2000000 in
/-- At the region's exit each of its arrays holds what the write-backs leave, -/
theorem hF3 (c : Dev nD) : ∀ w : Fin cfg3.W, (dat3 (rd (U7 m)) c).arrAt w cfg3.N = rd (U8 m) c (Pipeline.arrRef spec3 w) :=
  fun w => match w with
    | ⟨0, _⟩ => ((dat3 (rd (U7 m)) c).arrAt_in 0 rfl _).trans ((A_eq3 (rd (U7 m)) c 0).trans (U8_other m c _ (by decide) (by decide)).symm)
    | ⟨1, _⟩ => ((dat3 (rd (U7 m)) c).arrAt_in 1 rfl _).trans ((A_eq3 (rd (U7 m)) c 1).trans (U8_other m c _ (by decide) (by decide)).symm)
    | ⟨2, _⟩ => (U8_at_main_v66_0 m c).symm
    | ⟨3, _⟩ => (U8_at_main_v66_1 m c).symm
/-- and every other buffer what it held at entry. -/
theorem hrest3 (c : Dev nD) : ∀ b, b ∉ Finset.univ.image (Pipeline.arrRef spec3) → rd (U8 m) c b = rd (U7 m) c b :=
  fun b hb => U8_other m c b (fun e => hb (by rw [e]; exact Finset.mem_image.mpr ⟨2, Finset.mem_univ _, rfl⟩)) (fun e => hb (by rw [e]; exact Finset.mem_image.mpr ⟨3, Finset.mem_univ _, rfl⟩))

set_option maxHeartbeats 2000000 in
/-- At the region's exit each of its arrays holds what the write-backs leave, -/
theorem hF4 (c : Dev nD) : ∀ w : Fin cfg4.W, (dat4 (rd (U9 m)) c).arrAt w cfg4.N = rd (U10 m) c (Pipeline.arrRef spec4 w) :=
  fun w => match w with
    | ⟨0, _⟩ => ((dat4 (rd (U9 m)) c).arrAt_in 0 rfl _).trans ((A_eq4 (rd (U9 m)) c 0).trans (U10_other m c _ (by decide)).symm)
    | ⟨1, _⟩ => ((dat4 (rd (U9 m)) c).arrAt_in 1 rfl _).trans ((A_eq4 (rd (U9 m)) c 1).trans (U10_other m c _ (by decide)).symm)
    | ⟨2, _⟩ => ((dat4 (rd (U9 m)) c).arrAt_in 2 rfl _).trans ((A_eq4 (rd (U9 m)) c 2).trans (U10_other m c _ (by decide)).symm)
    | ⟨3, _⟩ => ((dat4 (rd (U9 m)) c).arrAt_in 3 rfl _).trans ((A_eq4 (rd (U9 m)) c 3).trans (U10_other m c _ (by decide)).symm)
    | ⟨4, _⟩ => ((dat4 (rd (U9 m)) c).arrAt_in 4 rfl _).trans ((A_eq4 (rd (U9 m)) c 4).trans (U10_other m c _ (by decide)).symm)
    | ⟨5, _⟩ => ((dat4 (rd (U9 m)) c).arrAt_in 5 rfl _).trans ((A_eq4 (rd (U9 m)) c 5).trans (U10_other m c _ (by decide)).symm)
    | ⟨6, _⟩ => (U10_at_main_v68 m c).symm
/-- and every other buffer what it held at entry. -/
theorem hrest4 (c : Dev nD) : ∀ b, b ∉ Finset.univ.image (Pipeline.arrRef spec4) → rd (U10 m) c b = rd (U9 m) c b :=
  fun b hb => U10_other m c b (fun e => hb (by rw [e]; exact Finset.mem_image.mpr ⟨6, Finset.mem_univ _, rfl⟩))

/-! ## The proof data family and the thread state -/

/-- Every pipeline's proof data, each at its region's entry contents. -/
def pdats : (p : Fin 5) → (c : Dev nD) → Dat τ (Elt F) Unit ℕ (UR sig nD τ) ℕ (cfgs p) c
  | ⟨0, _⟩ => fun c => dat0 (rd (U1 m)) c
  | ⟨1, _⟩ => fun c => dat1 (rd (U3 m)) c
  | ⟨2, _⟩ => fun c => dat2 (rd (U5 m)) c
  | ⟨3, _⟩ => fun c => dat3 (rd (U7 m)) c
  | ⟨4, _⟩ => fun c => dat4 (rd (U9 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, at
    nothing. -/
abbrev R (c : Dev nD) : sProp 𝕄 := iprop((∃ r, prngReg c r) ∗ ∃ W, owes (c : Thread nD τ) (0 : CellTallies nD τ sig Unit) W)

/-! ## The regions as records -/

set_option backward.isDefEq.respectTransparency.types false in
/-- Region 0 over the thread state: entered with every unscoped buffer at `U1`, left at `U2`. Its arrays are split
    out of the unscoped buffers and put back at what the write-backs leave; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (rd (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (U1 m) c) (rd (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `U3`, left at `U4`. Its arrays are split
    out of the unscoped buffers and put back at what the write-backs leave; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (rd (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (U3 m) c) (rd (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `U5`, left at `U6`. Its arrays are split
    out of the unscoped buffers and put back at what the write-backs leave; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (U5 m)) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (rd (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (U5 m) c) (rd (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `U7`, left at `U8`. Its arrays are split
    out of the unscoped buffers and put back at what the write-backs leave; the generator register goes into the
    region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (U7 m)) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec3 c (rd (U7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (rd (U7 m)) c)
    unfold Pipeline.ΦA
    iintro ⟨Hp, -, Hr⟩
    isplitl [Hr]; · iexact Hr
    iexact Hp
  hout c := by
    rw [Pipeline.ownSems0_none]
    refine BIBase.Entails.trans (hout3 (rd (U7 m)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (U7 m) c) (rd (U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `U9`, left at `U10`. Its arrays are split
    out of the unscoped buffers and put back at what the write-backs leave; the generator register goes into the
    region's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (rd (U9 m)) c).loose
  hwaits := Pipeline.hwaits_of_owed_zero _ _ _ _ L lv 4 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec4 c (rd (U9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (rd (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (rd (U9 m) c) (rd (U10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- From any memory with zero counters every weakly fair execution terminates, nothing faulting, and every final
    memory holds each unscoped buffer at the last contents `U10`. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = U10 m c b) := by
  have h := run_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE5 := fun c => by iintro ⟨-, H⟩; iexact H)
    (reg0 m) (fun c => .rfl) (fun c => by rw [V2_eq m c]; exact .rfl)
    (reg1 m) (fun c => by rw [V3_eq m c]; exact .rfl) (fun c => by rw [V4_eq m c]; exact .rfl)
    (reg2 m) (fun c => by rw [V5_eq m c]; exact .rfl) (fun c => by rw [V6_eq m c]; exact .rfl)
    (reg3 m) (fun c => by rw [V7_eq m c]; exact .rfl) (fun c => by rw [V8_eq m c]; exact .rfl)
    (reg4 m) (fun c => by rw [V9_eq m c]; exact .rfl) (fun c => by rw [V10_eq m c]; exact .rfl)
  exact (θ_run defs _ _).mono (fun r hr c b hb => (hr c b hb).trans (congrFun (V10_eq m c) b)) h

end Cert.Kernel.Hand

end
-- ==== Proof.K.Flow.lean ====
/-
  What the contents between items hold at the references a later item reads: a host stretch leaves every buffer it
  does not write as it found it, and a region every buffer that is not one of its output arrays. And the run's
  conclusion read at the result array and at the fourteen argument arrays.
-/
import proofs.«420397_j11227044511906_3_alg».proof.Proof.K.Run

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

theorem keep1 (c : Dev nD) (r : Ref sig .tc) (h : r ∉ hostOps0_W) : rd (U1 m) c r = m ((c : Thread nD τ).loc r) :=
  V1_of m c r h
theorem keep2 (c : Dev nD) (r : Ref sig .tc) (h : r ≠ main_v22) : rd (U2 m) c r = rd (U1 m) c r := U2_other m c r h
theorem keep3 (c : Dev nD) (r : Ref sig .tc) (h : r ∉ hostOps1_W) : rd (U3 m) c r = rd (U2 m) c r :=
  (congrFun (V3_eq m c) r).symm.trans ((V3_of m (outs m) c r h).trans (congrFun (V2_eq m c) r))
theorem keep4 (c : Dev nD) (r : Ref sig .tc) (h : r ≠ main_v43) : rd (U4 m) c r = rd (U3 m) c r := U4_other m c r h
theorem keep5 (c : Dev nD) (r : Ref sig .tc) (h : r ∉ hostOps2_W) : rd (U5 m) c r = rd (U4 m) c r :=
  (congrFun (V5_eq m c) r).symm.trans ((V5_of m (outs m) c r h).trans (congrFun (V4_eq m c) r))
theorem keep6 (c : Dev nD) (r : Ref sig .tc) (h : r ≠ main_v64) : rd (U6 m) c r = rd (U5 m) c r := U6_other m c r h
theorem keep7 (c : Dev nD) (r : Ref sig .tc) (h : r ∉ hostOps3_W) : rd (U7 m) c r = rd (U6 m) c r :=
  (congrFun (V7_eq m c) r).symm.trans ((V7_of m (outs m) c r h).trans (congrFun (V6_eq m c) r))
theorem keep8 (c : Dev nD) (r : Ref sig .tc) (h0 : r ≠ main_v66_0) (h1 : r ≠ main_v66_1) : rd (U8 m) c r = rd (U7 m) c r :=
  U8_other m c r h0 h1
theorem keep9 (c : Dev nD) (r : Ref sig .tc) (h : r ∉ hostOps4_W) : rd (U9 m) c r = rd (U8 m) c r :=
  (congrFun (V9_eq m c) r).symm.trans ((V9_of m (outs m) c r h).trans (congrFun (V8_eq m c) r))
theorem keep10 (c : Dev nD) (r : Ref sig .tc) (h : r ≠ main_v68) : rd (U10 m) c r = rd (U9 m) c r := U10_other m c r h

/-- An unscoped TensorCore reference is among those the run's conclusion speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem U10_main_arg0 (c : Dev nD) : U10 m c main_arg0 = m ((c : Thread nD τ).loc main_arg0) :=
  (congrFun (V10_eq m c) _).symm.trans (V10_main_arg0 m (outs m) c)
theorem U10_main_arg1 (c : Dev nD) : U10 m c main_arg1 = m ((c : Thread nD τ).loc main_arg1) :=
  (congrFun (V10_eq m c) _).symm.trans (V10_main_arg1 m (outs m) c)
theorem U10_main_arg2 (c : Dev nD) : U10 m c main_arg2 = m ((c : Thread nD τ).loc main_arg2) :=
  (congrFun (V10_eq m c) _).symm.trans (V10_main_arg2 m (outs m) c)
theorem U10_main_arg3 (c : Dev nD) : U10 m c main_arg3 = m ((c : Thread nD τ).loc main_arg3) :=
  (congrFun (V10_eq m c) _).symm.trans (V10_main_arg3 m (outs m) c)
theorem U10_main_arg4 (c : Dev nD) : U10 m c main_arg4 = m ((c : Thread nD τ).loc main_arg4) :=
  (congrFun (V10_eq m c) _).symm.trans (V10_main_arg4 m (outs m) c)
theorem U10_main_arg5 (c : Dev nD) : U10 m c main_arg5 = m ((c : Thread nD τ).loc main_arg5) :=
  (congrFun (V10_eq m c) _).symm.trans (V10_main_arg5 m (outs m) c)
theorem U10_main_arg6 (c : Dev nD) : U10 m c main_arg6 = m ((c : Thread nD τ).loc main_arg6) :=
  (congrFun (V10_eq m c) _).symm.trans (V10_main_arg6 m (outs m) c)
theorem U10_main_arg7 (c : Dev nD) : U10 m c main_arg7 = m ((c : Thread nD τ).loc main_arg7) :=
  (congrFun (V10_eq m c) _).symm.trans (V10_main_arg7 m (outs m) c)
theorem U10_main_arg8 (c : Dev nD) : U10 m c main_arg8 = m ((c : Thread nD τ).loc main_arg8) :=
  (congrFun (V10_eq m c) _).symm.trans (V10_main_arg8 m (outs m) c)
theorem U10_main_arg9 (c : Dev nD) : U10 m c main_arg9 = m ((c : Thread nD τ).loc main_arg9) :=
  (congrFun (V10_eq m c) _).symm.trans (V10_main_arg9 m (outs m) c)
theorem U10_main_arg10 (c : Dev nD) : U10 m c main_arg10 = m ((c : Thread nD τ).loc main_arg10) :=
  (congrFun (V10_eq m c) _).symm.trans (V10_main_arg10 m (outs m) c)
theorem U10_main_arg11 (c : Dev nD) : U10 m c main_arg11 = m ((c : Thread nD τ).loc main_arg11) :=
  (congrFun (V10_eq m c) _).symm.trans (V10_main_arg11 m (outs m) c)
theorem U10_main_arg12 (c : Dev nD) : U10 m c main_arg12 = m ((c : Thread nD τ).loc main_arg12) :=
  (congrFun (V10_eq m c) _).symm.trans (V10_main_arg12 m (outs m) c)
theorem U10_main_arg13 (c : Dev nD) : U10 m c main_arg13 = m ((c : Thread nD τ).loc main_arg13) :=
  (congrFun (V10_eq m c) _).symm.trans (V10_main_arg13 m (outs m) c)

/-- Every weakly fair execution terminates; the result array ends at what the last region leaves and every argument
    array as launched. -/
theorem run_frame (ρ : Dev nD → PrngReg) :
    θ_run defs (onTc (τ := τ) (main (F := F))) ⟨m, fun _ => 0, ρ⟩ (fun r => ∀ c : Dev nD,
      r.2.mem ((c.tc : Thread nD τ).loc main_v68) = o10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v68 (by decide))).trans (U10_at_main_v68 m c),
     (h c _ (mem_uc main_arg0 (by decide))).trans (U10_main_arg0 m c),
     (h c _ (mem_uc main_arg1 (by decide))).trans (U10_main_arg1 m c),
     (h c _ (mem_uc main_arg2 (by decide))).trans (U10_main_arg2 m c),
     (h c _ (mem_uc main_arg3 (by decide))).trans (U10_main_arg3 m c),
     (h c _ (mem_uc main_arg4 (by decide))).trans (U10_main_arg4 m c),
     (h c _ (mem_uc main_arg5 (by decide))).trans (U10_main_arg5 m c),
     (h c _ (mem_uc main_arg6 (by decide))).trans (U10_main_arg6 m c),
     (h c _ (mem_uc main_arg7 (by decide))).trans (U10_main_arg7 m c),
     (h c _ (mem_uc main_arg8 (by decide))).trans (U10_main_arg8 m c),
     (h c _ (mem_uc main_arg9 (by decide))).trans (U10_main_arg9 m c),
     (h c _ (mem_uc main_arg10 (by decide))).trans (U10_main_arg10 m c),
     (h c _ (mem_uc main_arg11 (by decide))).trans (U10_main_arg11 m c),
     (h c _ (mem_uc main_arg12 (by decide))).trans (U10_main_arg12 m c),
     (h c _ (mem_uc main_arg13 (by decide))).trans (U10_main_arg13 m c)⟩) (run_main m ρ)

end Cert.Kernel.Hand

end
-- ==== Proof.KI.Reg0.lean ====
/-
  Region 0 of the program (one dense layer over a 5000-row tile): the part of its run that does not depend on what the
  arrays hold. At the contents `V` the region is entered with: each window's block at a grid point, what the body leaves
  in the output tile as one function of the six input blocks, the body's triple, the pipeline's proof data and the
  obligation that the body meets it at every grid point. The inputs stay in place; the output tile is stored whole.
-/
import proofs.«420397_j11227044511906_3_alg».proof.Proof.Gen.KernelIdeal.Launch
import proofs.«420397_j11227044511906_3_alg».proof.Proof.Gen.KernelIdeal.Skeleton
import proofs.«420397_j11227044511906_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not it was fetched there: unfetched, the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether or not it was fetched there: unfetched, the
    block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether or not it was fetched there: unfetched, the
    block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether or not it was fetched there: unfetched, the
    block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether or not it was fetched there: unfetched, the
    block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether or not it was fetched there: unfetched, the
    block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole-tile rectangles the body loads and stores through. -/
abbrev rb_S5000x1280 : Rect S5000x128 := Rect.unit (s := S5000x128) ![0, 0] S5000x128.size inb_S5000x128_S5000x128_0_0
abbrev rb_S5000x10 : Rect S5000x1 := Rect.unit (s := S5000x1) ![0, 0] S5000x1.size inb_S5000x1_S5000x1_0_0
abbrev rb_S128x1280 : Rect S128x128 := Rect.unit (s := S128x128) ![0, 0] S128x128.size inb_S128x128_S128x128_0_0
abbrev rb_S1280 : Rect S128 := Rect.unit (s := S128) ![0] S128.size inb_S128_S128_0

/-- The output tile after the body, from the six input blocks (aggregate, features, degree column, the two weight
    matrices, the bias): its one whole-tile store. -/
def out0_6 (x0 : Vec F S5000x128 .f32) (x1 : Vec F S5000x128 .f32) (x2 : Vec F S5000x1 .f32) (x3 : Vec F S128x128 .f32) (x4 : Vec F S128x128 .f32) (x5 : Vec F S128 .f32) : Vec F S5000x128 .bf16 :=
  View.canon [⟨rb_S5000x1280, k0_pay1 (View.ld x2 rb_S5000x10) (View.ld x0 rb_S5000x1280) (View.ld x1 rb_S5000x1280) (View.ld x3 rb_S128x1280) (View.ld x4 rb_S128x1280) (View.ld x5 rb_S1280)⟩]

/-- The one store covers the tile. -/
theorem cover0_6 (p0 : Vec F S5000x128 .bf16) (y : S5000x128.Idx) :
    ∃ pc ∈ ([⟨rb_S5000x1280, p0⟩] : List (View.Piece (Elt F) S5000x128 .bf16)), y ∈ pc.1.set :=
  View.cover_of_tiled [⟨rb_S5000x1280, p0⟩] S5000x128.size (by rfl) y

set_option maxHeartbeats 1000000 in
/-- The body on whole staging buffers, the inputs' at contents `xW` and the output's at anything, runs to the continuation
    with the inputs as they were and the output at `out0_6` of them. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .bf16) (harg7 : arg7.IsWhole)
    (x0 : Vec F S5000x128 .f32) (x1 : Vec F S5000x128 .f32) (x2 : Vec F S5000x1 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__sage_dense_kernel i arg1 harg1 arg2 harg2 arg3 harg3 arg4 harg4 arg5 harg5 arg6 harg6 arg7 harg7) K := by
  simp only [cc0__sage_dense_kernel_eq_skeleton]; unfold cc0__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover0_6 _)

/-- The proof data of the region's pipeline on core `c`: the arrays as found; after the body each input's buffer at its
    block and the output's at `out0_6` of the input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the program (one dense layer over a 5000-row tile): the part of its run that does not depend on what the
  arrays hold. At the contents `V` the region is entered with: each window's block at a grid point, what the body leaves
  in the output tile as one function of the six input blocks, the body's triple, the pipeline's proof data and the
  obligation that the body meets it at every grid point. The inputs stay in place; the output tile is stored whole.
-/
import proofs.«420397_j11227044511906_3_alg».proof.Proof.Gen.KernelIdeal.Launch
import proofs.«420397_j11227044511906_3_alg».proof.Proof.Gen.KernelIdeal.Skeleton
import proofs.«420397_j11227044511906_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not it was fetched there: unfetched, the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether or not it was fetched there: unfetched, the
    block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether or not it was fetched there: unfetched, the
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether or not it was fetched there: unfetched, the
    block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether or not it was fetched there: unfetched, the
    block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether or not it was fetched there: unfetched, the
    block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-tile rectangles the body loads and stores through. -/
abbrev rb_S5000x1281 : Rect S5000x128 := Rect.unit (s := S5000x128) ![0, 0] S5000x128.size inb_S5000x128_S5000x128_0_0
abbrev rb_S5000x11 : Rect S5000x1 := Rect.unit (s := S5000x1) ![0, 0] S5000x1.size inb_S5000x1_S5000x1_0_0
abbrev rb_S128x1281 : Rect S128x128 := Rect.unit (s := S128x128) ![0, 0] S128x128.size inb_S128x128_S128x128_0_0
abbrev rb_S1281 : Rect S128 := Rect.unit (s := S128) ![0] S128.size inb_S128_S128_0

/-- The output tile after the body, from the six input blocks (aggregate, features, degree column, the two weight
    matrices, the bias): its one whole-tile store. -/
def out1_6 (x0 : Vec F S5000x128 .f32) (x1 : Vec F S5000x128 .bf16) (x2 : Vec F S5000x1 .f32) (x3 : Vec F S128x128 .f32) (x4 : Vec F S128x128 .f32) (x5 : Vec F S128 .f32) : Vec F S5000x128 .bf16 :=
  View.canon [⟨rb_S5000x1281, k1_pay1 (View.ld x2 rb_S5000x11) (View.ld x0 rb_S5000x1281) (View.ld x1 rb_S5000x1281) (View.ld x3 rb_S128x1281) (View.ld x4 rb_S128x1281) (View.ld x5 rb_S1281)⟩]

/-- The one store covers the tile. -/
theorem cover1_6 (p0 : Vec F S5000x128 .bf16) (y : S5000x128.Idx) :
    ∃ pc ∈ ([⟨rb_S5000x1281, p0⟩] : List (View.Piece (Elt F) S5000x128 .bf16)), y ∈ pc.1.set :=
  View.cover_of_tiled [⟨rb_S5000x1281, p0⟩] S5000x128.size (by rfl) y

set_option maxHeartbeats 1000000 in
/-- The body on whole staging buffers, the inputs' at contents `xW` and the output's at anything, runs to the continuation
    with the inputs as they were and the output at `out1_6` of them. -/
theorem sound_kernel1 (c : Dev nD) (E : Set ℕ) (i : grid1.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .bf16) (harg7 : arg7.IsWhole)
    (x0 : Vec F S5000x128 .f32) (x1 : Vec F S5000x128 .bf16) (x2 : Vec F S5000x1 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__sage_dense_kernel i arg1 harg1 arg2 harg2 arg3 harg3 arg4 harg4 arg5 harg5 arg6 harg6 arg7 harg7) K := by
  simp only [cc1__sage_dense_kernel_eq_skeleton]; unfold cc1__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover1_6 _)

/-- The proof data of the region's pipeline on core `c`: the arrays as found; after the body each input's buffer at its
    block and the output's at `out1_6` of the input blocks; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the program (one dense layer over a 5000-row tile): the part of its run that does not depend on what the
  arrays hold. At the contents `V` the region is entered with: each window's block at a grid point, what the body leaves
  in the output tile as one function of the six input blocks, the body's triple, the pipeline's proof data and the
  obligation that the body meets it at every grid point. The inputs stay in place; the output tile is stored whole.
-/
import proofs.«420397_j11227044511906_3_alg».proof.Proof.Gen.KernelIdeal.Launch
import proofs.«420397_j11227044511906_3_alg».proof.Proof.Gen.KernelIdeal.Skeleton
import proofs.«420397_j11227044511906_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether or not it was fetched there: unfetched, the
    block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether or not it was fetched there: unfetched, the
    block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether or not it was fetched there: unfetched, the
    block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether or not it was fetched there: unfetched, the
    block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether or not it was fetched there: unfetched, the
    block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether or not it was fetched there: unfetched, the
    block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-tile rectangles the body loads and stores through. -/
abbrev rb_S5000x1282 : Rect S5000x128 := Rect.unit (s := S5000x128) ![0, 0] S5000x128.size inb_S5000x128_S5000x128_0_0
abbrev rb_S5000x12 : Rect S5000x1 := Rect.unit (s := S5000x1) ![0, 0] S5000x1.size inb_S5000x1_S5000x1_0_0
abbrev rb_S128x1282 : Rect S128x128 := Rect.unit (s := S128x128) ![0, 0] S128x128.size inb_S128x128_S128x128_0_0
abbrev rb_S1282 : Rect S128 := Rect.unit (s := S128) ![0] S128.size inb_S128_S128_0

/-- The output tile after the body, from the six input blocks (aggregate, features, degree column, the two weight
    matrices, the bias): its one whole-tile store. -/
def out2_6 (x0 : Vec F S5000x128 .f32) (x1 : Vec F S5000x128 .bf16) (x2 : Vec F S5000x1 .f32) (x3 : Vec F S128x128 .f32) (x4 : Vec F S128x128 .f32) (x5 : Vec F S128 .f32) : Vec F S5000x128 .bf16 :=
  View.canon [⟨rb_S5000x1282, k2_pay1 (View.ld x2 rb_S5000x12) (View.ld x0 rb_S5000x1282) (View.ld x1 rb_S5000x1282) (View.ld x3 rb_S128x1282) (View.ld x4 rb_S128x1282) (View.ld x5 rb_S1282)⟩]

/-- The one store covers the tile. -/
theorem cover2_6 (p0 : Vec F S5000x128 .bf16) (y : S5000x128.Idx) :
    ∃ pc ∈ ([⟨rb_S5000x1282, p0⟩] : List (View.Piece (Elt F) S5000x128 .bf16)), y ∈ pc.1.set :=
  View.cover_of_tiled [⟨rb_S5000x1282, p0⟩] S5000x128.size (by rfl) y

set_option maxHeartbeats 1000000 in
/-- The body on whole staging buffers, the inputs' at contents `xW` and the output's at anything, runs to the continuation
    with the inputs as they were and the output at `out2_6` of them. -/
theorem sound_kernel2 (c : Dev nD) (E : Set ℕ) (i : grid2.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .bf16) (harg7 : arg7.IsWhole)
    (x0 : Vec F S5000x128 .f32) (x1 : Vec F S5000x128 .bf16) (x2 : Vec F S5000x1 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__sage_dense_kernel i arg1 harg1 arg2 harg2 arg3 harg3 arg4 harg4 arg5 harg5 arg6 harg6 arg7 harg7) K := by
  simp only [cc2__sage_dense_kernel_eq_skeleton]; unfold cc2__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover2_6 _)

/-- The proof data of the region's pipeline on core `c`: the arrays as found; after the body each input's buffer at its
    block and the output's at `out2_6` of the input blocks; the scoped rest and the generator register untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 of the program (the per-graph pooling over twenty 5000-row tiles): the part of its run that does not depend on
  what the arrays hold. The body keeps two accumulators of its own between grid points, a 128 x 128 sum and a 128-entry
  count: it clears them at the first point, adds the point's tile into them at every point, and copies them into the two
  output tiles at the last point only, where alone the pipeline writes those tiles back. At the contents `V` the region is
  entered with: each window's block at a grid point, the two accumulators after each point by recursion on the point,
  the body's triple in each of its three cases (first point, a middle point, last point), the pipeline's proof data whose
  invariant carries the accumulators from point to point, the obligation that the body meets it at every point, and what
  the two output arrays hold when the region is left.
-/
import proofs.«420397_j11227044511906_3_alg».proof.Proof.Gen.KernelIdeal.Launch
import proofs.«420397_j11227044511906_3_alg».proof.Proof.Gen.KernelIdeal.Skeleton
import proofs.«420397_j11227044511906_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The two accumulators after the body at point `n`: at the first point the point's tile added into the cleared
    accumulators, afterwards added into what the point before left. -/
def acc3 (c : Dev nD) : (n : ℕ) → n < cfg3.N → Vec F S128x128 .f32 × Vec F S128 .f32
  | 0, hn => (k3_pay4 (iblk3 V c 1 ⟨0, hn⟩) (iblk3 V c 0 ⟨0, hn⟩) k3_pay1, k3_pay5 (iblk3 V c 1 ⟨0, hn⟩) k3_pay2)
  | n + 1, hn => (k3_pay4 (iblk3 V c 1 ⟨n + 1, hn⟩) (iblk3 V c 0 ⟨n + 1, hn⟩) (acc3 c n (Nat.lt_of_succ_lt hn)).1,
      k3_pay5 (iblk3 V c 1 ⟨n + 1, hn⟩) (acc3 c n (Nat.lt_of_succ_lt hn)).2)

theorem acc3_zero (c : Dev nD) (hn : 0 < cfg3.N) :
    acc3 V c 0 hn = (k3_pay4 (iblk3 V c 1 ⟨0, hn⟩) (iblk3 V c 0 ⟨0, hn⟩) k3_pay1, k3_pay5 (iblk3 V c 1 ⟨0, hn⟩) k3_pay2) := rfl

theorem acc3_succ (c : Dev nD) (n : ℕ) (hn : n + 1 < cfg3.N) :
    acc3 V c (n + 1) hn = (k3_pay4 (iblk3 V c 1 ⟨n + 1, hn⟩) (iblk3 V c 0 ⟨n + 1, hn⟩) (acc3 V c n (Nat.lt_of_succ_lt hn)).1,
      k3_pay5 (iblk3 V c 1 ⟨n + 1, hn⟩) (acc3 V c n (Nat.lt_of_succ_lt hn)).2) := rfl

/-- The two accumulators as the body is handed them: whole scoped buffers of the kernel's own. -/
abbrev scM3_0 : Memref sig .tc .vmem S128x128 .f32 := Memref.whole cc3_scratch0
abbrev scM3_1 : Memref sig .tc .vmem S128 .f32 := Memref.whole cc3_scratch1

/-- The region invariant before position `n`: before the first point every scoped buffer that is no staging buffer at
    anything and the generator register at some state; afterwards the two accumulators at what the point before left in
    them, the other such buffers at anything, the register at some state. -/
def Phi3 (c : Dev nD) : (n : ℕ) → n ≤ cfg3.N → sProp 𝕄
  | 0, _ => Pipeline.ΦA spec3 c
  | n + 1, hn => iprop(iprop(iprop(owns (c : Thread nD τ) scM3_0 fullShare (acc3 V c n hn).1 ∗ owns (c : Thread nD τ) scM3_1 fullShare (acc3 V c n hn).2)
      ∗ Pipeline.scopedRestBut (Ix := Unit) (Name := ℕ) (U := UR sig nD τ) (Lvl := ℕ) (Val := Elt F) spec3 c [cc3_scratch0, cc3_scratch1]) ∗ (∃ r, prngReg c r))

/-- The zero offsets of a whole-buffer rectangle, shape by shape. -/
theorem hzT3 : (![0, 0] : Fin S5000x128.rank → Nat) = fun _ => 0 := funext fun a => by fin_cases a <;> rfl
theorem hzI3 : (![0, 0] : Fin S5000x1.rank → Nat) = fun _ => 0 := funext fun a => by fin_cases a <;> rfl
theorem hzA3 : (![0, 0] : Fin S128x128.rank → Nat) = fun _ => 0 := funext fun a => by fin_cases a <;> rfl
theorem hzC3 : (![0] : Fin S128.rank → Nat) = fun _ => 0 := funext fun a => by fin_cases a <;> rfl

/-- A load through the whole-shape rectangle at zero offsets reads the buffer's contents. -/
theorem readAt_whole3 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb _

/-- A store through it, made last, leaves its payload, whatever was stored before and whatever the buffer held. -/
theorem read_writes_whole3 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- The first branch of the body (clearing the accumulators) is taken where the grid coordinate is zero, -/
abbrev cond3_0 (i : grid3.Coords) : Prop := (Scalar.cmpi .ne (Scalar.extui (Scalar.cmpi .eq (BitVec.ofNat 32 (i 0).val) 0#32)) 0#32) = 1#1
/-- the last (copying them out) where it is nineteen. -/
abbrev cond3_1 (i : grid3.Coords) : Prop := k3_cond2 i = 1#1

theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val = 19 :=
  (by decide +kernel : ∀ t : Fin grid3.N, cond3_1 (grid3.coords t) ↔ t.val = 19)

/-! ## Where the windows are idle -/

/-- The two input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- Away from the last point the two output windows are idle and not written back; at it they are live. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The inputs' staging buffers -/

/-- An input window's staging buffer holds its block at every point: both are fetched at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body, case by case -/

set_option maxHeartbeats 1000000 in
/-- The body at the first point: whatever the accumulators held, they are cleared and take the point's tile; the output
    tiles are not touched. -/
theorem sound_kernel3_first (c : Dev nD) (E : Set ℕ) (i : grid3.Coords) (arg1 : Memref sig .tc .vmem S5000x128 .bf16) (harg1 : arg1.IsWhole) (arg2 : Memref sig .tc .vmem S5000x1 .i32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole)
    (hc0 : cond3_0 i) (hc1 : ¬cond3_1 i)
    (x0 : Vec F S5000x128 .bf16) (x1 : Vec F S5000x1 .i32) (s0 : Vec F S128x128 .f32) (s1 : Vec F S128 .f32) (K : PUnit → sProp 𝕄) :
    iprop(owns (c : Thread nD τ) arg1 fullShare x0 ∗ owns (c : Thread nD τ) arg2 fullShare x1 ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg5 fullShare (k3_pay4 x1 x0 k3_pay1) ∗ owns (c : Thread nD τ) arg6 fullShare (k3_pay5 x1 k3_pay2)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%g0, %hg0, S0⟩, ⟨%g1, %hg1, S1⟩, Hk⟩
  subst hf0; subst hf1; subst hg0; subst hg1
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [S0]
  · iexists _; isplitr
    swap; · iexact S0
    ipureintro
    sl_unfold_run_names
    rw [read_writes_whole3 _ _ hzA3, readAt_whole3 _ _ hzI3, readAt_whole3 _ _ hzT3, View.readCov_unit_zero _ hzA3]
  iexists _; isplitr
  swap; · iexact S1
  ipureintro
  sl_unfold_run_names
  rw [read_writes_whole3 _ _ hzC3, readAt_whole3 _ _ hzI3, View.readCov_unit_zero _ hzC3]

set_option maxHeartbeats 1000000 in
/-- The body at a point that is neither first nor last: the inputs stay, each accumulator takes the point's tile added
    into what it held; the output tiles are not touched. -/
theorem sound_kernel3_mid (c : Dev nD) (E : Set ℕ) (i : grid3.Coords) (arg1 : Memref sig .tc .vmem S5000x128 .bf16) (harg1 : arg1.IsWhole) (arg2 : Memref sig .tc .vmem S5000x1 .i32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole)
    (hc0 : ¬cond3_0 i) (hc1 : ¬cond3_1 i)
    (x0 : Vec F S5000x128 .bf16) (x1 : Vec F S5000x1 .i32) (s0 : Vec F S128x128 .f32) (s1 : Vec F S128 .f32) (K : PUnit → sProp 𝕄) :
    iprop(owns (c : Thread nD τ) arg1 fullShare x0 ∗ owns (c : Thread nD τ) arg2 fullShare x1 ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg5 fullShare (k3_pay4 x1 x0 s0) ∗ owns (c : Thread nD τ) arg6 fullShare (k3_pay5 x1 s1)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%g0, %hg0, S0⟩, ⟨%g1, %hg1, S1⟩, Hk⟩
  subst hf0; subst hf1; subst hg0; subst hg1
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [S0]
  · iexists _; isplitr
    swap; · iexact S0
    ipureintro
    rw [read_writes_whole3 _ _ hzA3, readAt_whole3 _ _ hzI3, readAt_whole3 _ _ hzT3, readAt_whole3 _ _ hzA3]
  iexists _; isplitr
  swap; · iexact S1
  ipureintro
  rw [read_writes_whole3 _ _ hzC3, readAt_whole3 _ _ hzI3, readAt_whole3 _ _ hzC3]

set_option maxHeartbeats 1000000 in
/-- The body at the last point: the accumulators take the point's tile as at a middle point, and what they then hold is
    copied into the two output tiles, whatever those held. -/
theorem sound_kernel3_last (c : Dev nD) (E : Set ℕ) (i : grid3.Coords) (arg1 : Memref sig .tc .vmem S5000x128 .bf16) (harg1 : arg1.IsWhole) (arg2 : Memref sig .tc .vmem S5000x1 .i32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole)
    (hc0 : ¬cond3_0 i) (hc1 : cond3_1 i)
    (x0 : Vec F S5000x128 .bf16) (x1 : Vec F S5000x1 .i32) (s0 : Vec F S128x128 .f32) (s1 : Vec F S128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare (k3_pay4 x1 x0 s0) ∗ owns (c : Thread nD τ) arg4 fullShare (k3_pay5 x1 s1) ∗ owns (c : Thread nD τ) arg5 fullShare (k3_pay4 x1 x0 s0) ∗ owns (c : Thread nD τ) arg6 fullShare (k3_pay5 x1 s1)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%d2, %f2, -, H2⟩, ⟨%d3, %f3, -, H3⟩, ⟨%g0, %hg0, S0⟩, ⟨%g1, %hg1, S1⟩, Hk⟩
  subst hf0; subst hf1; subst hg0; subst hg1
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]
  · iexists _; isplitr
    swap; · iexact H2
    ipureintro
    sl_unfold_run_names
    rw [read_writes_whole3 _ _ hzA3, View.readCov_unit_zero _ hzA3, readAt_whole3 _ _ hzI3, readAt_whole3 _ _ hzT3, readAt_whole3 _ _ hzA3]
  isplitl [H3]
  · iexists _; isplitr
    swap; · iexact H3
    ipureintro
    sl_unfold_run_names
    rw [read_writes_whole3 _ _ hzC3, View.readCov_unit_zero _ hzC3, readAt_whole3 _ _ hzI3, readAt_whole3 _ _ hzC3]
  isplitl [S0]
  · iexists _; isplitr
    swap; · iexact S0
    ipureintro
    sl_unfold_run_names
    rw [read_writes_whole3 _ _ hzA3, readAt_whole3 _ _ hzI3, readAt_whole3 _ _ hzT3, readAt_whole3 _ _ hzA3]
  iexists _; isplitr
  swap; · iexact S1
  ipureintro
  sl_unfold_run_names
  rw [read_writes_whole3 _ _ hzC3, readAt_whole3 _ _ hzI3, readAt_whole3 _ _ hzC3]

/-! ## The pipeline's proof data -/

/-- The proof data of the region's pipeline on core `c`: the arrays as found; after the body each input's buffer at its
    block and the two outputs' at the accumulators after the point (they are stored at the last point only, where alone
    that is read); the invariant carrying the accumulators; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (acc3 V c t.val t.isLt).1
    | ⟨3, _⟩ => (acc3 V c t.val t.isLt).2
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (acc3 V c t.val t.isLt).1 := by dsimp only [dat3]
theorem after3_3 (c : Dev nD) (t : Fin cfg3.N) : (dat3 V c).after 3 t = (acc3 V c t.val t.isLt).2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The accumulators and the invariant, point by point -/

/-- The accumulators after the first point. -/
theorem acc3_first (c : Dev nD) (t : Fin cfg3.N) (h : t.val = 0) :
    acc3 V c t.val t.isLt = (k3_pay4 (iblk3 V c 1 t) (iblk3 V c 0 t) k3_pay1, k3_pay5 (iblk3 V c 1 t) k3_pay2) := by
  obtain ⟨n, hn⟩ := t
  cases n with
  | zero => rfl
  | succ n => exact absurd h (Nat.succ_ne_zero n)

/-- The accumulators after a later point, over what the point before left. -/
theorem acc3_later (c : Dev nD) (t : Fin cfg3.N) (h : t.val ≠ 0) :
    acc3 V c t.val t.isLt
      = (k3_pay4 (iblk3 V c 1 t) (iblk3 V c 0 t) (acc3 V c (t.val - 1) (Nat.lt_of_le_of_lt (Nat.sub_le _ _) t.isLt)).1,
         k3_pay5 (iblk3 V c 1 t) (acc3 V c (t.val - 1) (Nat.lt_of_le_of_lt (Nat.sub_le _ _) t.isLt)).2) := by
  obtain ⟨n, hn⟩ := t
  cases n with
  | zero => exact absurd rfl h
  | succ n => rfl

theorem Phi3_zero (c : Dev nD) (n : ℕ) (h : n ≤ cfg3.N) (hz : n = 0) : Phi3 V c n h = Pipeline.ΦA spec3 c := by
  subst hz; rfl

/-- After point `n` (before point `n + 1`): the accumulators at that point's contents. -/
theorem Phi3_succ (c : Dev nD) (n : ℕ) (hn : n < cfg3.N) :
    Phi3 V c (n + 1) hn = iprop(iprop(iprop(owns (c : Thread nD τ) scM3_0 fullShare (acc3 V c n hn).1 ∗ owns (c : Thread nD τ) scM3_1 fullShare (acc3 V c n hn).2)
      ∗ Pipeline.scopedRestBut (Ix := Unit) (Name := ℕ) (U := UR sig nD τ) (Lvl := ℕ) (Val := Elt F) spec3 c [cc3_scratch0, cc3_scratch1]) ∗ (∃ r, prngReg c r)) := rfl

/-- Before a point that is not the first: the accumulators at what the point before left. -/
theorem Phi3_pos (c : Dev nD) (n : ℕ) (h : n ≤ cfg3.N) (hz : n ≠ 0) :
    Phi3 V c n h = iprop(iprop(iprop(owns (c : Thread nD τ) scM3_0 fullShare (acc3 V c (n - 1) (by omega)).1 ∗ owns (c : Thread nD τ) scM3_1 fullShare (acc3 V c (n - 1) (by omega)).2)
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-- What the launch hands the region, with the two accumulators named: each at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

/-- The invariant at a point's start, restated at the point's position. -/
theorem Phi3_castSucc (c : Dev nD) (t : Fin cfg3.N) :
    (dat3 V c).Φ t.castSucc = Phi3 V c t.val (Nat.le_of_lt t.isLt) := by
  dsimp only [dat3]; simp only [Fin.coe_castSucc]

/-! ## The body obligation -/

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4000000 in
/-- The body at any point. The inputs' buffers hold their blocks. The point's position decides the case. At the first
    point the invariant hands over the accumulators at anything and takes them back at that point's contents; at a later
    point it hands them over at what the point before left. Away from the last point the output tiles go back as they
    came (the windows are idle there); at the last point they are stored whole. The core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  have hN : t.val < 20 := lt_of_lt_of_eq t.isLt (show cfg3.N = 20 from N_3)
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 2 t (idleAt3_2 t hc1) (noFlush3_2 t hc1),
      Dat.leavesExact_idle (dat3 V c) 3 t (idleAt3_3 t hc1) (noFlush3_3 t hc1)]
    rw [acc3_first V c t h0]; dsimp only
    rw [Phi3_castSucc V c t, Phi3_zero V c _ _ h0, PhiA3_eq]
    iintro ⟨⟨⟨⟨⟨%e0, HS0⟩, ⟨%e1, HS1⟩⟩, HR⟩, Hg⟩, Ho, ⟨%d0, H0⟩, ⟨%d1, H1⟩, H2, H3⟩
    iapply (sound_kernel3_first c Set.univ _ _ _ _ _ _ _ _ _ _ _ _ _ hc0 hc1 (iblk3 V c 0 t) (iblk3 V c 1 t) e0 e1 _)
    isplitl [H0]; · iexact H0
    isplitl [H1]; · iexact H1
    isplitl [HS0]; · iexact HS0
    isplitl [HS1]; · iexact HS1
    iintro ⟨H0, H1, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    iexact H3
  · have hc0 : ¬cond3_0 (grid3.coords t) := fun h => h0 ((hcond3_0 t).mp h)
    by_cases h1 : t.val = 19
    · have hc1 : cond3_1 (grid3.coords t) := (hcond3_1 t).mpr h1
      rw [show (dat3 V c).leavesExact 2 t = owns (c : Thread nD τ) (st3_2 t) fullShare ((dat3 V c).after 2 t) from by
        unfold Dat.leavesExact; rw [liveAt3_2 t hc1], after3_2]
      rw [show (dat3 V c).leavesExact 3 t = owns (c : Thread nD τ) (st3_3 t) fullShare ((dat3 V c).after 3 t) from by
        unfold Dat.leavesExact; rw [liveAt3_3 t hc1], after3_3]
      rw [acc3_later V c t h0]; dsimp only
      rw [Phi3_castSucc V c t, Phi3_pos V c _ _ h0]
      iintro ⟨⟨⟨⟨HS0, HS1⟩, HR⟩, Hg⟩, Ho, ⟨%d0, H0⟩, ⟨%d1, H1⟩, ⟨%d2, H2⟩, ⟨%d3, H3⟩⟩
      iapply (sound_kernel3_last c Set.univ _ _ _ _ _ _ _ _ _ _ _ _ _ hc0 hc1 (iblk3 V c 0 t) (iblk3 V c 1 t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      iexact H3
    · have hc1 : ¬cond3_1 (grid3.coords t) := fun h => h1 ((hcond3_1 t).mp h)
      rw [Dat.leavesExact_idle (dat3 V c) 2 t (idleAt3_2 t hc1) (noFlush3_2 t hc1),
        Dat.leavesExact_idle (dat3 V c) 3 t (idleAt3_3 t hc1) (noFlush3_3 t hc1)]
      rw [acc3_later V c t h0]; dsimp only
      rw [Phi3_castSucc V c t, Phi3_pos V c _ _ h0]
      iintro ⟨⟨⟨⟨HS0, HS1⟩, HR⟩, Hg⟩, Ho, ⟨%d0, H0⟩, ⟨%d1, H1⟩, H2, H3⟩
      iapply (sound_kernel3_mid c Set.univ _ _ _ _ _ _ _ _ _ _ _ _ _ hc0 hc1 (iblk3 V c 0 t) (iblk3 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After any point but the first the invariant gives the launch's back: the accumulators' contents are forgotten. -/
theorem Phi3_out (c : Dev nD) (t : Fin (cfg3.N + 1)) (ht : t.val ≠ 0) : (dat3 V c).Φ t ⊢ Pipeline.ΦA spec3 c := by
  rw [show (dat3 V c).Φ t = Phi3 V c t.val (Nat.le_of_lt_succ t.isLt) from rfl, Phi3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout3 (c : Dev nD) : (dat3 V c).Φ (Fin.last cfg3.N) ⊢ Pipeline.ΦA spec3 c :=
  Phi3_out V c _ (by rw [Fin.val_last]; have : cfg3.N = 20 := N_3; omega)

/-! ## The two output arrays after the region -/

/-- Point 19 is a point of the grid. -/
theorem pt19_3 : 19 < cfg3.N := by rw [show cfg3.N = 20 from N_3]; decide

/-- The first output array after the region: each output is one block, written back once, at the last point, and that
    write-back covers the whole array; so the array ends at the sum accumulator after the last point. -/
theorem arrAt3_2 (c : Dev nD) : (dat3 V c).arrAt 2 cfg3.N = (acc3 V c 19 (by rw [show cfg3.N = 20 from N_3]; decide)).1 := by
  have e := (dat3 V c).arrAt_succ 2 ⟨19, pt19_3⟩
  have hf : (cfg3.win 2).flush ⟨19, pt19_3⟩ = true := (flush3_2 _).mpr rfl
  rw [hf, if_pos rfl] at e
  have hz : (fun a => (win3_2.index ⟨19, pt19_3⟩) a * main_v66_0.ty.shape.size a) = fun _ => 0 := funext fun a => by fin_cases a <;> decide +kernel
  have hw := fun f w => Memref.write_access_unit_zero_univ (Elt F) main_v66_0 hz (fun a => by fin_cases a <;> decide +kernel) f w
  refine (congrArg ((dat3 V c).arrAt 2) (show cfg3.N = 20 from N_3)).trans (e.trans ((hw _ _).trans ?_))
  show (cfg3.win 2).cut _ ((dat3 V c).after 2 ⟨19, pt19_3⟩) = _
  rw [after3_2]
  rfl

/-- The second output array after the region, likewise: the count accumulator after the last point. -/
theorem arrAt3_3 (c : Dev nD) : (dat3 V c).arrAt 3 cfg3.N = (acc3 V c 19 (by rw [show cfg3.N = 20 from N_3]; decide)).2 := by
  have e := (dat3 V c).arrAt_succ 3 ⟨19, pt19_3⟩
  have hf : (cfg3.win 3).flush ⟨19, pt19_3⟩ = true := (flush3_3 _).mpr rfl
  rw [hf, if_pos rfl] at e
  have hz : (fun a => (win3_3.index ⟨19, pt19_3⟩) a * main_v66_1.ty.shape.size a) = fun _ => 0 := funext fun a => by fin_cases a <;> decide +kernel
  have hw := fun f w => Memref.write_access_unit_zero_univ (Elt F) main_v66_1 hz (fun a => by fin_cases a <;> decide +kernel) f w
  refine (congrArg ((dat3 V c).arrAt 3) (show cfg3.N = 20 from N_3)).trans (e.trans ((hw _ _).trans ?_))
  show (cfg3.win 3).cut _ ((dat3 V c).after 3 ⟨19, pt19_3⟩) = _
  rw [after3_3]
  rfl

end Cert.KernelIdeal.Hand

end
-- ==== Proof.KI.Reg4.lean ====
/-
  Region 4 of the program (the head: mean pool, two affine layers, log-soft-maximum, on one grid point): the part of
  its run that does not depend on what the arrays hold. At the contents `V` the region is entered with: each window's
  block, what the body leaves in the output buffer as one function of the six input blocks, the body's triple, the
  pipeline's proof data and the obligation that the body meets it at the grid's one point.
-/
import proofs.«420397_j11227044511906_3_alg».proof.Proof.Gen.KernelIdeal.Launch
import proofs.«420397_j11227044511906_3_alg».proof.Proof.Gen.KernelIdeal.Skeleton
import proofs.«420397_j11227044511906_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at the point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at the point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at the point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at the point. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at the point. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at the point. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev rh_S128x128 : Rect S128x128 := Rect.unit (s := S128x128) ![0, 0] S128x128.size inb_S128x128_S128x128_0_0
abbrev rh_S128x1 : Rect S128x1 := Rect.unit (s := S128x1) ![0, 0] S128x1.size inb_S128x1_S128x1_0_0
abbrev rh_S128 : Rect S128 := Rect.unit (s := S128) ![0] S128.size inb_S128_S128_0
abbrev rh_S128x10 : Rect S128x10 := Rect.unit (s := S128x10) ![0, 0] S128x10.size inb_S128x10_S128x10_0_0
abbrev rh_S10 : Rect S10 := Rect.unit (s := S10) ![0] S10.size inb_S10_S10_0

/-- The output buffer after the body, from the six input blocks (pooled sums, count column, first weights and bias,
    second weights and bias): its one whole-buffer store. -/
def out4_6 (x0 : Vec F S128x128 .f32) (x1 : Vec F S128x1 .f32) (x2 : Vec F S128x128 .f32) (x3 : Vec F S128 .f32) (x4 : Vec F S128x10 .f32) (x5 : Vec F S10 .f32) : Vec F S128x10 .f32 :=
  View.canon [⟨rh_S128x10, k4_pay1 (View.ld x1 rh_S128x1) (View.ld x0 rh_S128x128) (View.ld x2 rh_S128x128) (View.ld x3 rh_S128) (View.ld x4 rh_S128x10) (View.ld x5 rh_S10)⟩]

/-- The one store covers the buffer. -/
theorem cover4_6 (p0 : Vec F S128x10 .f32) (y : S128x10.Idx) :
    ∃ pc ∈ ([⟨rh_S128x10, p0⟩] : List (View.Piece (Elt F) S128x10 .f32)), y ∈ pc.1.set :=
  View.cover_of_tiled [⟨rh_S128x10, p0⟩] S128x10.size (by rfl) y

set_option maxHeartbeats 1000000 in
/-- The body on whole staging buffers, the inputs' at contents `xW` and the output's at anything, runs to the continuation
    with the inputs as they were and the output at `out4_6` of them. -/
theorem sound_kernel4 (c : Dev nD) (E : Set ℕ) (i : grid4.Coords) (arg1 : Memref sig .tc .vmem S128x128 .f32) (harg1 : arg1.IsWhole) (arg2 : Memref sig .tc .vmem S128x1 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x10 .f32) (harg5 : arg5.IsWhole) (arg6 : Memref sig .tc .vmem S10 .f32) (harg6 : arg6.IsWhole) (arg7 : Memref sig .tc .vmem S128x10 .f32) (harg7 : arg7.IsWhole)
    (x0 : Vec F S128x128 .f32) (x1 : Vec F S128x1 .f32) (x2 : Vec F S128x128 .f32) (x3 : Vec F S128 .f32) (x4 : Vec F S128x10 .f32) (x5 : Vec F S10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__mlp_kernel i arg1 harg1 arg2 harg2 arg3 harg3 arg4 harg4 arg5 harg5 arg6 harg6 arg7 harg7) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover4_6 _)

/-- The proof data of the region's pipeline on core `c`: the arrays as found; after the body each input's buffer at its
    block and the output's at `out4_6` of the input blocks; the scoped rest and the generator register untouched;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t
    = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

set_option maxHeartbeats 1000000 in
/-- The body at the point: the inputs' buffers hold their blocks, so the triple applies; the invariant and the core's
    dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at the point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The run of the whole program: its five kernel regions among its host operations, from the launch to the return. The
  contents of the unscoped buffers between items are spelt out one by one (a host stretch applies its operations; a
  region changes only its output arrays, to what its write-backs leave), then the regions' records over them, and the
  launch: every final memory holds each unscoped buffer at the last contents.
-/
import proofs.«420397_j11227044511906_3_alg».proof.Proof.KI.RunCond
import proofs.«420397_j11227044511906_3_alg».proof.Proof.KI.Reg0
import proofs.«420397_j11227044511906_3_alg».proof.Proof.KI.Reg1
import proofs.«420397_j11227044511906_3_alg».proof.Proof.KI.Reg2
import proofs.«420397_j11227044511906_3_alg».proof.Proof.KI.Reg3
import proofs.«420397_j11227044511906_3_alg».proof.Proof.KI.Reg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between items, spelt out -/

/-- A valuation read at the TensorCore's references. -/
abbrev rd (W : Dev nD → Valuation τ sig (Elt F)) : (c : Dev nD) → (b : Ref sig .tc) → Buf (Elt F) ((c : Thread nD τ).loc b) :=
  fun c b => W c b

/-- After the first host stretch. -/
def U1 (c : Dev nD) : Valuation τ sig (Elt F) := V1 m c
/-- What region 0 leaves in its output array. -/
def o2 (c : Dev nD) : Buf (Elt F) ((c : Thread nD τ).loc main_v22) := (dat0 (rd (U1 m)) c).arrAt 6 cfg0.N
def U2 (c : Dev nD) : Valuation τ sig (Elt F) := Function.update (U1 m c) main_v22 (o2 m c)
def U3 (c : Dev nD) : Valuation τ sig (Elt F) := StableHlo.after hostOps1 (U2 m c)
/-- What region 1 leaves in its output array. -/
def o4 (c : Dev nD) : Buf (Elt F) ((c : Thread nD τ).loc main_v43) := (dat1 (rd (U3 m)) c).arrAt 6 cfg1.N
def U4 (c : Dev nD) : Valuation τ sig (Elt F) := Function.update (U3 m c) main_v43 (o4 m c)
def U5 (c : Dev nD) : Valuation τ sig (Elt F) := StableHlo.after hostOps2 (U4 m c)
/-- What region 2 leaves in its output array. -/
def o6 (c : Dev nD) : Buf (Elt F) ((c : Thread nD τ).loc main_v64) := (dat2 (rd (U5 m)) c).arrAt 6 cfg2.N
def U6 (c : Dev nD) : Valuation τ sig (Elt F) := Function.update (U5 m c) main_v64 (o6 m c)
def U7 (c : Dev nD) : Valuation τ sig (Elt F) := StableHlo.after hostOps3 (U6 m c)
/-- What region 3 leaves in its two output arrays. -/
def o8a (c : Dev nD) : Buf (Elt F) ((c : Thread nD τ).loc main_v66_0) := (dat3 (rd (U7 m)) c).arrAt 2 cfg3.N
def o8b (c : Dev nD) : Buf (Elt F) ((c : Thread nD τ).loc main_v66_1) := (dat3 (rd (U7 m)) c).arrAt 3 cfg3.N
def U8 (c : Dev nD) : Valuation τ sig (Elt F) := Function.update (Function.update (U7 m c) main_v66_0 (o8a m c)) main_v66_1 (o8b m c)
def U9 (c : Dev nD) : Valuation τ sig (Elt F) := StableHlo.after hostOps4 (U8 m c)
/-- What region 4 leaves in its output array, the program's result. -/
def o10 (c : Dev nD) : Buf (Elt F) ((c : Thread nD τ).loc main_v68) := (dat4 (rd (U9 m)) c).arrAt 6 cfg4.N
def U10 (c : Dev nD) : Valuation τ sig (Elt F) := Function.update (U9 m c) main_v68 (o10 m c)

theorem U2_at_main_v22 (c : Dev nD) : rd (U2 m) c main_v22 = o2 m c := by unfold rd U2; exact Function.update_self ..
theorem U2_other (c : Dev nD) (b : Ref sig .tc) (h : b ≠ main_v22) : rd (U2 m) c b = rd (U1 m) c b := by
  unfold rd U2; exact Function.update_of_ne (StableHlo.devRef_ne_of_ne h) _ _
theorem U4_at_main_v43 (c : Dev nD) : rd (U4 m) c main_v43 = o4 m c := by unfold rd U4; exact Function.update_self ..
theorem U4_other (c : Dev nD) (b : Ref sig .tc) (h : b ≠ main_v43) : rd (U4 m) c b = rd (U3 m) c b := by
  unfold rd U4; exact Function.update_of_ne (StableHlo.devRef_ne_of_ne h) _ _
theorem U6_at_main_v64 (c : Dev nD) : rd (U6 m) c main_v64 = o6 m c := by unfold rd U6; exact Function.update_self ..
theorem U6_other (c : Dev nD) (b : Ref sig .tc) (h : b ≠ main_v64) : rd (U6 m) c b = rd (U5 m) c b := by
  unfold rd U6; exact Function.update_of_ne (StableHlo.devRef_ne_of_ne h) _ _
theorem U8_at_main_v66_1 (c : Dev nD) : rd (U8 m) c main_v66_1 = o8b m c := by unfold rd U8; exact Function.update_self ..
theorem U8_at_main_v66_0 (c : Dev nD) : rd (U8 m) c main_v66_0 = o8a m c := by
  unfold rd U8
  exact (Function.update_of_ne (StableHlo.devRef_ne_of_ne (by decide : main_v66_0 ≠ main_v66_1)) _ _).trans (Function.update_self ..)
theorem U8_other (c : Dev nD) (b : Ref sig .tc) (h0 : b ≠ main_v66_0) (h1 : b ≠ main_v66_1) : rd (U8 m) c b = rd (U7 m) c b := by
  unfold rd U8
  exact (Function.update_of_ne (StableHlo.devRef_ne_of_ne h1) _ _).trans (Function.update_of_ne (StableHlo.devRef_ne_of_ne h0) _ _)
theorem U10_at_main_v68 (c : Dev nD) : rd (U10 m) c main_v68 = o10 m c := by unfold rd U10; exact Function.update_self ..
theorem U10_other (c : Dev nD) (b : Ref sig .tc) (h : b ≠ main_v68) : rd (U10 m) c b = rd (U9 m) c b := by
  unfold rd U10; exact Function.update_of_ne (StableHlo.devRef_ne_of_ne h) _ _

/-- The regions' outputs as one table of unknowns, read at the item after which each is written. -/
def outs : Outs (F := F) := fun j r c => match j with
  | 2 => Function.update (fun r : Ref sig .tc => m ((c : Thread nD τ).loc r)) main_v22 (o2 m c) r
  | 4 => Function.update (fun r : Ref sig .tc => m ((c : Thread nD τ).loc r)) main_v43 (o4 m c) r
  | 6 => Function.update (fun r : Ref sig .tc => m ((c : Thread nD τ).loc r)) main_v64 (o6 m c) r
  | 8 => Function.update (Function.update (fun r : Ref sig .tc => m ((c : Thread nD τ).loc r)) main_v66_0 (o8a m c)) main_v66_1 (o8b m c) r
  | 10 => Function.update (fun r : Ref sig .tc => m ((c : Thread nD τ).loc r)) main_v68 (o10 m c) r
  | _ => m ((c : Thread nD τ).loc r)

theorem outs_2 (c : Dev nD) : outs m 2 main_v22 c = o2 m c := by unfold outs; exact Function.update_self ..
theorem outs_4 (c : Dev nD) : outs m 4 main_v43 c = o4 m c := by unfold outs; exact Function.update_self ..
theorem outs_6 (c : Dev nD) : outs m 6 main_v64 c = o6 m c := by unfold outs; exact Function.update_self ..
theorem outs_8b (c : Dev nD) : outs m 8 main_v66_1 c = o8b m c := by unfold outs; exact Function.update_self ..
theorem outs_8a (c : Dev nD) : outs m 8 main_v66_0 c = o8a m c := by
  unfold outs
  exact (Function.update_of_ne (by decide : main_v66_0 ≠ main_v66_1) _ _).trans (Function.update_self ..)
theorem outs_10 (c : Dev nD) : outs m 10 main_v68 c = o10 m c := by unfold outs; exact Function.update_self ..

theorem V2_eq (c : Dev nD) : V2 m (outs m) c = U2 m c := by
  show Function.update (V1 m c) _ (outs m 2 main_v22 c) = _; rw [outs_2]; rfl
theorem V3_eq (c : Dev nD) : V3 m (outs m) c = U3 m c := by
  show StableHlo.after hostOps1 (V2 m (outs m) c) = _; rw [V2_eq]; rfl
theorem V4_eq (c : Dev nD) : V4 m (outs m) c = U4 m c := by
  show Function.update (V3 m (outs m) c) _ (outs m 4 main_v43 c) = _; rw [V3_eq, outs_4]; rfl
theorem V5_eq (c : Dev nD) : V5 m (outs m) c = U5 m c := by
  show StableHlo.after hostOps2 (V4 m (outs m) c) = _; rw [V4_eq]; rfl
theorem V6_eq (c : Dev nD) : V6 m (outs m) c = U6 m c := by
  show Function.update (V5 m (outs m) c) _ (outs m 6 main_v64 c) = _; rw [V5_eq, outs_6]; rfl
theorem V7_eq (c : Dev nD) : V7 m (outs m) c = U7 m c := by
  show StableHlo.after hostOps3 (V6 m (outs m) c) = _; rw [V6_eq]; rfl
theorem V8_eq (c : Dev nD) : V8 m (outs m) c = U8 m c := by
  show Function.update (Function.update (V7 m (outs m) c) _ (outs m 8 main_v66_0 c)) _ (outs m 8 main_v66_1 c) = _
  rw [V7_eq, outs_8a, outs_8b]; rfl
theorem V9_eq (c : Dev nD) : V9 m (outs m) c = U9 m c := by
  show StableHlo.after hostOps4 (V8 m (outs m) c) = _; rw [V8_eq]; rfl
theorem V10_eq (c : Dev nD) : V10 m (outs m) c = U10 m c := by
  show Function.update (V9 m (outs m) c) _ (outs m 10 main_v68 c) = _; rw [V9_eq, outs_10]; rfl

set_option maxHeartbeats 2000000 in
/-- At the region's exit each of its arrays holds what the write-backs leave, -/
theorem hF0 (c : Dev nD) : ∀ w : Fin cfg0.W, (dat0 (rd (U1 m)) c).arrAt w cfg0.N = rd (U2 m) c (Pipeline.arrRef spec0 w) :=
  fun w => match w with
    | ⟨0, _⟩ => ((dat0 (rd (U1 m)) c).arrAt_in 0 rfl _).trans ((A_eq0 (rd (U1 m)) c 0).trans (U2_other m c _ (by decide)).symm)
    | ⟨1, _⟩ => ((dat0 (rd (U1 m)) c).arrAt_in 1 rfl _).trans ((A_eq0 (rd (U1 m)) c 1).trans (U2_other m c _ (by decide)).symm)
    | ⟨2, _⟩ => ((dat0 (rd (U1 m)) c).arrAt_in 2 rfl _).trans ((A_eq0 (rd (U1 m)) c 2).trans (U2_other m c _ (by decide)).symm)
    | ⟨3, _⟩ => ((dat0 (rd (U1 m)) c).arrAt_in 3 rfl _).trans ((A_eq0 (rd (U1 m)) c 3).trans (U2_other m c _ (by decide)).symm)
    | ⟨4, _⟩ => ((dat0 (rd (U1 m)) c).arrAt_in 4 rfl _).trans ((A_eq0 (rd (U1 m)) c 4).trans (U2_other m c _ (by decide)).symm)
    | ⟨5, _⟩ => ((dat0 (rd (U1 m)) c).arrAt_in 5 rfl _).trans ((A_eq0 (rd (U1 m)) c 5).trans (U2_other m c _ (by decide)).symm)
    | ⟨6, _⟩ => (U2_at_main_v22 m c).symm
/-- and every other buffer what it held at entry. -/
theorem hrest0 (c : Dev nD) : ∀ b, b ∉ Finset.univ.image (Pipeline.arrRef spec0) → rd (U2 m) c b = rd (U1 m) c b :=
  fun b hb => U2_other m c b (fun e => hb (by rw [e]; exact Finset.mem_image.mpr ⟨6, Finset.mem_univ _, rfl⟩))

set_option maxHeartbeats 2000000 in
/-- At the region's exit each of its arrays holds what the write-backs leave, -/
theorem hF1 (c : Dev nD) : ∀ w : Fin cfg1.W, (dat1 (rd (U3 m)) c).arrAt w cfg1.N = rd (U4 m) c (Pipeline.arrRef spec1 w) :=
  fun w => match w with
    | ⟨0, _⟩ => ((dat1 (rd (U3 m)) c).arrAt_in 0 rfl _).trans ((A_eq1 (rd (U3 m)) c 0).trans (U4_other m c _ (by decide)).symm)
    | ⟨1, _⟩ => ((dat1 (rd (U3 m)) c).arrAt_in 1 rfl _).trans ((A_eq1 (rd (U3 m)) c 1).trans (U4_other m c _ (by decide)).symm)
    | ⟨2, _⟩ => ((dat1 (rd (U3 m)) c).arrAt_in 2 rfl _).trans ((A_eq1 (rd (U3 m)) c 2).trans (U4_other m c _ (by decide)).symm)
    | ⟨3, _⟩ => ((dat1 (rd (U3 m)) c).arrAt_in 3 rfl _).trans ((A_eq1 (rd (U3 m)) c 3).trans (U4_other m c _ (by decide)).symm)
    | ⟨4, _⟩ => ((dat1 (rd (U3 m)) c).arrAt_in 4 rfl _).trans ((A_eq1 (rd (U3 m)) c 4).trans (U4_other m c _ (by decide)).symm)
    | ⟨5, _⟩ => ((dat1 (rd (U3 m)) c).arrAt_in 5 rfl _).trans ((A_eq1 (rd (U3 m)) c 5).trans (U4_other m c _ (by decide)).symm)
    | ⟨6, _⟩ => (U4_at_main_v43 m c).symm
/-- and every other buffer what it held at entry. -/
theorem hrest1 (c : Dev nD) : ∀ b, b ∉ Finset.univ.image (Pipeline.arrRef spec1) → rd (U4 m) c b = rd (U3 m) c b :=
  fun b hb => U4_other m c b (fun e => hb (by rw [e]; exact Finset.mem_image.mpr ⟨6, Finset.mem_univ _, rfl⟩))

set_option maxHeartbeats 2000000 in
/-- At the region's exit each of its arrays holds what the write-backs leave, -/
theorem hF2 (c : Dev nD) : ∀ w : Fin cfg2.W, (dat2 (rd (U5 m)) c).arrAt w cfg2.N = rd (U6 m) c (Pipeline.arrRef spec2 w) :=
  fun w => match w with
    | ⟨0, _⟩ => ((dat2 (rd (U5 m)) c).arrAt_in 0 rfl _).trans ((A_eq2 (rd (U5 m)) c 0).trans (U6_other m c _ (by decide)).symm)
    | ⟨1, _⟩ => ((dat2 (rd (U5 m)) c).arrAt_in 1 rfl _).trans ((A_eq2 (rd (U5 m)) c 1).trans (U6_other m c _ (by decide)).symm)
    | ⟨2, _⟩ => ((dat2 (rd (U5 m)) c).arrAt_in 2 rfl _).trans ((A_eq2 (rd (U5 m)) c 2).trans (U6_other m c _ (by decide)).symm)
    | ⟨3, _⟩ => ((dat2 (rd (U5 m)) c).arrAt_in 3 rfl _).trans ((A_eq2 (rd (U5 m)) c 3).trans (U6_other m c _ (by decide)).symm)
    | ⟨4, _⟩ => ((dat2 (rd (U5 m)) c).arrAt_in 4 rfl _).trans ((A_eq2 (rd (U5 m)) c 4).trans (U6_other m c _ (by decide)).symm)
    | ⟨5, _⟩ => ((dat2 (rd (U5 m)) c).arrAt_in 5 rfl _).trans ((A_eq2 (rd (U5 m)) c 5).trans (U6_other m c _ (by decide)).symm)
    | ⟨6, _⟩ => (U6_at_main_v64 m c).symm
/-- and every other buffer what it held at entry. -/
theorem hrest2 (c : Dev nD) : ∀ b, b ∉ Finset.univ.image (Pipeline.arrRef spec2) → rd (U6 m) c b = rd (U5 m) c b :=
  fun b hb => U6_other m c b (fun e => hb (by rw [e]; exact Finset.mem_image.mpr ⟨6, Finset.mem_univ _, rfl⟩))

set_option maxHeartbeats 2000000 in
/-- At the region's exit each of its arrays holds what the write-backs leave, -/
theorem hF3 (c : Dev nD) : ∀ w : Fin cfg3.W, (dat3 (rd (U7 m)) c).arrAt w cfg3.N = rd (U8 m) c (Pipeline.arrRef spec3 w) :=
  fun w => match w with
    | ⟨0, _⟩ => ((dat3 (rd (U7 m)) c).arrAt_in 0 rfl _).trans ((A_eq3 (rd (U7 m)) c 0).trans (U8_other m c _ (by decide) (by decide)).symm)
    | ⟨1, _⟩ => ((dat3 (rd (U7 m)) c).arrAt_in 1 rfl _).trans ((A_eq3 (rd (U7 m)) c 1).trans (U8_other m c _ (by decide) (by decide)).symm)
    | ⟨2, _⟩ => (U8_at_main_v66_0 m c).symm
    | ⟨3, _⟩ => (U8_at_main_v66_1 m c).symm
/-- and every other buffer what it held at entry. -/
theorem hrest3 (c : Dev nD) : ∀ b, b ∉ Finset.univ.image (Pipeline.arrRef spec3) → rd (U8 m) c b = rd (U7 m) c b :=
  fun b hb => U8_other m c b (fun e => hb (by rw [e]; exact Finset.mem_image.mpr ⟨2, Finset.mem_univ _, rfl⟩)) (fun e => hb (by rw [e]; exact Finset.mem_image.mpr ⟨3, Finset.mem_univ _, rfl⟩))

set_option maxHeartbeats 2000000 in
/-- At the region's exit each of its arrays holds what the write-backs leave, -/
theorem hF4 (c : Dev nD) : ∀ w : Fin cfg4.W, (dat4 (rd (U9 m)) c).arrAt w cfg4.N = rd (U10 m) c (Pipeline.arrRef spec4 w) :=
  fun w => match w with
    | ⟨0, _⟩ => ((dat4 (rd (U9 m)) c).arrAt_in 0 rfl _).trans ((A_eq4 (rd (U9 m)) c 0).trans (U10_other m c _ (by decide)).symm)
    | ⟨1, _⟩ => ((dat4 (rd (U9 m)) c).arrAt_in 1 rfl _).trans ((A_eq4 (rd (U9 m)) c 1).trans (U10_other m c _ (by decide)).symm)
    | ⟨2, _⟩ => ((dat4 (rd (U9 m)) c).arrAt_in 2 rfl _).trans ((A_eq4 (rd (U9 m)) c 2).trans (U10_other m c _ (by decide)).symm)
    | ⟨3, _⟩ => ((dat4 (rd (U9 m)) c).arrAt_in 3 rfl _).trans ((A_eq4 (rd (U9 m)) c 3).trans (U10_other m c _ (by decide)).symm)
    | ⟨4, _⟩ => ((dat4 (rd (U9 m)) c).arrAt_in 4 rfl _).trans ((A_eq4 (rd (U9 m)) c 4).trans (U10_other m c _ (by decide)).symm)
    | ⟨5, _⟩ => ((dat4 (rd (U9 m)) c).arrAt_in 5 rfl _).trans ((A_eq4 (rd (U9 m)) c 5).trans (U10_other m c _ (by decide)).symm)
    | ⟨6, _⟩ => (U10_at_main_v68 m c).symm
/-- and every other buffer what it held at entry. -/
theorem hrest4 (c : Dev nD) : ∀ b, b ∉ Finset.univ.image (Pipeline.arrRef spec4) → rd (U10 m) c b = rd (U9 m) c b :=
  fun b hb => U10_other m c b (fun e => hb (by rw [e]; exact Finset.mem_image.mpr ⟨6, Finset.mem_univ _, rfl⟩))

/-! ## The proof data family and the thread state -/

/-- Every pipeline's proof data, each at its region's entry contents. -/
def pdats : (p : Fin 5) → (c : Dev nD) → Dat τ (Elt F) Unit ℕ (UR sig nD τ) ℕ (cfgs p) c
  | ⟨0, _⟩ => fun c => dat0 (rd (U1 m)) c
  | ⟨1, _⟩ => fun c => dat1 (rd (U3 m)) c
  | ⟨2, _⟩ => fun c => dat2 (rd (U5 m)) c
  | ⟨3, _⟩ => fun c => dat3 (rd (U7 m)) c
  | ⟨4, _⟩ => fun c => dat4 (rd (U9 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, at
    nothing. -/
abbrev R (c : Dev nD) : sProp 𝕄 := iprop((∃ r, prngReg c r) ∗ ∃ W, owes (c : Thread nD τ) (0 : CellTallies nD τ sig Unit) W)

/-! ## The regions as records -/

set_option backward.isDefEq.respectTransparency.types false in
/-- Region 0 over the thread state: entered with every unscoped buffer at `U1`, left at `U2`. Its arrays are split
    out of the unscoped buffers and put back at what the write-backs leave; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (rd (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (U1 m) c) (rd (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `U3`, left at `U4`. Its arrays are split
    out of the unscoped buffers and put back at what the write-backs leave; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (rd (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (U3 m) c) (rd (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `U5`, left at `U6`. Its arrays are split
    out of the unscoped buffers and put back at what the write-backs leave; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (U5 m)) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (rd (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (U5 m) c) (rd (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `U7`, left at `U8`. Its arrays are split
    out of the unscoped buffers and put back at what the write-backs leave; the generator register goes into the
    region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (U7 m)) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec3 c (rd (U7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (rd (U7 m)) c)
    unfold Pipeline.ΦA
    iintro ⟨Hp, -, Hr⟩
    isplitl [Hr]; · iexact Hr
    iexact Hp
  hout c := by
    rw [Pipeline.ownSems0_none]
    refine BIBase.Entails.trans (hout3 (rd (U7 m)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (U7 m) c) (rd (U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `U9`, left at `U10`. Its arrays are split
    out of the unscoped buffers and put back at what the write-backs leave; the generator register goes into the
    region's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (rd (U9 m)) c).loose
  hwaits := Pipeline.hwaits_of_owed_zero _ _ _ _ L lv 4 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec4 c (rd (U9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (rd (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (rd (U9 m) c) (rd (U10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- From any memory with zero counters every weakly fair execution terminates, nothing faulting, and every final
    memory holds each unscoped buffer at the last contents `U10`. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = U10 m c b) := by
  have h := run_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE5 := fun c => by iintro ⟨-, H⟩; iexact H)
    (reg0 m) (fun c => .rfl) (fun c => by rw [V2_eq m c]; exact .rfl)
    (reg1 m) (fun c => by rw [V3_eq m c]; exact .rfl) (fun c => by rw [V4_eq m c]; exact .rfl)
    (reg2 m) (fun c => by rw [V5_eq m c]; exact .rfl) (fun c => by rw [V6_eq m c]; exact .rfl)
    (reg3 m) (fun c => by rw [V7_eq m c]; exact .rfl) (fun c => by rw [V8_eq m c]; exact .rfl)
    (reg4 m) (fun c => by rw [V9_eq m c]; exact .rfl) (fun c => by rw [V10_eq m c]; exact .rfl)
  exact (θ_run defs _ _).mono (fun r hr c b hb => (hr c b hb).trans (congrFun (V10_eq m c) b)) h

end Cert.KernelIdeal.Hand

end
-- ==== Proof.KI.Flow.lean ====
/-
  What the contents between items hold at the references a later item reads: a host stretch leaves every buffer it
  does not write as it found it, and a region every buffer that is not one of its output arrays. And the run's
  conclusion read at the result array and at the fourteen argument arrays.
-/
import proofs.«420397_j11227044511906_3_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

theorem keep1 (c : Dev nD) (r : Ref sig .tc) (h : r ∉ hostOps0_W) : rd (U1 m) c r = m ((c : Thread nD τ).loc r) :=
  V1_of m c r h
theorem keep2 (c : Dev nD) (r : Ref sig .tc) (h : r ≠ main_v22) : rd (U2 m) c r = rd (U1 m) c r := U2_other m c r h
theorem keep3 (c : Dev nD) (r : Ref sig .tc) (h : r ∉ hostOps1_W) : rd (U3 m) c r = rd (U2 m) c r :=
  (congrFun (V3_eq m c) r).symm.trans ((V3_of m (outs m) c r h).trans (congrFun (V2_eq m c) r))
theorem keep4 (c : Dev nD) (r : Ref sig .tc) (h : r ≠ main_v43) : rd (U4 m) c r = rd (U3 m) c r := U4_other m c r h
theorem keep5 (c : Dev nD) (r : Ref sig .tc) (h : r ∉ hostOps2_W) : rd (U5 m) c r = rd (U4 m) c r :=
  (congrFun (V5_eq m c) r).symm.trans ((V5_of m (outs m) c r h).trans (congrFun (V4_eq m c) r))
theorem keep6 (c : Dev nD) (r : Ref sig .tc) (h : r ≠ main_v64) : rd (U6 m) c r = rd (U5 m) c r := U6_other m c r h
theorem keep7 (c : Dev nD) (r : Ref sig .tc) (h : r ∉ hostOps3_W) : rd (U7 m) c r = rd (U6 m) c r :=
  (congrFun (V7_eq m c) r).symm.trans ((V7_of m (outs m) c r h).trans (congrFun (V6_eq m c) r))
theorem keep8 (c : Dev nD) (r : Ref sig .tc) (h0 : r ≠ main_v66_0) (h1 : r ≠ main_v66_1) : rd (U8 m) c r = rd (U7 m) c r :=
  U8_other m c r h0 h1
theorem keep9 (c : Dev nD) (r : Ref sig .tc) (h : r ∉ hostOps4_W) : rd (U9 m) c r = rd (U8 m) c r :=
  (congrFun (V9_eq m c) r).symm.trans ((V9_of m (outs m) c r h).trans (congrFun (V8_eq m c) r))
theorem keep10 (c : Dev nD) (r : Ref sig .tc) (h : r ≠ main_v68) : rd (U10 m) c r = rd (U9 m) c r := U10_other m c r h

/-- An unscoped TensorCore reference is among those the run's conclusion speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem U10_main_arg0 (c : Dev nD) : U10 m c main_arg0 = m ((c : Thread nD τ).loc main_arg0) :=
  (congrFun (V10_eq m c) _).symm.trans (V10_main_arg0 m (outs m) c)
theorem U10_main_arg1 (c : Dev nD) : U10 m c main_arg1 = m ((c : Thread nD τ).loc main_arg1) :=
  (congrFun (V10_eq m c) _).symm.trans (V10_main_arg1 m (outs m) c)
theorem U10_main_arg2 (c : Dev nD) : U10 m c main_arg2 = m ((c : Thread nD τ).loc main_arg2) :=
  (congrFun (V10_eq m c) _).symm.trans (V10_main_arg2 m (outs m) c)
theorem U10_main_arg3 (c : Dev nD) : U10 m c main_arg3 = m ((c : Thread nD τ).loc main_arg3) :=
  (congrFun (V10_eq m c) _).symm.trans (V10_main_arg3 m (outs m) c)
theorem U10_main_arg4 (c : Dev nD) : U10 m c main_arg4 = m ((c : Thread nD τ).loc main_arg4) :=
  (congrFun (V10_eq m c) _).symm.trans (V10_main_arg4 m (outs m) c)
theorem U10_main_arg5 (c : Dev nD) : U10 m c main_arg5 = m ((c : Thread nD τ).loc main_arg5) :=
  (congrFun (V10_eq m c) _).symm.trans (V10_main_arg5 m (outs m) c)
theorem U10_main_arg6 (c : Dev nD) : U10 m c main_arg6 = m ((c : Thread nD τ).loc main_arg6) :=
  (congrFun (V10_eq m c) _).symm.trans (V10_main_arg6 m (outs m) c)
theorem U10_main_arg7 (c : Dev nD) : U10 m c main_arg7 = m ((c : Thread nD τ).loc main_arg7) :=
  (congrFun (V10_eq m c) _).symm.trans (V10_main_arg7 m (outs m) c)
theorem U10_main_arg8 (c : Dev nD) : U10 m c main_arg8 = m ((c : Thread nD τ).loc main_arg8) :=
  (congrFun (V10_eq m c) _).symm.trans (V10_main_arg8 m (outs m) c)
theorem U10_main_arg9 (c : Dev nD) : U10 m c main_arg9 = m ((c : Thread nD τ).loc main_arg9) :=
  (congrFun (V10_eq m c) _).symm.trans (V10_main_arg9 m (outs m) c)
theorem U10_main_arg10 (c : Dev nD) : U10 m c main_arg10 = m ((c : Thread nD τ).loc main_arg10) :=
  (congrFun (V10_eq m c) _).symm.trans (V10_main_arg10 m (outs m) c)
theorem U10_main_arg11 (c : Dev nD) : U10 m c main_arg11 = m ((c : Thread nD τ).loc main_arg11) :=
  (congrFun (V10_eq m c) _).symm.trans (V10_main_arg11 m (outs m) c)
theorem U10_main_arg12 (c : Dev nD) : U10 m c main_arg12 = m ((c : Thread nD τ).loc main_arg12) :=
  (congrFun (V10_eq m c) _).symm.trans (V10_main_arg12 m (outs m) c)
theorem U10_main_arg13 (c : Dev nD) : U10 m c main_arg13 = m ((c : Thread nD τ).loc main_arg13) :=
  (congrFun (V10_eq m c) _).symm.trans (V10_main_arg13 m (outs m) c)

/-- Every weakly fair execution terminates; the result array ends at what the last region leaves and every argument
    array as launched. -/
theorem run_frame (ρ : Dev nD → PrngReg) :
    θ_run defs (onTc (τ := τ) (main (F := F))) ⟨m, fun _ => 0, ρ⟩ (fun r => ∀ c : Dev nD,
      r.2.mem ((c.tc : Thread nD τ).loc main_v68) = o10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v68 (by decide))).trans (U10_at_main_v68 m c),
     (h c _ (mem_uc main_arg0 (by decide))).trans (U10_main_arg0 m c),
     (h c _ (mem_uc main_arg1 (by decide))).trans (U10_main_arg1 m c),
     (h c _ (mem_uc main_arg2 (by decide))).trans (U10_main_arg2 m c),
     (h c _ (mem_uc main_arg3 (by decide))).trans (U10_main_arg3 m c),
     (h c _ (mem_uc main_arg4 (by decide))).trans (U10_main_arg4 m c),
     (h c _ (mem_uc main_arg5 (by decide))).trans (U10_main_arg5 m c),
     (h c _ (mem_uc main_arg6 (by decide))).trans (U10_main_arg6 m c),
     (h c _ (mem_uc main_arg7 (by decide))).trans (U10_main_arg7 m c),
     (h c _ (mem_uc main_arg8 (by decide))).trans (U10_main_arg8 m c),
     (h c _ (mem_uc main_arg9 (by decide))).trans (U10_main_arg9 m c),
     (h c _ (mem_uc main_arg10 (by decide))).trans (U10_main_arg10 m c),
     (h c _ (mem_uc main_arg11 (by decide))).trans (U10_main_arg11 m c),
     (h c _ (mem_uc main_arg12 (by decide))).trans (U10_main_arg12 m c),
     (h c _ (mem_uc main_arg13 (by decide))).trans (U10_main_arg13 m c)⟩) (run_main m ρ)

end Cert.KernelIdeal.Hand

end
-- ==== Proof.KI.PayLayer.lean ====
/-
  One dense layer's stored tile, read at a row r and a column q, as extended reals.

  The tile is  max( (agg / max(deg, 1)) · Wl + x · Wr + b , 0 ):  row r of the aggregated messages is divided by
  max(deg r, 1), the quotient row is contracted with column q of the left weights, row r of the features with column q of
  the right weights, the bias at q is added and the sum is clipped below at zero. Every change of float format on the
  way is the identity on extended reals, a reshape to the same shape is the identity, the degree column is read at its
  one column whatever q, and the bias row at its one row whatever r; a product accumulated into zero is the bare sum
  over the contracted coordinate.
-/
import proofs.«420397_j11227044511906_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandVal

open Cert.KernelIdeal Cert.KernelIdeal.Gen Idealize.ShloMosaic Idealize.ShloMosaic.ValueIdx

/-- The word of 1.0 denotes the extended real 1. -/
theorem ofBits_one_f32 : Ideal.ofBits .f32 0x3F800000#32 = 1 := by
  simp [Ideal.ofBits, Ideal.ieee, -EReal.coe_mul]; norm_num

/-- An [a, 1] column broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The contraction's index maps, axis by axis -/

/-- The left operand's row is the result's row. -/
theorem lhs_dense_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted coordinate. -/
theorem lhs_dense_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted coordinate. -/
theorem rhs_dense_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the result's column. -/
theorem rhs_dense_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] by [128,128] product accumulated into zero, at (r, q): the sum over k of left (r, k) times right (k, q). -/
theorem matmul_zero_apply {φ₁ φ₂ : FTy} (A : FVec Ideal S5000x128 φ₁) (B : FVec Ideal S128x128 φ₂) (r : Fin 5000) (q : Fin 128) :
    matmul dot_S5000x128_S128x128_S5000x128_1_0_0_1_n_n none A B (constant S5000x128 .f32 0x00000000#32) (ix2 r q) = ∑ k : Fin 128, A (ix2 r k) * B (ix2 k q) := by
  refine (Ideal.matmul_constant_zero_apply dot_S5000x128_S128x128_S5000x128_1_0_0_1_n_n none A B (ix2 r q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact lhs_dense_0 _ _
    | ⟨1, _⟩ => exact (lhs_dense_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (rhs_dense_0 _ _).trans hk
    | ⟨1, _⟩ => exact rhs_dense_1 _ _)
  rw [el, er]

/-- The bias row, reshaped [128] → [1,128] and broadcast over the rows, reads the bias at the column. -/
theorem bias_apply (b : Vec Ideal S128 .f32) (h1 : S128.ShapeCasts S1x128) (h2 : S1x128.Broadcasts S5000x128) (r : Fin 5000) (q : Fin 128) :
    broadcastTo S5000x128 (shapeCast S1x128 b h1) h2 (ix2 r q) = b (ix1 q) :=
  (broadcastTo_1b_ab_apply (shapeCast S1x128 b h1) h2 r q).trans (shapeCast_a_1a_apply b h1 (0 : Fin 1) q)

/-- The scaled aggregate: row r of the aggregate over max(deg r, 1). -/
theorem scaled_apply (d : Vec Ideal S5000x1 .f32) (a : Vec Ideal S5000x128 .f32) (h : S5000x1.Broadcasts S5000x128) (r : Fin 5000) (k : Fin 128) :
    divf (F := Ideal) a (broadcastTo S5000x128 (maximumf (F := Ideal) d (broadcast S5000x1 (Scalar.ofBits (F := Ideal) .f32 0x3F800000#32))) h) (ix2 r k)
      = Ideal.div (a (ix2 r k)) (max (d (ix2 r (0 : Fin 1))) 1) := by
  rw [divf_apply, broadcastTo_a1_ab_apply, maximumf_apply, broadcast_apply]
  exact congrArg (fun t => Ideal.div (a (ix2 r k)) (max (d (ix2 r (0 : Fin 1))) t)) ofBits_one_f32

/-- Layer two's stored tile at row r, column q: the clipped affine combination of the scaled aggregate row and the
    feature row. -/theorem k1_pay1_apply (d : Vec Ideal S5000x1 .f32) (a : Vec Ideal S5000x128 .f32) (x : Vec Ideal S5000x128 .bf16) (wl wr : Vec Ideal S128x128 .f32) (b : Vec Ideal S128 .f32) (r : Fin 5000) (q : Fin 128) :
    k1_pay1 (F := Ideal) d a x wl wr b (ix2 r q) = max ((∑ k : Fin 128, Ideal.div (a (ix2 r k)) (max (d (ix2 r (0 : Fin 1))) 1) * wl (ix2 k q)) + (∑ k : Fin 128, x (ix2 r k) * wr (ix2 k q)) + b (ix1 q)) 0 := by
  unfold k1_pay1
  simp only [shapeCast_self]
  show max ((matmul (F := Ideal) dot_S5000x128_S128x128_S5000x128_1_0_0_1_n_n none _ _ (constant (F := Ideal) S5000x128 .f32 0x00000000#32) (ix2 r q) + matmul (F := Ideal) dot_S5000x128_S128x128_S5000x128_1_0_0_1_n_n none _ _ (constant (F := Ideal) S5000x128 .f32 0x00000000#32) (ix2 r q)) + broadcastTo S5000x128 (shapeCast S1x128 b _) _ (ix2 r q)) (Ideal.ofBits .f32 0x00000000#32) = _
  rw [matmul_zero_apply, matmul_zero_apply, bias_apply, Ideal.ofBits_zero_f32]
  refine congrArg (fun t => max t 0) ?_
  refine congrArg₂ (· + ·) (congrArg₂ (· + ·) (Finset.sum_congr rfl fun k _ => ?_) (Finset.sum_congr rfl fun k _ => ?_)) rfl
  · exact congrArg (· * wl (ix2 k q)) (scaled_apply d a _ r k)
  · rfl

/-- Layer three's stored tile at row r, column q: the clipped affine combination of the scaled aggregate row and the
    feature row. -/theorem k2_pay1_apply (d : Vec Ideal S5000x1 .f32) (a : Vec Ideal S5000x128 .f32) (x : Vec Ideal S5000x128 .bf16) (wl wr : Vec Ideal S128x128 .f32) (b : Vec Ideal S128 .f32) (r : Fin 5000) (q : Fin 128) :
    k2_pay1 (F := Ideal) d a x wl wr b (ix2 r q) = max ((∑ k : Fin 128, Ideal.div (a (ix2 r k)) (max (d (ix2 r (0 : Fin 1))) 1) * wl (ix2 k q)) + (∑ k : Fin 128, x (ix2 r k) * wr (ix2 k q)) + b (ix1 q)) 0 := by
  unfold k2_pay1
  simp only [shapeCast_self]
  show max ((matmul (F := Ideal) dot_S5000x128_S128x128_S5000x128_1_0_0_1_n_n none _ _ (constant (F := Ideal) S5000x128 .f32 0x00000000#32) (ix2 r q) + matmul (F := Ideal) dot_S5000x128_S128x128_S5000x128_1_0_0_1_n_n none _ _ (constant (F := Ideal) S5000x128 .f32 0x00000000#32) (ix2 r q)) + broadcastTo S5000x128 (shapeCast S1x128 b _) _ (ix2 r q)) (Ideal.ofBits .f32 0x00000000#32) = _
  rw [matmul_zero_apply, matmul_zero_apply, bias_apply, Ideal.ofBits_zero_f32]
  refine congrArg (fun t => max t 0) ?_
  refine congrArg₂ (· + ·) (congrArg₂ (· + ·) (Finset.sum_congr rfl fun k _ => ?_) (Finset.sum_congr rfl fun k _ => ?_)) rfl
  · exact congrArg (· * wl (ix2 k q)) (scaled_apply d a _ r k)
  · rfl

/-- Layer one's stored tile at row r, column q: the clipped affine combination of the scaled aggregate row and the
    feature row (the features arrive in single precision and are narrowed, which changes no value). -/theorem k0_pay1_apply (d : Vec Ideal S5000x1 .f32) (a : Vec Ideal S5000x128 .f32) (x : Vec Ideal S5000x128 .f32) (wl wr : Vec Ideal S128x128 .f32) (b : Vec Ideal S128 .f32) (r : Fin 5000) (q : Fin 128) :
    k0_pay1 (F := Ideal) d a x wl wr b (ix2 r q) = max ((∑ k : Fin 128, Ideal.div (a (ix2 r k)) (max (d (ix2 r (0 : Fin 1))) 1) * wl (ix2 k q)) + (∑ k : Fin 128, x (ix2 r k) * wr (ix2 k q)) + b (ix1 q)) 0 := by
  unfold k0_pay1
  simp only [shapeCast_self]
  show max ((matmul (F := Ideal) dot_S5000x128_S128x128_S5000x128_1_0_0_1_n_n none _ _ (constant (F := Ideal) S5000x128 .f32 0x00000000#32) (ix2 r q) + matmul (F := Ideal) dot_S5000x128_S128x128_S5000x128_1_0_0_1_n_n none _ _ (constant (F := Ideal) S5000x128 .f32 0x00000000#32) (ix2 r q)) + broadcastTo S5000x128 (shapeCast S1x128 b _) _ (ix2 r q)) (Ideal.ofBits .f32 0x00000000#32) = _
  rw [matmul_zero_apply, matmul_zero_apply, bias_apply, Ideal.ofBits_zero_f32]
  refine congrArg (fun t => max t 0) ?_
  refine congrArg₂ (· + ·) (congrArg₂ (· + ·) (Finset.sum_congr rfl fun k _ => ?_) (Finset.sum_congr rfl fun k _ => ?_)) rfl
  · exact congrArg (· * wl (ix2 k q)) (scaled_apply d a _ r k)
  · rfl

end Cert.KernelIdeal.HandVal

end
-- ==== Proof.Spec.lean ====
/-
  What the graph network computes, as real-valued (extended-real) functions of whole arrays, element by element.

  * `layer`: one neighbourhood-mean layer. Row p of the aggregated messages is divided by max(deg p, 1), multiplied
    into the left weight matrix, added to row p of the features times the right weight matrix and to the bias, and
    clipped below at zero.
  * `poolSum` / `poolCnt`: per graph g, the sum of the feature rows of the nodes whose graph id, read as a signed
    word, is g, and the number of such nodes. A node whose id is no g in [0, 128) contributes to no graph.
  * `head`: the mean row of each graph (sum over max(count, 1)), a clipped affine layer, a second affine layer, and
    the row-wise logarithm of the soft maximum: z - max z - log (sum exp (z - max z)).
-/
import Idealize.ShloMosaic.PureOps.Ideal
import Idealize.ShloMosaic.Lib.ValueIdx

noncomputable section

namespace Cert.Spec

open Idealize.ShloMosaic Idealize.ShloMosaic.ValueIdx

/-- A matrix of extended reals over a literal rank-2 shape. -/
abbrev Mat (r c : Nat) : Type := (⟨2, ![r, c]⟩ : Shape).Idx → EReal
/-- A vector of extended reals over a literal rank-1 shape. -/
abbrev Vc (n : Nat) : Type := (⟨1, ![n]⟩ : Shape).Idx → EReal

/-- One layer at row p, column q. -/
def layer (agg x : Mat 100000 128) (deg : Fin 100000 → EReal) (wl wr : Mat 128 128) (b : Vc 128)
    (p : Fin 100000) (q : Fin 128) : EReal :=
  max ((∑ k : Fin 128, Ideal.div (agg (ix2 p k)) (max (deg p) 1) * wl (ix2 k q))
        + (∑ k : Fin 128, x (ix2 p k) * wr (ix2 k q)) + b (ix1 q)) 0

/-- The sum, per graph g and feature d, of the rows of the nodes of graph g. -/
def poolSum (h : Mat 100000 128) (batch : Fin 100000 → BitVec 32) (g d : Fin 128) : EReal :=
  ∑ n : Fin 100000, if (batch n).toInt = (g.val : ℤ) then h (ix2 n d) else 0

/-- The number of nodes of graph g. -/
def poolCnt (batch : Fin 100000 → BitVec 32) (g : Fin 128) : EReal :=
  ∑ n : Fin 100000, if (batch n).toInt = (g.val : ℤ) then (1 : EReal) else 0

/-- The mean feature row of graph g. -/
def mean (psum : Mat 128 128) (cnt : Fin 128 → EReal) (g k : Fin 128) : EReal :=
  Ideal.div (psum (ix2 g k)) (max (cnt g) 1)

/-- The hidden layer of the head. -/
def hidden (psum : Mat 128 128) (cnt : Fin 128 → EReal) (w1 : Mat 128 128) (b1 : Vc 128) (g j : Fin 128) : EReal :=
  max ((∑ k : Fin 128, mean psum cnt g k * w1 (ix2 k j)) + b1 (ix1 j)) 0

/-- The class scores before normalisation. -/
def logits (psum : Mat 128 128) (cnt : Fin 128 → EReal) (w1 : Mat 128 128) (b1 : Vc 128) (w2 : Mat 128 10) (b2 : Vc 10)
    (g : Fin 128) (c : Fin 10) : EReal :=
  (∑ j : Fin 128, hidden psum cnt w1 b1 g j * w2 (ix2 j c)) + b2 (ix1 c)

/-- The row-wise log-soft-maximum of a score matrix given by its entries. -/
def logSoftmax (z : Fin 128 → Fin 10 → EReal) (g : Fin 128) (c : Fin 10) : EReal :=
  (z g c - Finset.univ.sup (fun c' : Fin 10 => z g c'))
    - Ideal.log (∑ c' : Fin 10, Ideal.exp (z g c' - Finset.univ.sup (fun c'' : Fin 10 => z g c'')))

/-- The head: mean pool, two affine layers, log-soft-maximum. -/
def head (psum : Mat 128 128) (cnt : Fin 128 → EReal) (w1 : Mat 128 128) (b1 : Vc 128) (w2 : Mat 128 10) (b2 : Vc 10)
    (g : Fin 128) (c : Fin 10) : EReal :=
  logSoftmax (logits psum cnt w1 b1 w2 b2) g c

end Cert.Spec

end
-- ==== Proof.KI.ValLayer.lean ====
/-
  What each dense region leaves in its output array: the layer of the specification, applied to the arrays the region is
  entered with.

  The output array is cut into twenty tiles of 5000 rows; grid point t computes tile t from tile t of the aggregate, of
  the features and of the degree column and from the whole weight matrices and bias. Row r of tile t is row 5000 t + r
  of the array, so the tile's value at (r, q), the clipped affine combination of the payload lemma, is the layer's
  value at (5000 t + r, q). Every row lies in exactly the tile of its quotient by 5000, so the tiles cover the array and
  the array ends holding the layer everywhere.
-/
import proofs.«420397_j11227044511906_3_alg».proof.Proof.KI.Reg0
import proofs.«420397_j11227044511906_3_alg».proof.Proof.KI.Reg1
import proofs.«420397_j11227044511906_3_alg».proof.Proof.KI.Reg2
import proofs.«420397_j11227044511906_3_alg».proof.Proof.KI.PayLayer
import proofs.«420397_j11227044511906_3_alg».proof.Proof.Spec
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Row r of tile t is row 5000 t + r of the array. -/
def row (t : Fin 20) (r : Fin 5000) : Fin 100000 := ⟨t.val * 5000 + r.val, by have := t.isLt; have := r.isLt; omega⟩

/-! ## Region 0 -/

/-- The layer of the specification on the arrays region 0 is entered with, index by index. -/
abbrev G0 (c : Dev nD) : S100000x128.Idx → Elt Ideal .bf16 := fun i =>
  Cert.Spec.layer (V c main_v21) (V c main_arg0) (fun p => V c main_v8 (ix2 p (0 : Fin 1))) (V c main_arg2) (V c main_arg3) (V c main_arg4) (i 0) (i 1)

/-- The windows' block indices at grid point t, decided over the grid: the three row-tiled inputs and the output sit at
    block (t, 0), the weights and the bias at block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The six input blocks at a grid point, at their literal types. -/
abbrev ablk0 (c : Dev nD) (t : Fin cfg0.N) : Vec Ideal S5000x128 .f32 := iblk0 V c 0 t
abbrev xblk0 (c : Dev nD) (t : Fin cfg0.N) : Vec Ideal S5000x128 .f32 := iblk0 V c 1 t
abbrev dblk0 (c : Dev nD) (t : Fin cfg0.N) : Vec Ideal S5000x1 .f32 := iblk0 V c 2 t
abbrev wlblk0 (c : Dev nD) (t : Fin cfg0.N) : Vec Ideal S128x128 .f32 := iblk0 V c 3 t
abbrev wrblk0 (c : Dev nD) (t : Fin cfg0.N) : Vec Ideal S128x128 .f32 := iblk0 V c 4 t
abbrev bblk0 (c : Dev nD) (t : Fin cfg0.N) : Vec Ideal S128 .f32 := iblk0 V c 5 t

/-- Tile t of the aggregate at (r, k) is the array at (5000 t + r, k). -/
theorem ablk0_apply (c : Dev nD) (t : Fin cfg0.N) (r : Fin 5000) (k : Fin 128) :
    ablk0 V c t (ix2 r k) = V c main_v21 (ix2 (row t r) k) := by
  show V c main_v21 (((cfg0.win 0).blk t).view.emb (ix2 r k)) = V c main_v21 (ix2 (row t r) k)
  refine congrArg (V c main_v21) (funext fun a => Fin.ext ?_)
  obtain ⟨e00, e01, -⟩ := idx_facts0 t
  match a with
  | ⟨0, _⟩ => show win0_0.index t (0 : Fin 2) * 5000 + 1 * r.val = t.val * 5000 + r.val; omega
  | ⟨1, _⟩ => show win0_0.index t (1 : Fin 2) * 128 + 1 * k.val = k.val; omega

/-- Tile t of the features at (r, k) is the array at (5000 t + r, k). -/
theorem xblk0_apply (c : Dev nD) (t : Fin cfg0.N) (r : Fin 5000) (k : Fin 128) :
    xblk0 V c t (ix2 r k) = V c main_arg0 (ix2 (row t r) k) := by
  show V c main_arg0 (((cfg0.win 1).blk t).view.emb (ix2 r k)) = V c main_arg0 (ix2 (row t r) k)
  refine congrArg (V c main_arg0) (funext fun a => Fin.ext ?_)
  obtain ⟨-, -, e10, e11, -⟩ := idx_facts0 t
  match a with
  | ⟨0, _⟩ => show win0_1.index t (0 : Fin 2) * 5000 + 1 * r.val = t.val * 5000 + r.val; omega
  | ⟨1, _⟩ => show win0_1.index t (1 : Fin 2) * 128 + 1 * k.val = k.val; omega

/-- Tile t of the degree column at row r is the column at row 5000 t + r. -/
theorem dblk0_apply (c : Dev nD) (t : Fin cfg0.N) (r : Fin 5000) :
    dblk0 V c t (ix2 r (0 : Fin 1)) = V c main_v8 (ix2 (row t r) (0 : Fin 1)) := by
  show V c main_v8 (((cfg0.win 2).blk t).view.emb (ix2 r (0 : Fin 1))) = V c main_v8 (ix2 (row t r) (0 : Fin 1))
  refine congrArg (V c main_v8) (funext fun a => Fin.ext ?_)
  obtain ⟨-, -, -, -, e20, e21, -⟩ := idx_facts0 t
  match a with
  | ⟨0, _⟩ => show win0_2.index t (0 : Fin 2) * 5000 + 1 * r.val = t.val * 5000 + r.val; omega
  | ⟨1, _⟩ => show win0_2.index t (1 : Fin 2) * 1 + 1 * 0 = 0; omega

/-- The left weights' one block is the whole matrix. -/
theorem wlblk0_apply (c : Dev nD) (t : Fin cfg0.N) (k q : Fin 128) :
    wlblk0 V c t (ix2 k q) = V c main_arg2 (ix2 k q) := by
  show V c main_arg2 (((cfg0.win 3).blk t).view.emb (ix2 k q)) = V c main_arg2 (ix2 k q)
  refine congrArg (V c main_arg2) (funext fun a => Fin.ext ?_)
  obtain ⟨-, -, -, -, -, -, e30, e31, -⟩ := idx_facts0 t
  match a with
  | ⟨0, _⟩ => show win0_3.index t (0 : Fin 2) * 128 + 1 * k.val = k.val; omega
  | ⟨1, _⟩ => show win0_3.index t (1 : Fin 2) * 128 + 1 * q.val = q.val; omega

/-- The right weights' one block is the whole matrix. -/
theorem wrblk0_apply (c : Dev nD) (t : Fin cfg0.N) (k q : Fin 128) :
    wrblk0 V c t (ix2 k q) = V c main_arg3 (ix2 k q) := by
  show V c main_arg3 (((cfg0.win 4).blk t).view.emb (ix2 k q)) = V c main_arg3 (ix2 k q)
  refine congrArg (V c main_arg3) (funext fun a => Fin.ext ?_)
  obtain ⟨-, -, -, -, -, -, -, -, e40, e41, -⟩ := idx_facts0 t
  match a with
  | ⟨0, _⟩ => show win0_4.index t (0 : Fin 2) * 128 + 1 * k.val = k.val; omega
  | ⟨1, _⟩ => show win0_4.index t (1 : Fin 2) * 128 + 1 * q.val = q.val; omega

/-- The bias's one block is the whole vector. -/
theorem bblk0_apply (c : Dev nD) (t : Fin cfg0.N) (q : Fin 128) :
    bblk0 V c t (ix1 q) = V c main_arg4 (ix1 q) := by
  show V c main_arg4 (((cfg0.win 5).blk t).view.emb (ix1 q)) = V c main_arg4 (ix1 q)
  refine congrArg (V c main_arg4) (funext fun a => Fin.ext ?_)
  obtain ⟨-, -, -, -, -, -, -, -, -, -, e50, -⟩ := idx_facts0 t
  match a with
  | ⟨0, _⟩ => show win0_5.index t (0 : Fin 1) * 128 + 1 * q.val = q.val; omega

/-- Row r, column q of output tile t is row 5000 t + r, column q of the array. -/
theorem oemb0 (t : Fin cfg0.N) (r : Fin 5000) (q : Fin 128) :
    ((cfg0.win 6).blk t).view.emb (ix2 r q) = (ix2 (row t r) q : S100000x128.Idx) := by
  refine funext fun a => Fin.ext ?_
  obtain ⟨-, -, -, -, -, -, -, -, -, -, -, e60, e61⟩ := idx_facts0 t
  match a with
  | ⟨0, _⟩ => show win0_6.index t (0 : Fin 2) * 5000 + 1 * r.val = t.val * 5000 + r.val; omega
  | ⟨1, _⟩ => show win0_6.index t (1 : Fin 2) * 128 + 1 * q.val = q.val; omega

/-- What grid point t writes back is tile t of the layer. -/
theorem flushed0_eq (c : Dev nD) (t : Fin cfg0.N) :
    (dat0 (F := Ideal) V c).flushed 6 t = ((cfg0.win 6).blk t).view.read (Elt Ideal) (G0 V c) := by
  show (cfg0.win 6).cut (grid0.coords t) ((dat0 (F := Ideal) V c).after 6 t) = _
  rw [after0_6]
  unfold out0_6
  rw [View.canon_unit_zero hz2]
  simp only [View.ld_unit_zero (S := S5000x128) hz2, View.ld_unit_zero (S := S5000x1) hz2, View.ld_unit_zero (S := S128x128) hz2, View.ld_unit_zero (S := S128) hz1]
  refine funext fun (j : S5000x128.Idx) => ?_
  obtain ⟨r, q, rfl⟩ : ∃ (r : Fin 5000) (q : Fin 128), j = ix2 r q := ⟨j 0, j 1, eq_ix2 j⟩
  show k0_pay1 (F := Ideal) (dblk0 V c t) (ablk0 V c t) (xblk0 V c t) (wlblk0 V c t) (wrblk0 V c t) (bblk0 V c t) (ix2 r q) = G0 V c (((cfg0.win 6).blk t).view.emb (ix2 r q))
  refine (k0_pay1_apply (dblk0 V c t) (ablk0 V c t) (xblk0 V c t) (wlblk0 V c t) (wrblk0 V c t) (bblk0 V c t) r q).trans ?_
  rw [oemb0 t r q, dblk0_apply, bblk0_apply]
  refine congrArg (fun s => max s 0) (congrArg₂ (· + ·) (congrArg₂ (· + ·) (Finset.sum_congr rfl fun k _ => ?_) (Finset.sum_congr rfl fun k _ => ?_)) rfl)
  · rw [ablk0_apply, wlblk0_apply]
  · rw [xblk0_apply, wrblk0_apply]

/-- An index of the array is in tile t iff each coordinate is in the tile's range on its axis. -/
theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v22).slice (win0_6.rect t)).set ↔ _
  rw [View.set_slice_whole, Rect.mem_set_unit]
  exact Iff.rfl

/-- Every index lies in the tile of its row's quotient by 5000. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 5000 < cfg0.N := by show (i 0).val / 5000 < 20; omega
  obtain ⟨-, -, -, -, -, -, -, -, -, -, -, e60, e61⟩ := idx_facts0 ⟨(i 0).val / 5000, hlt⟩
  have e60' : win0_6.index ⟨(i 0).val / 5000, hlt⟩ (0 : Fin 2) = (i 0).val / 5000 := e60
  refine ⟨⟨(i 0).val / 5000, hlt⟩, flush0_6 _, ?_⟩
  rw [mem_blk0]
  intro a
  match a with
  | ⟨0, _⟩ => show win0_6.index _ (0 : Fin 2) * 5000 ≤ (i 0).val ∧ (i 0).val < win0_6.index _ (0 : Fin 2) * 5000 + 5000; omega
  | ⟨1, _⟩ => show win0_6.index _ (1 : Fin 2) * 128 ≤ (i 1).val ∧ (i 1).val < win0_6.index _ (1 : Fin 2) * 128 + 128; omega

/-- The output array after the region is the layer everywhere. -/
theorem final0 (c : Dev nD) : (dat0 (F := Ideal) V c).arrAt 6 cfg0.N = G0 V c :=
  (dat0 (F := Ideal) V c).arrAt_eq_of_cover 6 (G0 V c) (fun t _ => flushed0_eq V c t) (cover0)

/-- Region 0's output array at (p, q) is the layer of the arrays it is entered with. -/
theorem layer_val0 (c : Dev nD) (p : Fin 100000) (q : Fin 128) :
    (dat0 (F := Ideal) V c).arrAt 6 cfg0.N (ix2 p q) = Cert.Spec.layer (V c main_v21) (V c main_arg0) (fun p => V c main_v8 (ix2 p (0 : Fin 1))) (V c main_arg2) (V c main_arg3) (V c main_arg4) p q :=
  congrFun (final0 V c) (ix2 p q)

/-! ## Region 1 -/

/-- The layer of the specification on the arrays region 1 is entered with, index by index. -/
abbrev G1 (c : Dev nD) : S100000x128.Idx → Elt Ideal .bf16 := fun i =>
  Cert.Spec.layer (V c main_v42) (V c main_v22) (fun p => V c main_v8 (ix2 p (0 : Fin 1))) (V c main_v24) (V c main_v26) (V c main_v28) (i 0) (i 1)

/-- The windows' block indices at grid point t, decided over the grid: the three row-tiled inputs and the output sit at
    block (t, 0), the weights and the bias at block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The six input blocks at a grid point, at their literal types. -/
abbrev ablk1 (c : Dev nD) (t : Fin cfg1.N) : Vec Ideal S5000x128 .f32 := iblk1 V c 0 t
abbrev xblk1 (c : Dev nD) (t : Fin cfg1.N) : Vec Ideal S5000x128 .bf16 := iblk1 V c 1 t
abbrev dblk1 (c : Dev nD) (t : Fin cfg1.N) : Vec Ideal S5000x1 .f32 := iblk1 V c 2 t
abbrev wlblk1 (c : Dev nD) (t : Fin cfg1.N) : Vec Ideal S128x128 .f32 := iblk1 V c 3 t
abbrev wrblk1 (c : Dev nD) (t : Fin cfg1.N) : Vec Ideal S128x128 .f32 := iblk1 V c 4 t
abbrev bblk1 (c : Dev nD) (t : Fin cfg1.N) : Vec Ideal S128 .f32 := iblk1 V c 5 t

/-- Tile t of the aggregate at (r, k) is the array at (5000 t + r, k). -/
theorem ablk1_apply (c : Dev nD) (t : Fin cfg1.N) (r : Fin 5000) (k : Fin 128) :
    ablk1 V c t (ix2 r k) = V c main_v42 (ix2 (row t r) k) := by
  show V c main_v42 (((cfg1.win 0).blk t).view.emb (ix2 r k)) = V c main_v42 (ix2 (row t r) k)
  refine congrArg (V c main_v42) (funext fun a => Fin.ext ?_)
  obtain ⟨e00, e01, -⟩ := idx_facts1 t
  match a with
  | ⟨0, _⟩ => show win1_0.index t (0 : Fin 2) * 5000 + 1 * r.val = t.val * 5000 + r.val; omega
  | ⟨1, _⟩ => show win1_0.index t (1 : Fin 2) * 128 + 1 * k.val = k.val; omega

/-- Tile t of the features at (r, k) is the array at (5000 t + r, k). -/
theorem xblk1_apply (c : Dev nD) (t : Fin cfg1.N) (r : Fin 5000) (k : Fin 128) :
    xblk1 V c t (ix2 r k) = V c main_v22 (ix2 (row t r) k) := by
  show V c main_v22 (((cfg1.win 1).blk t).view.emb (ix2 r k)) = V c main_v22 (ix2 (row t r) k)
  refine congrArg (V c main_v22) (funext fun a => Fin.ext ?_)
  obtain ⟨-, -, e10, e11, -⟩ := idx_facts1 t
  match a with
  | ⟨0, _⟩ => show win1_1.index t (0 : Fin 2) * 5000 + 1 * r.val = t.val * 5000 + r.val; omega
  | ⟨1, _⟩ => show win1_1.index t (1 : Fin 2) * 128 + 1 * k.val = k.val; omega

/-- Tile t of the degree column at row r is the column at row 5000 t + r. -/
theorem dblk1_apply (c : Dev nD) (t : Fin cfg1.N) (r : Fin 5000) :
    dblk1 V c t (ix2 r (0 : Fin 1)) = V c main_v8 (ix2 (row t r) (0 : Fin 1)) := by
  show V c main_v8 (((cfg1.win 2).blk t).view.emb (ix2 r (0 : Fin 1))) = V c main_v8 (ix2 (row t r) (0 : Fin 1))
  refine congrArg (V c main_v8) (funext fun a => Fin.ext ?_)
  obtain ⟨-, -, -, -, e20, e21, -⟩ := idx_facts1 t
  match a with
  | ⟨0, _⟩ => show win1_2.index t (0 : Fin 2) * 5000 + 1 * r.val = t.val * 5000 + r.val; omega
  | ⟨1, _⟩ => show win1_2.index t (1 : Fin 2) * 1 + 1 * 0 = 0; omega

/-- The left weights' one block is the whole matrix. -/
theorem wlblk1_apply (c : Dev nD) (t : Fin cfg1.N) (k q : Fin 128) :
    wlblk1 V c t (ix2 k q) = V c main_v24 (ix2 k q) := by
  show V c main_v24 (((cfg1.win 3).blk t).view.emb (ix2 k q)) = V c main_v24 (ix2 k q)
  refine congrArg (V c main_v24) (funext fun a => Fin.ext ?_)
  obtain ⟨-, -, -, -, -, -, e30, e31, -⟩ := idx_facts1 t
  match a with
  | ⟨0, _⟩ => show win1_3.index t (0 : Fin 2) * 128 + 1 * k.val = k.val; omega
  | ⟨1, _⟩ => show win1_3.index t (1 : Fin 2) * 128 + 1 * q.val = q.val; omega

/-- The right weights' one block is the whole matrix. -/
theorem wrblk1_apply (c : Dev nD) (t : Fin cfg1.N) (k q : Fin 128) :
    wrblk1 V c t (ix2 k q) = V c main_v26 (ix2 k q) := by
  show V c main_v26 (((cfg1.win 4).blk t).view.emb (ix2 k q)) = V c main_v26 (ix2 k q)
  refine congrArg (V c main_v26) (funext fun a => Fin.ext ?_)
  obtain ⟨-, -, -, -, -, -, -, -, e40, e41, -⟩ := idx_facts1 t
  match a with
  | ⟨0, _⟩ => show win1_4.index t (0 : Fin 2) * 128 + 1 * k.val = k.val; omega
  | ⟨1, _⟩ => show win1_4.index t (1 : Fin 2) * 128 + 1 * q.val = q.val; omega

/-- The bias's one block is the whole vector. -/
theorem bblk1_apply (c : Dev nD) (t : Fin cfg1.N) (q : Fin 128) :
    bblk1 V c t (ix1 q) = V c main_v28 (ix1 q) := by
  show V c main_v28 (((cfg1.win 5).blk t).view.emb (ix1 q)) = V c main_v28 (ix1 q)
  refine congrArg (V c main_v28) (funext fun a => Fin.ext ?_)
  obtain ⟨-, -, -, -, -, -, -, -, -, -, e50, -⟩ := idx_facts1 t
  match a with
  | ⟨0, _⟩ => show win1_5.index t (0 : Fin 1) * 128 + 1 * q.val = q.val; omega

/-- Row r, column q of output tile t is row 5000 t + r, column q of the array. -/
theorem oemb1 (t : Fin cfg1.N) (r : Fin 5000) (q : Fin 128) :
    ((cfg1.win 6).blk t).view.emb (ix2 r q) = (ix2 (row t r) q : S100000x128.Idx) := by
  refine funext fun a => Fin.ext ?_
  obtain ⟨-, -, -, -, -, -, -, -, -, -, -, e60, e61⟩ := idx_facts1 t
  match a with
  | ⟨0, _⟩ => show win1_6.index t (0 : Fin 2) * 5000 + 1 * r.val = t.val * 5000 + r.val; omega
  | ⟨1, _⟩ => show win1_6.index t (1 : Fin 2) * 128 + 1 * q.val = q.val; omega

/-- What grid point t writes back is tile t of the layer. -/
theorem flushed1_eq (c : Dev nD) (t : Fin cfg1.N) :
    (dat1 (F := Ideal) V c).flushed 6 t = ((cfg1.win 6).blk t).view.read (Elt Ideal) (G1 V c) := by
  show (cfg1.win 6).cut (grid1.coords t) ((dat1 (F := Ideal) V c).after 6 t) = _
  rw [after1_6]
  unfold out1_6
  rw [View.canon_unit_zero hz2]
  simp only [View.ld_unit_zero (S := S5000x128) hz2, View.ld_unit_zero (S := S5000x1) hz2, View.ld_unit_zero (S := S128x128) hz2, View.ld_unit_zero (S := S128) hz1]
  refine funext fun (j : S5000x128.Idx) => ?_
  obtain ⟨r, q, rfl⟩ : ∃ (r : Fin 5000) (q : Fin 128), j = ix2 r q := ⟨j 0, j 1, eq_ix2 j⟩
  show k1_pay1 (F := Ideal) (dblk1 V c t) (ablk1 V c t) (xblk1 V c t) (wlblk1 V c t) (wrblk1 V c t) (bblk1 V c t) (ix2 r q) = G1 V c (((cfg1.win 6).blk t).view.emb (ix2 r q))
  refine (k1_pay1_apply (dblk1 V c t) (ablk1 V c t) (xblk1 V c t) (wlblk1 V c t) (wrblk1 V c t) (bblk1 V c t) r q).trans ?_
  rw [oemb1 t r q, dblk1_apply, bblk1_apply]
  refine congrArg (fun s => max s 0) (congrArg₂ (· + ·) (congrArg₂ (· + ·) (Finset.sum_congr rfl fun k _ => ?_) (Finset.sum_congr rfl fun k _ => ?_)) rfl)
  · rw [ablk1_apply, wlblk1_apply]
  · rw [xblk1_apply, wrblk1_apply]

/-- An index of the array is in tile t iff each coordinate is in the tile's range on its axis. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v43).slice (win1_6.rect t)).set ↔ _
  rw [View.set_slice_whole, Rect.mem_set_unit]
  exact Iff.rfl

/-- Every index lies in the tile of its row's quotient by 5000. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hlt : (i 0).val / 5000 < cfg1.N := by show (i 0).val / 5000 < 20; omega
  obtain ⟨-, -, -, -, -, -, -, -, -, -, -, e60, e61⟩ := idx_facts1 ⟨(i 0).val / 5000, hlt⟩
  have e60' : win1_6.index ⟨(i 0).val / 5000, hlt⟩ (0 : Fin 2) = (i 0).val / 5000 := e60
  refine ⟨⟨(i 0).val / 5000, hlt⟩, flush1_6 _, ?_⟩
  rw [mem_blk1]
  intro a
  match a with
  | ⟨0, _⟩ => show win1_6.index _ (0 : Fin 2) * 5000 ≤ (i 0).val ∧ (i 0).val < win1_6.index _ (0 : Fin 2) * 5000 + 5000; omega
  | ⟨1, _⟩ => show win1_6.index _ (1 : Fin 2) * 128 ≤ (i 1).val ∧ (i 1).val < win1_6.index _ (1 : Fin 2) * 128 + 128; omega

/-- The output array after the region is the layer everywhere. -/
theorem final1 (c : Dev nD) : (dat1 (F := Ideal) V c).arrAt 6 cfg1.N = G1 V c :=
  (dat1 (F := Ideal) V c).arrAt_eq_of_cover 6 (G1 V c) (fun t _ => flushed1_eq V c t) (cover1)

/-- Region 1's output array at (p, q) is the layer of the arrays it is entered with. -/
theorem layer_val1 (c : Dev nD) (p : Fin 100000) (q : Fin 128) :
    (dat1 (F := Ideal) V c).arrAt 6 cfg1.N (ix2 p q) = Cert.Spec.layer (V c main_v42) (V c main_v22) (fun p => V c main_v8 (ix2 p (0 : Fin 1))) (V c main_v24) (V c main_v26) (V c main_v28) p q :=
  congrFun (final1 V c) (ix2 p q)

/-! ## Region 2 -/

/-- The layer of the specification on the arrays region 2 is entered with, index by index. -/
abbrev G2 (c : Dev nD) : S100000x128.Idx → Elt Ideal .bf16 := fun i =>
  Cert.Spec.layer (V c main_v63) (V c main_v43) (fun p => V c main_v8 (ix2 p (0 : Fin 1))) (V c main_v45) (V c main_v47) (V c main_v49) (i 0) (i 1)

/-- The windows' block indices at grid point t, decided over the grid: the three row-tiled inputs and the output sit at
    block (t, 0), the weights and the bias at block 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- The six input blocks at a grid point, at their literal types. -/
abbrev ablk2 (c : Dev nD) (t : Fin cfg2.N) : Vec Ideal S5000x128 .f32 := iblk2 V c 0 t
abbrev xblk2 (c : Dev nD) (t : Fin cfg2.N) : Vec Ideal S5000x128 .bf16 := iblk2 V c 1 t
abbrev dblk2 (c : Dev nD) (t : Fin cfg2.N) : Vec Ideal S5000x1 .f32 := iblk2 V c 2 t
abbrev wlblk2 (c : Dev nD) (t : Fin cfg2.N) : Vec Ideal S128x128 .f32 := iblk2 V c 3 t
abbrev wrblk2 (c : Dev nD) (t : Fin cfg2.N) : Vec Ideal S128x128 .f32 := iblk2 V c 4 t
abbrev bblk2 (c : Dev nD) (t : Fin cfg2.N) : Vec Ideal S128 .f32 := iblk2 V c 5 t

/-- Tile t of the aggregate at (r, k) is the array at (5000 t + r, k). -/
theorem ablk2_apply (c : Dev nD) (t : Fin cfg2.N) (r : Fin 5000) (k : Fin 128) :
    ablk2 V c t (ix2 r k) = V c main_v63 (ix2 (row t r) k) := by
  show V c main_v63 (((cfg2.win 0).blk t).view.emb (ix2 r k)) = V c main_v63 (ix2 (row t r) k)
  refine congrArg (V c main_v63) (funext fun a => Fin.ext ?_)
  obtain ⟨e00, e01, -⟩ := idx_facts2 t
  match a with
  | ⟨0, _⟩ => show win2_0.index t (0 : Fin 2) * 5000 + 1 * r.val = t.val * 5000 + r.val; omega
  | ⟨1, _⟩ => show win2_0.index t (1 : Fin 2) * 128 + 1 * k.val = k.val; omega

/-- Tile t of the features at (r, k) is the array at (5000 t + r, k). -/
theorem xblk2_apply (c : Dev nD) (t : Fin cfg2.N) (r : Fin 5000) (k : Fin 128) :
    xblk2 V c t (ix2 r k) = V c main_v43 (ix2 (row t r) k) := by
  show V c main_v43 (((cfg2.win 1).blk t).view.emb (ix2 r k)) = V c main_v43 (ix2 (row t r) k)
  refine congrArg (V c main_v43) (funext fun a => Fin.ext ?_)
  obtain ⟨-, -, e10, e11, -⟩ := idx_facts2 t
  match a with
  | ⟨0, _⟩ => show win2_1.index t (0 : Fin 2) * 5000 + 1 * r.val = t.val * 5000 + r.val; omega
  | ⟨1, _⟩ => show win2_1.index t (1 : Fin 2) * 128 + 1 * k.val = k.val; omega

/-- Tile t of the degree column at row r is the column at row 5000 t + r. -/
theorem dblk2_apply (c : Dev nD) (t : Fin cfg2.N) (r : Fin 5000) :
    dblk2 V c t (ix2 r (0 : Fin 1)) = V c main_v8 (ix2 (row t r) (0 : Fin 1)) := by
  show V c main_v8 (((cfg2.win 2).blk t).view.emb (ix2 r (0 : Fin 1))) = V c main_v8 (ix2 (row t r) (0 : Fin 1))
  refine congrArg (V c main_v8) (funext fun a => Fin.ext ?_)
  obtain ⟨-, -, -, -, e20, e21, -⟩ := idx_facts2 t
  match a with
  | ⟨0, _⟩ => show win2_2.index t (0 : Fin 2) * 5000 + 1 * r.val = t.val * 5000 + r.val; omega
  | ⟨1, _⟩ => show win2_2.index t (1 : Fin 2) * 1 + 1 * 0 = 0; omega

/-- The left weights' one block is the whole matrix. -/
theorem wlblk2_apply (c : Dev nD) (t : Fin cfg2.N) (k q : Fin 128) :
    wlblk2 V c t (ix2 k q) = V c main_v45 (ix2 k q) := by
  show V c main_v45 (((cfg2.win 3).blk t).view.emb (ix2 k q)) = V c main_v45 (ix2 k q)
  refine congrArg (V c main_v45) (funext fun a => Fin.ext ?_)
  obtain ⟨-, -, -, -, -, -, e30, e31, -⟩ := idx_facts2 t
  match a with
  | ⟨0, _⟩ => show win2_3.index t (0 : Fin 2) * 128 + 1 * k.val = k.val; omega
  | ⟨1, _⟩ => show win2_3.index t (1 : Fin 2) * 128 + 1 * q.val = q.val; omega

/-- The right weights' one block is the whole matrix. -/
theorem wrblk2_apply (c : Dev nD) (t : Fin cfg2.N) (k q : Fin 128) :
    wrblk2 V c t (ix2 k q) = V c main_v47 (ix2 k q) := by
  show V c main_v47 (((cfg2.win 4).blk t).view.emb (ix2 k q)) = V c main_v47 (ix2 k q)
  refine congrArg (V c main_v47) (funext fun a => Fin.ext ?_)
  obtain ⟨-, -, -, -, -, -, -, -, e40, e41, -⟩ := idx_facts2 t
  match a with
  | ⟨0, _⟩ => show win2_4.index t (0 : Fin 2) * 128 + 1 * k.val = k.val; omega
  | ⟨1, _⟩ => show win2_4.index t (1 : Fin 2) * 128 + 1 * q.val = q.val; omega

/-- The bias's one block is the whole vector. -/
theorem bblk2_apply (c : Dev nD) (t : Fin cfg2.N) (q : Fin 128) :
    bblk2 V c t (ix1 q) = V c main_v49 (ix1 q) := by
  show V c main_v49 (((cfg2.win 5).blk t).view.emb (ix1 q)) = V c main_v49 (ix1 q)
  refine congrArg (V c main_v49) (funext fun a => Fin.ext ?_)
  obtain ⟨-, -, -, -, -, -, -, -, -, -, e50, -⟩ := idx_facts2 t
  match a with
  | ⟨0, _⟩ => show win2_5.index t (0 : Fin 1) * 128 + 1 * q.val = q.val; omega

/-- Row r, column q of output tile t is row 5000 t + r, column q of the array. -/
theorem oemb2 (t : Fin cfg2.N) (r : Fin 5000) (q : Fin 128) :
    ((cfg2.win 6).blk t).view.emb (ix2 r q) = (ix2 (row t r) q : S100000x128.Idx) := by
  refine funext fun a => Fin.ext ?_
  obtain ⟨-, -, -, -, -, -, -, -, -, -, -, e60, e61⟩ := idx_facts2 t
  match a with
  | ⟨0, _⟩ => show win2_6.index t (0 : Fin 2) * 5000 + 1 * r.val = t.val * 5000 + r.val; omega
  | ⟨1, _⟩ => show win2_6.index t (1 : Fin 2) * 128 + 1 * q.val = q.val; omega

/-- What grid point t writes back is tile t of the layer. -/
theorem flushed2_eq (c : Dev nD) (t : Fin cfg2.N) :
    (dat2 (F := Ideal) V c).flushed 6 t = ((cfg2.win 6).blk t).view.read (Elt Ideal) (G2 V c) := by
  show (cfg2.win 6).cut (grid2.coords t) ((dat2 (F := Ideal) V c).after 6 t) = _
  rw [after2_6]
  unfold out2_6
  rw [View.canon_unit_zero hz2]
  simp only [View.ld_unit_zero (S := S5000x128) hz2, View.ld_unit_zero (S := S5000x1) hz2, View.ld_unit_zero (S := S128x128) hz2, View.ld_unit_zero (S := S128) hz1]
  refine funext fun (j : S5000x128.Idx) => ?_
  obtain ⟨r, q, rfl⟩ : ∃ (r : Fin 5000) (q : Fin 128), j = ix2 r q := ⟨j 0, j 1, eq_ix2 j⟩
  show k2_pay1 (F := Ideal) (dblk2 V c t) (ablk2 V c t) (xblk2 V c t) (wlblk2 V c t) (wrblk2 V c t) (bblk2 V c t) (ix2 r q) = G2 V c (((cfg2.win 6).blk t).view.emb (ix2 r q))
  refine (k2_pay1_apply (dblk2 V c t) (ablk2 V c t) (xblk2 V c t) (wlblk2 V c t) (wrblk2 V c t) (bblk2 V c t) r q).trans ?_
  rw [oemb2 t r q, dblk2_apply, bblk2_apply]
  refine congrArg (fun s => max s 0) (congrArg₂ (· + ·) (congrArg₂ (· + ·) (Finset.sum_congr rfl fun k _ => ?_) (Finset.sum_congr rfl fun k _ => ?_)) rfl)
  · rw [ablk2_apply, wlblk2_apply]
  · rw [xblk2_apply, wrblk2_apply]

/-- An index of the array is in tile t iff each coordinate is in the tile's range on its axis. -/
theorem mem_blk2 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v64).slice (win2_6.rect t)).set ↔ _
  rw [View.set_slice_whole, Rect.mem_set_unit]
  exact Iff.rfl

/-- Every index lies in the tile of its row's quotient by 5000. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hlt : (i 0).val / 5000 < cfg2.N := by show (i 0).val / 5000 < 20; omega
  obtain ⟨-, -, -, -, -, -, -, -, -, -, -, e60, e61⟩ := idx_facts2 ⟨(i 0).val / 5000, hlt⟩
  have e60' : win2_6.index ⟨(i 0).val / 5000, hlt⟩ (0 : Fin 2) = (i 0).val / 5000 := e60
  refine ⟨⟨(i 0).val / 5000, hlt⟩, flush2_6 _, ?_⟩
  rw [mem_blk2]
  intro a
  match a with
  | ⟨0, _⟩ => show win2_6.index _ (0 : Fin 2) * 5000 ≤ (i 0).val ∧ (i 0).val < win2_6.index _ (0 : Fin 2) * 5000 + 5000; omega
  | ⟨1, _⟩ => show win2_6.index _ (1 : Fin 2) * 128 ≤ (i 1).val ∧ (i 1).val < win2_6.index _ (1 : Fin 2) * 128 + 128; omega

/-- The output array after the region is the layer everywhere. -/
theorem final2 (c : Dev nD) : (dat2 (F := Ideal) V c).arrAt 6 cfg2.N = G2 V c :=
  (dat2 (F := Ideal) V c).arrAt_eq_of_cover 6 (G2 V c) (fun t _ => flushed2_eq V c t) (cover2)

/-- Region 2's output array at (p, q) is the layer of the arrays it is entered with. -/
theorem layer_val2 (c : Dev nD) (p : Fin 100000) (q : Fin 128) :
    (dat2 (F := Ideal) V c).arrAt 6 cfg2.N (ix2 p q) = Cert.Spec.layer (V c main_v63) (V c main_v43) (fun p => V c main_v8 (ix2 p (0 : Fin 1))) (V c main_v45) (V c main_v47) (V c main_v49) p q :=
  congrFun (final2 V c) (ix2 p q)

end Cert.KernelIdeal.HandVal

end
-- ==== Proof.KI.PayPool.lean ====
/-
  The pooling kernel's payloads read at an index, at the ideal values.

  Per 5000-row tile the kernel forms the matrix onehot[r, g] = 1 if the graph id of row r, a 32-bit word, equals the
  lane number g, else 0. A word equals the lane number g < 128 exactly when, read as a signed integer, it is g. The
  sum accumulator gains, at (g, d), the sum over the tile's rows r of onehot[r, g] * h[r, d], that is the sum of
  h[r, d] over the rows whose id is g; the count accumulator gains, at g, the column sum of onehot, the number of
  such rows. The two initial payloads are the zero matrix and the zero vector.
-/
import proofs.«420397_j11227044511906_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandVal

open Cert.KernelIdeal Cert.KernelIdeal.Gen
open Idealize.ShloMosaic Idealize.ShloMosaic.ValueIdx

/-- The initial sum accumulator is zero everywhere. -/
theorem k3_pay1_apply (g d : Fin 128) : k3_pay1 (F := Ideal) (ix2 g d) = 0 := by
  unfold k3_pay1
  rw [shapeCast_self]
  exact Ideal.ofBits_zero_f32

/-- The initial count accumulator is zero everywhere. -/
theorem k3_pay2_apply (g : Fin 128) : k3_pay2 (F := Ideal) (ix1 g) = 0 := by
  unfold k3_pay2
  rw [shapeCast_self]
  exact Ideal.ofBits_zero_f32

/-- A 32-bit word is the word of a natural number g < 128 exactly when its signed reading is g: the signed reading
    is injective, and that of the word of g is g since g is below 2^31. -/
theorem word_eq_ofNat_iff (w : BitVec 32) (g : Fin 128) : w = BitVec.ofNat 32 g.val ↔ w.toInt = (g.val : ℤ) := by
  have hn : (BitVec.ofNat 32 g.val).toNat = g.val := by
    have := g.isLt
    rw [BitVec.toNat_ofNat]; omega
  have hg : (BitVec.ofNat 32 g.val).toInt = (g.val : ℤ) := by
    have := g.isLt
    rw [BitVec.toInt_eq_toNat_of_lt (by rw [hn]; omega), hn]
  constructor
  · rintro rfl; exact hg
  · intro h; exact BitVec.eq_of_toInt_eq (h.trans hg.symm)

/-- The equality bit of two words, widened to 32 bits and converted to a float, is 1 if they are equal and 0 if not. -/
theorem sitofp_cmpi_eq (x y : BitVec 32) :
    FloatOps.sitofp (F := Ideal) .f32 ((IntOp.cmpi .eq x y).setWidth 32) = if x = y then (1 : EReal) else 0 := by
  have h1 : ((BitVec.ofBool true).setWidth 32).toInt = 1 := by decide
  have h0 : ((BitVec.ofBool false).setWidth 32).toInt = 0 := by decide
  show ((((BitVec.ofBool (x == y)).setWidth 32).toInt : ℝ) : EReal) = _
  by_cases h : x = y
  · rw [if_pos h, beq_iff_eq.mpr h, h1]; norm_num
  · rw [if_neg h, beq_eq_false_iff_ne.mpr h, h0]; norm_num

/-- The one-hot matrix at (r, g): 1 if row r's graph id, read signed, is g, else 0. The id column is broadcast
    along the lanes, the lane numbers along the rows. -/
theorem k3_pay3_apply (b : Vec Ideal S5000x1 .i32) (r : Fin 5000) (g : Fin 128) :
    k3_pay3 (F := Ideal) b (ix2 r g) = if (b (ix2 r (0 : Fin 1))).toInt = (g.val : ℤ) then (1 : EReal) else 0 := by
  unfold k3_pay3
  rw [shapeCast_self]
  rw [sitofp_apply, extui_apply]
  show FloatOps.sitofp (F := Ideal) .f32 ((IntOp.cmpi .eq (broadcastTo S5000x128 b broadcasts_S5000x1_S5000x128 (ix2 r g))
    (broadcastTo S5000x128 (iota .tc S1x128 32 [1] iota_S1x128_d1_w32) broadcasts_S1x128_S5000x128 (ix2 r g))).setWidth 32) = _
  rw [broadcastTo_apply b broadcasts_S5000x1_S5000x128 (ix2 r g) (ix2 r (0 : Fin 1))
        (by intro a; match a with | ⟨0, _⟩ => rfl | ⟨1, _⟩ => rfl),
      broadcastTo_apply (iota .tc S1x128 32 [1] iota_S1x128_d1_w32) broadcasts_S1x128_S5000x128 (ix2 r g) (ix2 (0 : Fin 1) g)
        (by intro a; match a with | ⟨0, _⟩ => rfl | ⟨1, _⟩ => rfl),
      iota_single_apply, sitofp_cmpi_eq]
  exact if_congr (word_eq_ofNat_iff _ g) rfl rfl

/-- The count accumulator at g gains the column sum of the one-hot matrix: the number of rows whose id is g. -/
theorem k3_pay5_apply (b : Vec Ideal S5000x1 .i32) (n : Vec Ideal S128 .f32) (g : Fin 128) :
    k3_pay5 (F := Ideal) b n (ix1 g) = n (ix1 g) + ∑ r : Fin 5000, if (b (ix2 r (0 : Fin 1))).toInt = (g.val : ℤ) then (1 : EReal) else 0 := by
  unfold k3_pay5
  rw [shapeCast_self, addf_apply]
  refine congrArg (n (ix1 g) + ·) ?_
  refine (Ideal.multiReduction_add_single (k3_pay3 (F := Ideal) b) _ reduces_S5000x128_S128 _ _ (ix1 g)).trans ?_
  refine Finset.sum_congr rfl fun r _ => ?_
  have e : reduces_S5000x128_S128.lift (ix1 g) r = ix2 r g := by
    funext a; refine Fin.ext ?_
    match a with
    | ⟨0, _⟩ => rfl
    | ⟨1, _⟩ => rfl
  rw [e]
  exact k3_pay3_apply b r g

/-- The left operand's index on its contracted axis 0 is the contraction position's one coordinate. -/
theorem lhs_pool_0 (j : S128x128.Idx) (q : dot_S5000x128_S5000x128_S128x128_0_0_1_1_n_n.contr.Idx) :
    (dot_S5000x128_S5000x128_S128x128_0_0_1_1_n_n.lhsIdx j q 0).val = (q ⟨0, by decide⟩).val :=
  dot_S5000x128_S5000x128_S128x128_0_0_1_1_n_n.lhsIdx_val_of_single rfl j q
/-- The left operand's index on its free axis 1 is the result's first coordinate. -/
theorem lhs_pool_1 (j : S128x128.Idx) (q : dot_S5000x128_S5000x128_S128x128_0_0_1_1_n_n.contr.Idx) :
    (dot_S5000x128_S5000x128_S128x128_0_0_1_1_n_n.lhsIdx j q 1).val = (j 0).val := by
  unfold DotDims.lhsIdx
  rw [dif_neg (show ¬(1 : Fin S5000x128.rank) ∈ dot_S5000x128_S5000x128_S128x128_0_0_1_1_n_n.lhsBatch by decide), dif_pos (show (1 : Fin S5000x128.rank) ∈ dot_S5000x128_S5000x128_S128x128_0_0_1_1_n_n.lhsNonContracting by decide)]
  rfl
/-- The right operand's index on its contracted axis 0 is the contraction position's one coordinate. -/
theorem rhs_pool_0 (j : S128x128.Idx) (q : dot_S5000x128_S5000x128_S128x128_0_0_1_1_n_n.contr.Idx) :
    (dot_S5000x128_S5000x128_S128x128_0_0_1_1_n_n.rhsIdx j q 0).val = (q ⟨0, by decide⟩).val :=
  dot_S5000x128_S5000x128_S128x128_0_0_1_1_n_n.rhsIdx_val_of_single rfl j q
/-- The right operand's index on its free axis 1 is the result's second coordinate. -/
theorem rhs_pool_1 (j : S128x128.Idx) (q : dot_S5000x128_S5000x128_S128x128_0_0_1_1_n_n.contr.Idx) :
    (dot_S5000x128_S5000x128_S128x128_0_0_1_1_n_n.rhsIdx j q 1).val = (j 1).val := by
  unfold DotDims.rhsIdx
  rw [dif_neg (show ¬(1 : Fin S5000x128.rank) ∈ dot_S5000x128_S5000x128_S128x128_0_0_1_1_n_n.rhsBatch by decide), dif_pos (show (1 : Fin S5000x128.rank) ∈ dot_S5000x128_S5000x128_S128x128_0_0_1_1_n_n.rhsNonContracting by decide)]
  rfl

/-- The sum accumulator at (g, d) gains the product of the transposed one-hot matrix with the feature tile: the sum
    over the rows r of onehot[r, g] * h[r, d], and a factor 1 keeps the term, a factor 0 removes it. -/
theorem k3_pay4_apply (b : Vec Ideal S5000x1 .i32) (h : Vec Ideal S5000x128 .bf16) (a : Vec Ideal S128x128 .f32) (g d : Fin 128) :
    k3_pay4 (F := Ideal) b h a (ix2 g d) = a (ix2 g d) + ∑ r : Fin 5000, if (b (ix2 r (0 : Fin 1))).toInt = (g.val : ℤ) then h (ix2 r d) else 0 := by
  unfold k3_pay4
  rw [shapeCast_self, addf_apply, shapeCast_self]
  refine congrArg (a (ix2 g d) + ·) ?_
  simp only [matmul]
  rw [Ideal.matmul_constant_zero_apply, ← Equiv.sum_comp (contrEquiv1 dot_S5000x128_S5000x128_S128x128_0_0_1_1_n_n 5000 rfl rfl).symm]
  refine Finset.sum_congr rfl fun k _ => ?_
  have hk := contrEquiv1_symm_val dot_S5000x128_S5000x128_S128x128_0_0_1_1_n_n 5000 rfl rfl k
  have el : dot_S5000x128_S5000x128_S128x128_0_0_1_1_n_n.lhsIdx (ix2 g d) ((contrEquiv1 dot_S5000x128_S5000x128_S128x128_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x128_S5000x128_S128x128_0_0_1_1_n_n.rhsIdx (ix2 g d) ((contrEquiv1 dot_S5000x128_S5000x128_S128x128_0_0_1_1_n_n 5000 rfl rfl).symm k) = ix2 k d := funext fun a => Fin.ext (by
    match a with
    | ⟨0, _⟩ => exact (rhs_pool_0 _ _).trans hk
    | ⟨1, _⟩ => exact rhs_pool_1 _ _)
  rw [el, er, truncf_apply, k3_pay3_apply]
  by_cases hc : (b (ix2 k (0 : Fin 1))).toInt = (g.val : ℤ)
  · rw [if_pos hc, if_pos hc, one_mul]
  · rw [if_neg hc, if_neg hc, zero_mul]

end Cert.KernelIdeal.HandVal

end
-- ==== Proof.KI.ValPool.lean ====
/-
  What the pooling region's two accumulators hold after its last grid point, as functions of the arrays the region
  finds: the per-graph feature sums and node counts of the specification.

  Grid point t reads rows 5000 t … 5000 t + 4999 of the feature array and of the id column. After point n the count
  accumulator at g is the sum over the tiles t ≤ n, and over the rows r of tile t, of 1 where the id of row
  5000 t + r, read signed, is g; the sum accumulator at (g, d) is the same sum of the features at (5000 t + r, d).
  Every node n < 100000 is row r = n mod 5000 of tile t = n / 5000 exactly once, so after the twentieth point the
  double sums are the sums over all nodes.
-/
import proofs.«420397_j11227044511906_3_alg».proof.Proof.KI.Reg3
import proofs.«420397_j11227044511906_3_alg».proof.Proof.KI.PayPool
import proofs.«420397_j11227044511906_3_alg».proof.Proof.Spec
import Idealize.ShloMosaic.Lib.Pipeline.Value
import Idealize.ShloMosaic.Lib.ValueIdx
import Mathlib.Algebra.BigOperators.Fin
import Mathlib.Logic.Equiv.Fin.Basic

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-- The two input windows' block index at point t is (t, 0): decided over the twenty points. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- Row r of tile t is a node: 5000 t + r < 100000 for t < 20, r < 5000. -/
theorem lt_rows (t : Fin cfg3.N) (r : Fin 5000) : 5000 * t.val + r.val < 100000 := by
  have h := t.isLt; have h20 : cfg3.N = 20 := N_3; have hr := r.isLt; omega

/-- The feature tile at point t, read at (r, d), is the feature array at (5000 t + r, d). -/
theorem iblk3_0_apply (c : Dev nD) (t : Fin cfg3.N) (r : Fin 5000) (d : Fin 128) :
    iblk3 V c 0 t (ix2 r d) = V c main_v64 (ix2 (⟨5000 * t.val + r.val, lt_rows t r⟩ : Fin 100000) d) := by
  obtain ⟨e0, e1, e2, e3⟩ := idx_facts3 t
  show V c main_v64 (((cfg3.win 0).blk t).view.emb (ix2 r d)) = _
  refine congrArg (V c main_v64) (funext fun a => Fin.ext ?_)
  match a with
  | ⟨0, _⟩ => show win3_0.index t (0 : Fin 2) * 5000 + 1 * r.val = 5000 * t.val + r.val; omega
  | ⟨1, _⟩ => show win3_0.index t (1 : Fin 2) * 128 + 1 * d.val = d.val; omega

/-- The id tile at point t, read at row r, is the id column at row 5000 t + r. -/
theorem iblk3_1_apply (c : Dev nD) (t : Fin cfg3.N) (r : Fin 5000) :
    iblk3 V c 1 t (ix2 r (0 : Fin 1)) = V c main_v65 (ix2 (⟨5000 * t.val + r.val, lt_rows t r⟩ : Fin 100000) (0 : Fin 1)) := by
  obtain ⟨e0, e1, e2, e3⟩ := idx_facts3 t
  show V c main_v65 (((cfg3.win 1).blk t).view.emb (ix2 r (0 : Fin 1))) = _
  refine congrArg (V c main_v65) (funext fun a => Fin.ext ?_)
  match a with
  | ⟨0, _⟩ => show win3_1.index t (0 : Fin 2) * 5000 + 1 * r.val = 5000 * t.val + r.val; omega
  | ⟨1, _⟩ => show win3_1.index t (1 : Fin 2) * 1 + 1 * 0 = 0; omega

section AtIdeal

variable (W : (c : Dev nD) → (b : Ref sig .tc) → Buf (Elt Ideal) ((c : Thread nD τ).loc b))

/-- The graph ids of the 100000 nodes, as words. -/
abbrev ids (c : Dev nD) : Fin 100000 → BitVec 32 := fun n => W c main_v65 (ix2 n (0 : Fin 1))
/-- The features of the 100000 nodes. -/
abbrev feat (c : Dev nD) : Cert.Spec.Mat 100000 128 := W c main_v64

/-- A sum over the 100000 nodes is the sum over the twenty tiles of the sum over a tile's 5000 rows:
    (t, r) ↦ 5000 t + r is a bijection from pairs to nodes. -/
theorem sum_tiles {M : Type*} [AddCommMonoid M] (f : Fin 100000 → M) :
    ∑ t : Fin 20, ∑ r : Fin 5000, f ⟨5000 * t.val + r.val, by have := t.isLt; have := r.isLt; omega⟩ = ∑ n : Fin 100000, f n := by
  obtain ⟨e, he⟩ : ∃ e : Fin 20 × Fin 5000 ≃ Fin 100000, ∀ p, (e p).val = p.2.val + 5000 * p.1.val :=
    ⟨finProdFinEquiv, fun p => rfl⟩
  rw [← Equiv.sum_comp e f, Fintype.sum_prod_type]
  refine Finset.sum_congr rfl fun t _ => Finset.sum_congr rfl fun r _ => congrArg f (Fin.ext ?_)
  rw [he]; show 5000 * t.val + r.val = r.val + 5000 * t.val; omega

/-- Tile t's share of the count of graph g (zero beyond the grid). -/
def cntTile (c : Dev nD) (g : Fin 128) (t : ℕ) : EReal :=
  if ht : t < cfg3.N then ∑ r : Fin 5000, if (ids W c ⟨5000 * t + r.val, lt_rows ⟨t, ht⟩ r⟩).toInt = (g.val : ℤ) then (1 : EReal) else 0 else 0

/-- The count accumulator after point n is the sum of the shares of the tiles 0 … n: the first point adds its share
    to zero, each later point to what the point before left. -/
theorem acc3_cnt (c : Dev nD) (g : Fin 128) (n : ℕ) (hn : n < cfg3.N) :
    (acc3 (F := Ideal) W c n hn).2 (ix1 g) = ∑ t ∈ Finset.range (n + 1), cntTile W c g t := by
  induction n with
  | zero =>
    show k3_pay5 (F := Ideal) (iblk3 W c 1 ⟨0, hn⟩) (k3_pay2 (F := Ideal)) (ix1 g) = _
    rw [k3_pay5_apply, k3_pay2_apply, zero_add, Finset.sum_range_one, cntTile, dif_pos hn]
    refine Finset.sum_congr rfl fun r _ => ?_
    rw [iblk3_1_apply]
  | succ n ih =>
    show k3_pay5 (F := Ideal) (iblk3 W c 1 ⟨n + 1, hn⟩) (acc3 W c n (Nat.lt_of_succ_lt hn)).2 (ix1 g) = _
    rw [k3_pay5_apply, ih, Finset.sum_range_succ _ (n + 1)]
    refine congrArg (_ + ·) ?_
    rw [cntTile, dif_pos hn]
    refine Finset.sum_congr rfl fun r _ => ?_
    rw [iblk3_1_apply]

/-- After the last point the count accumulator at g is the number of nodes of graph g. -/
theorem pool_val_cnt (c : Dev nD) (g : Fin 128) :
    (acc3 (F := Ideal) W c 19 (by rw [show cfg3.N = 20 from N_3]; decide)).2 (ix1 g) = Cert.Spec.poolCnt (fun n => W c main_v65 (ix2 n (0 : Fin 1))) g := by
  rw [acc3_cnt, Finset.sum_range, Cert.Spec.poolCnt,
    ← sum_tiles (fun n => if (ids W c n).toInt = (g.val : ℤ) then (1 : EReal) else 0)]
  refine Finset.sum_congr rfl fun t _ => ?_
  rw [cntTile, dif_pos (by rw [show cfg3.N = 20 from N_3]; exact t.isLt)]

end AtIdeal

section AtIdealSum

variable (W : (c : Dev nD) → (b : Ref sig .tc) → Buf (Elt Ideal) ((c : Thread nD τ).loc b))

/-- Tile t's share of the feature sum of graph g at feature d (zero beyond the grid). -/
def sumTile (c : Dev nD) (g d : Fin 128) (t : ℕ) : EReal :=
  if ht : t < cfg3.N then ∑ r : Fin 5000, if (ids W c ⟨5000 * t + r.val, lt_rows ⟨t, ht⟩ r⟩).toInt = (g.val : ℤ)
    then feat W c (ix2 (⟨5000 * t + r.val, lt_rows ⟨t, ht⟩ r⟩ : Fin 100000) d) else 0 else 0

/-- The sum accumulator after point n is the sum of the shares of the tiles 0 … n. -/
theorem acc3_sum (c : Dev nD) (g d : Fin 128) (n : ℕ) (hn : n < cfg3.N) :
    (acc3 (F := Ideal) W c n hn).1 (ix2 g d) = ∑ t ∈ Finset.range (n + 1), sumTile W c g d t := by
  induction n with
  | zero =>
    show k3_pay4 (F := Ideal) (iblk3 W c 1 ⟨0, hn⟩) (iblk3 W c 0 ⟨0, hn⟩) (k3_pay1 (F := Ideal)) (ix2 g d) = _
    rw [k3_pay4_apply, k3_pay1_apply, zero_add, Finset.sum_range_one, sumTile, dif_pos hn]
    refine Finset.sum_congr rfl fun r _ => ?_
    rw [iblk3_1_apply, iblk3_0_apply]
  | succ n ih =>
    show k3_pay4 (F := Ideal) (iblk3 W c 1 ⟨n + 1, hn⟩) (iblk3 W c 0 ⟨n + 1, hn⟩) (acc3 W c n (Nat.lt_of_succ_lt hn)).1 (ix2 g d) = _
    rw [k3_pay4_apply, ih, Finset.sum_range_succ _ (n + 1)]
    refine congrArg (_ + ·) ?_
    rw [sumTile, dif_pos hn]
    refine Finset.sum_congr rfl fun r _ => ?_
    rw [iblk3_1_apply, iblk3_0_apply]

/-- After the last point the sum accumulator at (g, d) is the sum of feature d over the nodes of graph g. -/
theorem pool_val_sum (c : Dev nD) (g d : Fin 128) :
    (acc3 (F := Ideal) W c 19 (by rw [show cfg3.N = 20 from N_3]; decide)).1 (ix2 g d) = Cert.Spec.poolSum (W c main_v64) (fun n => W c main_v65 (ix2 n (0 : Fin 1))) g d := by
  rw [acc3_sum, Finset.sum_range, Cert.Spec.poolSum,
    ← sum_tiles (fun n => if (ids W c n).toInt = (g.val : ℤ) then feat W c (ix2 n d) else 0)]
  refine Finset.sum_congr rfl fun t _ => ?_
  rw [sumTile, dif_pos (by rw [show cfg3.N = 20 from N_3]; exact t.isLt)]

end AtIdealSum

end Cert.KernelIdeal.HandVal

end
-- ==== Proof.KI.PayMlp.lean ====
/-
  The head of the network read at an index. Per graph g: the pooled sums of its nodes' features divided by the count
  clipped below at one (the mean row); a clipped affine layer over the mean row; a second affine layer giving ten class
  scores; and the row-wise logarithm of the soft maximum, z - max z - log (sum exp (z - max z)), the maximum being taken
  from minus infinity, which is the bottom of the extended reals, so that it is the supremum of the row.

  The stages are stated over variables: the two products into a zero accumulator as sums over the shared axis, the bias
  rows, the mean, hidden and score stages, and the last stage over an arbitrary score matrix. The payload's value is
  their composition.
-/
import proofs.«420397_j11227044511906_3_alg».proof.Proof.Gen.KernelIdeal.Skeleton
import proofs.«420397_j11227044511906_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.KernelIdeal.HandVal

open Cert.KernelIdeal Cert.KernelIdeal.Gen Idealize.ShloMosaic Idealize.ShloMosaic.ValueIdx

/-! ## Layout readings the head needs -/

section Layout
variable {α : Type}

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The pattern of minus infinity is the bottom extended real. -/
theorem ofBits_neg_inf_f32 : Ideal.ofBits .f32 0xFF800000#32 = ⊥ := by
  simp [Ideal.ofBits, Ideal.ieee]

/-- The index a row reduction of a `[128, 10]` array inserts: row `g`, column `k`. -/
theorem lift_S128x10 (g : Fin 128) (k : Fin 10) : Gen.reduces_S128x10_S128.lift (ix1 g) k = ix2 g k := by
  funext a; match a with | ⟨0, _⟩ => rfl | ⟨1, _⟩ => rfl

/-! ## The two products -/

theorem lhsH_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem lhsH_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem rhsH_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem rhsH_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- The product into a zero accumulator read at `(g, j)`: the sum over the shared axis of the operands' products. -/
theorem matmulH_apply (x : FVec Ideal S128x128 .bf16) (w : FVec Ideal S128x128 .bf16) (g : Fin 128) (j : Fin 128) :
    matmul dot_S128x128_S128x128_S128x128_1_0_0_1_n_n none x w (constant (F := Ideal) S128x128 .f32 0x00000000#32) (ix2 g j)
      = ∑ k : Fin 128, x (ix2 g k) * w (ix2 k j) := by
  simp only [matmul]
  rw [Ideal.matmul_constant_zero_apply, ← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 g j) ((contrEquiv1 dot_S128x128_S128x128_S128x128_1_0_0_1_n_n 128 rfl rfl).symm k) = ix2 g k := funext fun a => Fin.ext (by
    match a with
    | ⟨0, _⟩ => exact lhsH_0 _ _
    | ⟨1, _⟩ => exact (lhsH_1 _ _).trans hk)
  have er : dot_S128x128_S128x128_S128x128_1_0_0_1_n_n.rhsIdx (ix2 g j) ((contrEquiv1 dot_S128x128_S128x128_S128x128_1_0_0_1_n_n 128 rfl rfl).symm k) = ix2 k j := funext fun a => Fin.ext (by
    match a with
    | ⟨0, _⟩ => exact (rhsH_0 _ _).trans hk
    | ⟨1, _⟩ => exact rhsH_1 _ _)
  rw [el, er]

theorem lhsL_0 (i : S128x10.Idx) (q : dot_S128x128_S128x10_S128x10_1_0_0_1_n_n.contr.Idx) :
    (dot_S128x128_S128x10_S128x10_1_0_0_1_n_n.lhsIdx i q 0).val = (i 0).val := by
  unfold DotDims.lhsIdx
  rw [dif_neg (show ¬(0 : Fin S128x128.rank) ∈ dot_S128x128_S128x10_S128x10_1_0_0_1_n_n.lhsBatch by decide), dif_pos (show (0 : Fin S128x128.rank) ∈ dot_S128x128_S128x10_S128x10_1_0_0_1_n_n.lhsNonContracting by decide)]
  rfl
theorem lhsL_1 (i : S128x10.Idx) (q : dot_S128x128_S128x10_S128x10_1_0_0_1_n_n.contr.Idx) :
    (dot_S128x128_S128x10_S128x10_1_0_0_1_n_n.lhsIdx i q 1).val = (q ⟨0, by decide⟩).val :=
  dot_S128x128_S128x10_S128x10_1_0_0_1_n_n.lhsIdx_val_of_single rfl i q
theorem rhsL_0 (i : S128x10.Idx) (q : dot_S128x128_S128x10_S128x10_1_0_0_1_n_n.contr.Idx) :
    (dot_S128x128_S128x10_S128x10_1_0_0_1_n_n.rhsIdx i q 0).val = (q ⟨0, by decide⟩).val :=
  dot_S128x128_S128x10_S128x10_1_0_0_1_n_n.rhsIdx_val_of_single rfl i q
theorem rhsL_1 (i : S128x10.Idx) (q : dot_S128x128_S128x10_S128x10_1_0_0_1_n_n.contr.Idx) :
    (dot_S128x128_S128x10_S128x10_1_0_0_1_n_n.rhsIdx i q 1).val = (i 1).val := by
  unfold DotDims.rhsIdx
  rw [dif_neg (show ¬(1 : Fin S128x10.rank) ∈ dot_S128x128_S128x10_S128x10_1_0_0_1_n_n.rhsBatch by decide), dif_pos (show (1 : Fin S128x10.rank) ∈ dot_S128x128_S128x10_S128x10_1_0_0_1_n_n.rhsNonContracting by decide)]
  rfl

/-- The product into a zero accumulator read at `(g, j)`: the sum over the shared axis of the operands' products. -/
theorem matmulL_apply (x : FVec Ideal S128x128 .bf16) (w : FVec Ideal S128x10 .bf16) (g : Fin 128) (j : Fin 10) :
    matmul dot_S128x128_S128x10_S128x10_1_0_0_1_n_n none x w (constant (F := Ideal) S128x10 .f32 0x00000000#32) (ix2 g j)
      = ∑ k : Fin 128, x (ix2 g k) * w (ix2 k j) := by
  simp only [matmul]
  rw [Ideal.matmul_constant_zero_apply, ← Equiv.sum_comp (contrEquiv1 dot_S128x128_S128x10_S128x10_1_0_0_1_n_n 128 rfl rfl).symm]
  refine Finset.sum_congr rfl fun k _ => ?_
  have hk := contrEquiv1_symm_val dot_S128x128_S128x10_S128x10_1_0_0_1_n_n 128 rfl rfl k
  have el : dot_S128x128_S128x10_S128x10_1_0_0_1_n_n.lhsIdx (ix2 g j) ((contrEquiv1 dot_S128x128_S128x10_S128x10_1_0_0_1_n_n 128 rfl rfl).symm k) = ix2 g k := funext fun a => Fin.ext (by
    match a with
    | ⟨0, _⟩ => exact lhsL_0 _ _
    | ⟨1, _⟩ => exact (lhsL_1 _ _).trans hk)
  have er : dot_S128x128_S128x10_S128x10_1_0_0_1_n_n.rhsIdx (ix2 g j) ((contrEquiv1 dot_S128x128_S128x10_S128x10_1_0_0_1_n_n 128 rfl rfl).symm k) = ix2 k j := funext fun a => Fin.ext (by
    match a with
    | ⟨0, _⟩ => exact (rhsL_0 _ _).trans hk
    | ⟨1, _⟩ => exact rhsL_1 _ _)
  rw [el, er]

/-! ## The row maximum, the row sum and the logarithm of the soft maximum -/

/-- The row maximum of a score matrix, as the kernel takes it, is the supremum of the row. -/
theorem rowMax_apply (z : FVec Ideal S128x10 .f32) (g : Fin 128) :
    multiReduction .maximumf [1] S128 z 0xFF800000#32 Gen.reduces_S128x10_S128 (.inl rfl) rfl (ix1 g)
      = Finset.univ.sup (fun c' : Fin 10 => z (ix2 g c')) := by
  refine (Ideal.multiReduction_maximumf_single z _ Gen.reduces_S128x10_S128 (.inl rfl) rfl (ix1 g)).trans ?_
  show (Finset.univ : Finset (Fin 10)).fold max (Ideal.ofBits .f32 0xFF800000#32) (z ∘ Gen.reduces_S128x10_S128.lift (ix1 g)) = _
  rw [ofBits_neg_inf_f32]
  have e : (z ∘ Gen.reduces_S128x10_S128.lift (ix1 g)) = fun c' : Fin 10 => z (ix2 g c') :=
    funext fun k => congrArg z (lift_S128x10 g k)
  rw [e]
  rfl

/-- The row sum of a `[128, 10]` matrix, as the kernel takes it. -/
theorem rowSum_apply (y : FVec Ideal S128x10 .f32) (g : Fin 128) :
    multiReduction .add [1] S128 y 0x00000000#32 Gen.reduces_S128x10_S128 (.inl rfl) rfl (ix1 g)
      = ∑ c' : Fin 10, y (ix2 g c') := by
  refine (Ideal.multiReduction_add_single y _ Gen.reduces_S128x10_S128 (.inl rfl) rfl (ix1 g)).trans ?_
  exact Finset.sum_congr rfl fun k _ => congrArg y (lift_S128x10 g k)

/-- The kernel's shifted scores: each score less its row's maximum. -/
theorem shifted_apply (z : FVec Ideal S128x10 .f32) (g : Fin 128) (c : Fin 10) :
    subf z (broadcastTo S128x10 (shapeCast S128x1 (maximumf (broadcast S128 (Scalar.ofBits (F := Ideal) .f32 0xFF800000#32))
        (multiReduction .maximumf [1] S128 z 0xFF800000#32 Gen.reduces_S128x10_S128 (.inl rfl) rfl)) Gen.shapeCasts_S128_S128x1)
        Gen.broadcasts_S128x1_S128x10) (ix2 g c)
      = z (ix2 g c) - Finset.univ.sup (fun c' : Fin 10 => z (ix2 g c')) := by
  rw [subf_apply, broadcastTo_col_apply, shapeCast_a_a1_apply, maximumf_apply, rowMax_apply, broadcast_apply]
  show z (ix2 g c) - max (Ideal.ofBits .f32 0xFF800000#32) _ = _
  rw [ofBits_neg_inf_f32, max_eq_right bot_le]

/-- The head's last stage over an arbitrary score matrix: the kernel's maximum from minus infinity, shift, exponential,
    row sum, logarithm and second shift are the row-wise logarithm of the soft maximum. -/
theorem logSoftmax_stage (z : FVec Ideal S128x10 .f32) (g : Fin 128) (c : Fin 10) :
    subf
      (subf z (broadcastTo S128x10 (shapeCast S128x1 (maximumf (broadcast S128 (Scalar.ofBits (F := Ideal) .f32 0xFF800000#32))
        (multiReduction .maximumf [1] S128 z 0xFF800000#32 Gen.reduces_S128x10_S128 (.inl rfl) rfl)) Gen.shapeCasts_S128_S128x1)
        Gen.broadcasts_S128x1_S128x10))
      (broadcastTo S128x10 (log (shapeCast S128x1 (multiReduction .add [1] S128
        (exp (subf z (broadcastTo S128x10 (shapeCast S128x1 (maximumf (broadcast S128 (Scalar.ofBits (F := Ideal) .f32 0xFF800000#32))
          (multiReduction .maximumf [1] S128 z 0xFF800000#32 Gen.reduces_S128x10_S128 (.inl rfl) rfl)) Gen.shapeCasts_S128_S128x1)
          Gen.broadcasts_S128x1_S128x10)))
        0x00000000#32 Gen.reduces_S128x10_S128 (.inl rfl) rfl) Gen.shapeCasts_S128_S128x1)) Gen.broadcasts_S128x1_S128x10)
      (ix2 g c)
      = Cert.Spec.logSoftmax (fun g c => z (ix2 g c)) g c := by
  rw [subf_apply, shifted_apply, broadcastTo_col_apply]
  show _ - Ideal.log (shapeCast S128x1 _ Gen.shapeCasts_S128_S128x1 (ix2 g (0 : Fin 1))) = _
  rw [shapeCast_a_a1_apply, rowSum_apply]
  unfold Cert.Spec.logSoftmax
  refine congrArg (fun s => _ - Ideal.log s) (Finset.sum_congr rfl fun c' _ => ?_)
  show Ideal.exp _ = _
  rw [shifted_apply]

/-! ## The stages of the head over variables -/

/-- The kernel's mean rows: the pooled sums over the count clipped below at one. -/
theorem mean_stage (cnt : FVec Ideal S128x1 .f32) (psum : FVec Ideal S128x128 .f32) (g k : Fin 128) :
    (truncf .bf16 (divf (shapeCast S128x128 psum Gen.shapeCasts_S128x128_S128x128)
        (broadcastTo S128x128 (maximumf (shapeCast S128x1 cnt Gen.shapeCasts_S128x1_S128x1)
            (broadcast S128x1 (Scalar.ofBits (F := Ideal) .f32 0x3F800000#32)))
          Gen.broadcasts_S128x1_S128x128)) Gen.bitsLt_bf16_f32 : FVec Ideal S128x128 .bf16) (ix2 g k)
      = Cert.Spec.mean psum (fun g => cnt (ix2 g (0 : Fin 1))) g k := by
  rw [truncf_apply, divf_apply, shapeCast_self, broadcastTo_col_apply, maximumf_apply, shapeCast_self, broadcast_apply]
  show Ideal.div _ (max _ (Ideal.ofBits .f32 0x3F800000#32)) = _
  rw [Ideal.ofBits_one_f32]
  rfl

/-- A bias vector `[n]` cast to one row and broadcast down `[128, n]` reads, at `(g, j)`, the bias at `j`. -/
theorem biasH_apply (b : FVec Ideal S128 .f32) (g j : Fin 128) :
    broadcastTo S128x128 (shapeCast S1x128 b Gen.shapeCasts_S128_S1x128) Gen.broadcasts_S1x128_S128x128 (ix2 g j) = b (ix1 j) := by
  rw [broadcastTo_1b_ab_apply, shapeCast_a_1a_apply]
theorem biasL_apply (b : FVec Ideal S10 .f32) (g : Fin 128) (c : Fin 10) :
    broadcastTo S128x10 (shapeCast S1x10 b Gen.shapeCasts_S10_S1x10) Gen.broadcasts_S1x10_S128x10 (ix2 g c) = b (ix1 c) := by
  rw [broadcastTo_1b_ab_apply, shapeCast_a_1a_apply]

/-- The hidden layer over an arbitrary matrix of mean rows `m`. -/
theorem hidden_stage (m : FVec Ideal S128x128 .bf16) (w1 : FVec Ideal S128x128 .f32) (b1 : FVec Ideal S128 .f32) (g j : Fin 128) :
    (truncf .bf16 (maximumf (addf (matmul dot_S128x128_S128x128_S128x128_1_0_0_1_n_n none m (truncf .bf16 w1 Gen.bitsLt_bf16_f32)
          (constant (F := Ideal) S128x128 .f32 0x00000000#32))
        (broadcastTo S128x128 (shapeCast S1x128 b1 Gen.shapeCasts_S128_S1x128) Gen.broadcasts_S1x128_S128x128))
      (broadcast S128x128 (Scalar.ofBits (F := Ideal) .f32 0x00000000#32))) Gen.bitsLt_bf16_f32 : FVec Ideal S128x128 .bf16) (ix2 g j)
      = max ((∑ k : Fin 128, m (ix2 g k) * w1 (ix2 k j)) + b1 (ix1 j)) 0 := by
  rw [truncf_apply, maximumf_apply, addf_apply, matmulH_apply, biasH_apply, broadcast_apply]
  show max _ (Ideal.ofBits .f32 0x00000000#32) = _
  rw [Ideal.ofBits_zero_f32]
  rfl

/-- The class scores over an arbitrary hidden matrix `h`. -/
theorem logits_stage (h : FVec Ideal S128x128 .bf16) (w2 : FVec Ideal S128x10 .f32) (b2 : FVec Ideal S10 .f32) (g : Fin 128) (c : Fin 10) :
    addf (matmul dot_S128x128_S128x10_S128x10_1_0_0_1_n_n none h (truncf .bf16 w2 Gen.bitsLt_bf16_f32)
          (constant (F := Ideal) S128x10 .f32 0x00000000#32))
        (broadcastTo S128x10 (shapeCast S1x10 b2 Gen.shapeCasts_S10_S1x10) Gen.broadcasts_S1x10_S128x10) (ix2 g c)
      = (∑ j : Fin 128, h (ix2 g j) * w2 (ix2 j c)) + b2 (ix1 c) := by
  rw [addf_apply, matmulL_apply, biasL_apply]
  rfl

/-! ## The head's payload -/

/-- The head kernel's stored value at graph `g` and class `c` is the specification's head. -/
theorem k4_pay1_apply (cnt : Vec Ideal S128x1 .f32) (psum : Vec Ideal S128x128 .f32) (w1 : Vec Ideal S128x128 .f32)
    (b1 : Vec Ideal S128 .f32) (w2 : Vec Ideal S128x10 .f32) (b2 : Vec Ideal S10 .f32) (g : Fin 128) (c : Fin 10) :
    k4_pay1 (F := Ideal) cnt psum w1 b1 w2 b2 (ix2 g c)
      = Cert.Spec.head psum (fun g => cnt (ix2 g (0 : Fin 1))) w1 b1 w2 b2 g c := by
  unfold k4_pay1
  refine (logSoftmax_stage _ g c).trans ?_
  unfold Cert.Spec.head
  refine congrArg (fun z => Cert.Spec.logSoftmax z g c) (funext fun g' => funext fun c' => ?_)
  refine (logits_stage _ w2 b2 g' c').trans ?_
  unfold Cert.Spec.logits
  refine congrArg (· + b2 (ix1 c')) (Finset.sum_congr rfl fun j _ => congrArg (· * w2 (ix2 j c')) ?_)
  refine (hidden_stage _ w1 b1 g' j).trans ?_
  unfold Cert.Spec.hidden
  refine congrArg (fun s => max (s + b1 (ix1 j)) 0) (Finset.sum_congr rfl fun k _ => congrArg (· * w1 (ix2 k j)) ?_)
  exact mean_stage cnt psum g' k

end Cert.KernelIdeal.HandVal

end
-- ==== Proof.KI.ValMlp.lean ====
/-
  The head's output array after its region's run. The grid has one point and every window's block index is zero on
  every axis, so each input block is its whole array and the output's block is the whole output array. What the point
  writes back is therefore the payload of the six input arrays, which is the specification's head index by index, and
  the one block covers the array: the array ends holding the head.
-/
import proofs.«420397_j11227044511906_3_alg».proof.Proof.KI.Reg4
import proofs.«420397_j11227044511906_3_alg».proof.Proof.KI.PayMlp
import proofs.«420397_j11227044511906_3_alg».proof.Proof.Spec
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The grid's one point: every block is its whole array -/

theorem zero2 : (![0, 0] : Fin 2 → Nat) = fun _ => 0 := funext fun a => by fin_cases a <;> rfl
theorem zero1 : (![0] : Fin 1 → Nat) = fun _ => 0 := funext fun a => by fin_cases a <;> rfl

/-- Every window's block index is zero on every axis at every point of the grid. -/
theorem index_zero4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = 0 ∧ win4_6.index t (1 : Fin 2) = 0 :=
  (by decide +kernel : ∀ t : Fin grid4.N, _)

/-- The pooled sums' block is the whole array. -/
theorem iblk4_0_eq (c : Dev nD) (t : Fin cfg4.N) : (iblk4 V c 0 t : Vec Ideal S128x128 .f32) = V c main_v66_0 := by
  funext x
  unfold iblk4
  rw [View.read_apply]
  show V c main_v66_0 _ = V c main_v66_0 x
  congr 1
  funext a; apply Fin.ext
  obtain ⟨e0, e1, -⟩ := index_zero4 t
  match a with
  | ⟨0, _⟩ => show win4_0.index t (0 : Fin 2) * 128 + 1 * (x 0).val = (x 0).val; rw [e0]; omega
  | ⟨1, _⟩ => show win4_0.index t (1 : Fin 2) * 128 + 1 * (x 1).val = (x 1).val; rw [e1]; omega

/-- The count column's block is the whole array. -/
theorem iblk4_1_eq (c : Dev nD) (t : Fin cfg4.N) : (iblk4 V c 1 t : Vec Ideal S128x1 .f32) = V c main_v67 := by
  funext x
  unfold iblk4
  rw [View.read_apply]
  show V c main_v67 _ = V c main_v67 x
  congr 1
  funext a; apply Fin.ext
  obtain ⟨-, -, e0, e1, -⟩ := index_zero4 t
  match a with
  | ⟨0, _⟩ => show win4_1.index t (0 : Fin 2) * 128 + 1 * (x 0).val = (x 0).val; rw [e0]; omega
  | ⟨1, _⟩ => show win4_1.index t (1 : Fin 2) * 1 + 1 * (x 1).val = (x 1).val; rw [e1]; omega

/-- The first weights' block is the whole array. -/
theorem iblk4_2_eq (c : Dev nD) (t : Fin cfg4.N) : (iblk4 V c 2 t : Vec Ideal S128x128 .f32) = V c main_arg8 := by
  funext x
  unfold iblk4
  rw [View.read_apply]
  show V c main_arg8 _ = V c main_arg8 x
  congr 1
  funext a; apply Fin.ext
  obtain ⟨-, -, -, -, e0, e1, -⟩ := index_zero4 t
  match a with
  | ⟨0, _⟩ => show win4_2.index t (0 : Fin 2) * 128 + 1 * (x 0).val = (x 0).val; rw [e0]; omega
  | ⟨1, _⟩ => show win4_2.index t (1 : Fin 2) * 128 + 1 * (x 1).val = (x 1).val; rw [e1]; omega

/-- The first bias's block is the whole array. -/
theorem iblk4_3_eq (c : Dev nD) (t : Fin cfg4.N) : (iblk4 V c 3 t : Vec Ideal S128 .f32) = V c main_arg9 := by
  funext x
  unfold iblk4
  rw [View.read_apply]
  show V c main_arg9 _ = V c main_arg9 x
  congr 1
  funext a; apply Fin.ext
  obtain ⟨-, -, -, -, -, -, e0, -⟩ := index_zero4 t
  match a with
  | ⟨0, _⟩ => show win4_3.index t (0 : Fin 1) * 128 + 1 * (x 0).val = (x 0).val; rw [e0]; omega

/-- The second weights' block is the whole array. -/
theorem iblk4_4_eq (c : Dev nD) (t : Fin cfg4.N) : (iblk4 V c 4 t : Vec Ideal S128x10 .f32) = V c main_arg10 := by
  funext x
  unfold iblk4
  rw [View.read_apply]
  show V c main_arg10 _ = V c main_arg10 x
  congr 1
  funext a; apply Fin.ext
  obtain ⟨-, -, -, -, -, -, -, e0, e1, -⟩ := index_zero4 t
  match a with
  | ⟨0, _⟩ => show win4_4.index t (0 : Fin 2) * 128 + 1 * (x 0).val = (x 0).val; rw [e0]; omega
  | ⟨1, _⟩ => show win4_4.index t (1 : Fin 2) * 10 + 1 * (x 1).val = (x 1).val; rw [e1]; omega

/-- The second bias's block is the whole array. -/
theorem iblk4_5_eq (c : Dev nD) (t : Fin cfg4.N) : (iblk4 V c 5 t : Vec Ideal S10 .f32) = V c main_arg11 := by
  funext x
  unfold iblk4
  rw [View.read_apply]
  show V c main_arg11 _ = V c main_arg11 x
  congr 1
  funext a; apply Fin.ext
  obtain ⟨-, -, -, -, -, -, -, -, -, e0, -⟩ := index_zero4 t
  match a with
  | ⟨0, _⟩ => show win4_5.index t (0 : Fin 1) * 10 + 1 * (x 0).val = (x 0).val; rw [e0]; omega

/-! ## The output array after the run -/

/-- The head of the specification at the arrays the region finds, as one array over `[128, 10]`. -/
def headArr (c : Dev nD) : S128x10.Idx → EReal := fun i =>
  Cert.Spec.head (V c main_v66_0) (fun g => V c main_v67 (ix2 g (0 : Fin 1))) (V c main_arg8) (V c main_arg9) (V c main_arg10)
    (V c main_arg11) (i 0) (i 1)

/-- What the one point writes back is its block of the head's array. -/
theorem flushed4_6_eq (c : Dev nD) (t : Fin cfg4.N) :
    (dat4 (F := Ideal) V c).flushed 6 t = ((cfg4.win 6).blk t).view.read (Elt Ideal) (headArr V c) := by
  show (cfg4.win 6).cut (grid4.coords t) ((dat4 (F := Ideal) V c).after 6 t) = _
  rw [after4_6]
  unfold out4_6
  rw [View.canon_unit_zero zero2]
  simp only [View.ld_unit_zero (S := S128x128) zero2, View.ld_unit_zero (S := S128x1) zero2, View.ld_unit_zero (S := S128x10) zero2,
    View.ld_unit_zero (S := S128) zero1, View.ld_unit_zero (S := S10) zero1]
  rw [iblk4_0_eq V c t, iblk4_1_eq V c t, iblk4_2_eq V c t, iblk4_3_eq V c t, iblk4_4_eq V c t, iblk4_5_eq V c t]
  funext j
  show k4_pay1 (F := Ideal) (V c main_v67) (V c main_v66_0) (V c main_arg8) (V c main_arg9) (V c main_arg10) (V c main_arg11) j
    = headArr V c (((cfg4.win 6).blk t).view.emb j)
  have hj : ((cfg4.win 6).blk t).view.emb j = j := by
    funext a; apply Fin.ext
    obtain ⟨-, -, -, -, -, -, -, -, -, -, e0, e1⟩ := index_zero4 t
    match a with
    | ⟨0, _⟩ => show win4_6.index t (0 : Fin 2) * 128 + 1 * (j 0).val = (j 0).val; rw [e0]; omega
    | ⟨1, _⟩ => show win4_6.index t (1 : Fin 2) * 10 + 1 * (j 1).val = (j 1).val; rw [e1]; omega
  rw [hj]
  have ej : j = ix2 (n0 := 128) (n1 := 10) (j 0) (j 1) := eq_ix2 (n0 := 128) (n1 := 10) j
  rw [ej]
  exact k4_pay1_apply (V c main_v67) (V c main_v66_0) (V c main_arg8) (V c main_arg9) (V c main_arg10) (V c main_arg11) (j 0) (j 1)

/-- The output array ends holding the head's array: the one point's block covers it. -/
theorem head_arr (c : Dev nD) : (dat4 (F := Ideal) V c).arrAt 6 cfg4.N = headArr V c :=
  (dat4 (F := Ideal) V c).arrAt_eq_of_cover 6 (headArr V c) (fun t _ => flushed4_6_eq V c t) fun i =>
    ⟨t4_0, flush4_6 t4_0, by
      show i ∈ ((View.whole main_v68).slice (win4_6.rect t4_0)).set
      rw [View.set_slice_whole, Rect.mem_set_unit]
      intro a
      have h0 : (i 0 : Nat) < 128 := (i 0).isLt
      have h1 : (i 1 : Nat) < 10 := (i 1).isLt
      obtain ⟨-, -, -, -, -, -, -, -, -, -, e0, e1⟩ := index_zero4 t4_0
      match a with
      | ⟨0, _⟩ =>
        show win4_6.index t4_0 (0 : Fin 2) * 128 ≤ (i 0 : Nat) ∧ (i 0 : Nat) < win4_6.index t4_0 (0 : Fin 2) * 128 + 128
        rw [e0]; omega
      | ⟨1, _⟩ =>
        show win4_6.index t4_0 (1 : Fin 2) * 10 ≤ (i 1 : Nat) ∧ (i 1 : Nat) < win4_6.index t4_0 (1 : Fin 2) * 10 + 10
        rw [e1]; omega⟩

/-- The output array after the head's region, at graph `g` and class `k`. -/
theorem head_val (c : Dev nD) (g : Fin 128) (k : Fin 10) :
    (dat4 (F := Ideal) V c).arrAt 6 cfg4.N (ix2 g k)
      = Cert.Spec.head (V c main_v66_0) (fun g => V c main_v67 (ix2 g (0 : Fin 1))) (V c main_arg8) (V c main_arg9) (V c main_arg10)
          (V c main_arg11) g k := by
  rw [head_arr V c]
  rfl

end Cert.KernelIdeal.HandVal

end
-- ==== Proof.Bridge.Agg.lean ====
/-
  The message aggregation of one layer as a function of the feature matrix h, the edge weights, and the two rows of the
  edge list: row e of the messages is row src(e) of h (a negative src counted from the end) times weight e, and the rows
  are summed into the row dst(e) of a zero matrix. Stated with the reference program's own operations, so that the
  reference's three aggregates are this function of its three feature matrices by unfolding.
-/
import proofs.«420397_j11227044511906_3_alg».proof.Proof.Gen.ReferenceIdeal.Read

noncomputable section

namespace Cert.Bridge

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The start row of each edge, a negative one counted from the end, as a column. -/
def srcCol (src : (⟨S1600000, .i32⟩ : BufTy).Contents (Elt F)) : (⟨S1600000x1, .i32⟩ : BufTy).Contents (Elt F) :=
  broadcastInDim S1600000x1 ![0] bcast_S1600000_S1600000x1_0
    (select (cmpi .slt src (val_main_v39 (F := F))) (addi src (val_main_v41 (F := F))) src)

/-- The aggregate of the weighted rows of `h`. -/
def aggR (h : (⟨S100000x128, .f32⟩ : BufTy).Contents (Elt F)) (ew : (⟨S1600000, .f32⟩ : BufTy).Contents (Elt F))
    (src dst : (⟨S1600000, .i32⟩ : BufTy).Contents (Elt F)) : (⟨S100000x128, .f32⟩ : BufTy).Contents (Elt F) :=
  Host.scatterAdd scatter_S100000x128_S1600000x1_S1600000x128_1_0_0_1 (val_main_v49 (F := F))
    (broadcastInDim S1600000x1 ![0] bcast_S1600000_S1600000x1_0 dst)
    (mulf (Host.gather gather_S100000x128_S1600000x1_S1600000x128_1_0_n_n_0_1_1128 h (srcCol src)) (val_main_v47 (F := F) ew))

/-- The degree of each node: ones summed at the end row of each edge. -/
def degR (dst : (⟨S1600000, .i32⟩ : BufTy).Contents (Elt F)) : (⟨S100000, .f32⟩ : BufTy).Contents (Elt F) :=
  Host.scatterAdd scatter_S100000_S1600000x1_S1600000_n_0_0_1 (val_main_v18 (F := F))
    (broadcastInDim S1600000x1 ![0] bcast_S1600000_S1600000x1_0 dst) (val_main_v17 (F := F))

end Cert.Bridge

end
-- ==== Proof.Bridge.Chain0.lean ====
/-
  The host operations that the kernel program runs between its kernel regions are the operations the reference runs.
  For arbitrary contents W of the kernel program's buffers before a stretch, each buffer the stretch writes holds the
  reference's own term of W's argument buffers: the two rows of the edge list, the aggregate of the weighted rows and
  the degree (as a column), and the two late reshapes of a vector into a column. The reference's three aggregates and
  three degrees are the same two functions of its three feature matrices and of the end row of each edge.
-/
import proofs.«420397_j11227044511906_3_alg».proof.Proof.Gen.KernelIdeal.Launch
import proofs.«420397_j11227044511906_3_alg».proof.Proof.Bridge.Agg
import Idealize.ShloMosaic.Lib.StableHlo.Run
import Idealize.ShloMosaic.Lib.ValueIdx
import Idealize.ShloMosaic.Lib.Pipeline.Value

set_option maxRecDepth 16384

noncomputable section

namespace Cert.Bridge

open Cert.KernelIdeal Cert.KernelIdeal.Gen
open Idealize.ShloMosaic Idealize.ShloMosaic.TcCoe Idealize.SL.Sem Idealize.ShloMosaic.StableHlo Idealize.ShloMosaic.ValueIdx

/-! ### The first stretch: the edge list's rows, the aggregate and the degree -/

/-- The start row of each edge. -/
theorem chain0_src (W : Valuation Cert.KernelIdeal.τ Cert.KernelIdeal.sig (Elt Ideal)) :
    StableHlo.after Gen.hostOps0 W main_v1 = Cert.ReferenceIdeal.Read.val_main_v1 (F := Ideal) (W main_arg12) := by
  show StableHlo.after Gen.hostOps0 W (Proc.devRef .tc main_v1) = _
  after_results
  rfl

/-- The end row of each edge. -/
theorem chain0_dst (W : Valuation Cert.KernelIdeal.τ Cert.KernelIdeal.sig (Elt Ideal)) :
    StableHlo.after Gen.hostOps0 W main_v3 = Cert.ReferenceIdeal.Read.val_main_v3 (F := Ideal) (W main_arg12) := by
  show StableHlo.after Gen.hostOps0 W (Proc.devRef .tc main_v3) = _
  after_results
  rfl

/-- The aggregate of the weighted rows of the input features. -/
theorem chain0_agg (W : Valuation Cert.KernelIdeal.τ Cert.KernelIdeal.sig (Elt Ideal)) :
    StableHlo.after Gen.hostOps0 W main_v21
      = aggR (F := Ideal) (W main_arg0) (W main_arg1) (Cert.ReferenceIdeal.Read.val_main_v1 (F := Ideal) (W main_arg12))
          (Cert.ReferenceIdeal.Read.val_main_v3 (F := Ideal) (W main_arg12)) := by
  show StableHlo.after Gen.hostOps0 W (Proc.devRef .tc main_v21) = _
  after_results_simp
  rfl

/-- The degree of each node, as a column. -/
theorem chain0_deg (W : Valuation Cert.KernelIdeal.τ Cert.KernelIdeal.sig (Elt Ideal)) (p : Fin 100000) :
    StableHlo.after Gen.hostOps0 W main_v8 (ix2 p (0 : Fin 1))
      = degR (F := Ideal) (Cert.ReferenceIdeal.Read.val_main_v3 (F := Ideal) (W main_arg12)) (ix1 p) := by
  have e : StableHlo.after Gen.hostOps0 W (Proc.devRef .tc main_v8)
      = shapeCast S100000x1 (degR (F := Ideal) (Cert.ReferenceIdeal.Read.val_main_v3 (F := Ideal) (W main_arg12)))
          shapeCasts_S100000_S100000x1 := by
    after_results_simp
    rfl
  refine (congrFun e (ix2 p (0 : Fin 1))).trans ?_
  exact shapeCast_apply _ shapeCasts_S100000_S100000x1 (ix2 p (0 : Fin 1)) (ix1 p) (by
    rw [Shape.rowMajor_val_one, Shape.rowMajor_val_two]
    show p.val = p.val * 1 + 0
    omega)

/-! ### The two late reshapes of a vector into a column -/

/-- The graph id of each node, as a column. -/
theorem chain3_ids (W : Valuation Cert.KernelIdeal.τ Cert.KernelIdeal.sig (Elt Ideal)) (n : Fin 100000) :
    StableHlo.after Gen.hostOps3 W main_v65 (ix2 n (0 : Fin 1)) = W main_arg13 (ix1 n) := by
  have e : StableHlo.after Gen.hostOps3 W (Proc.devRef .tc main_v65)
      = shapeCast S100000x1 (W main_arg13 : (⟨S100000, .i32⟩ : BufTy).Contents (Elt Ideal)) shapeCasts_S100000_S100000x1 := by
    after_results
    rfl
  refine (congrFun e (ix2 n (0 : Fin 1))).trans ?_
  exact shapeCast_apply _ shapeCasts_S100000_S100000x1 (ix2 n (0 : Fin 1)) (ix1 n) (by
    rw [Shape.rowMajor_val_one, Shape.rowMajor_val_two]
    show n.val = n.val * 1 + 0
    omega)

/-- The number of nodes of each graph, as a column. -/
theorem chain4_cnt (W : Valuation Cert.KernelIdeal.τ Cert.KernelIdeal.sig (Elt Ideal)) (g : Fin 128) :
    StableHlo.after Gen.hostOps4 W main_v67 (ix2 g (0 : Fin 1)) = W main_v66_1 (ix1 g) := by
  have e : StableHlo.after Gen.hostOps4 W (Proc.devRef .tc main_v67)
      = shapeCast S128x1 (W main_v66_1 : (⟨S128, .f32⟩ : BufTy).Contents (Elt Ideal)) shapeCasts_S128_S128x1 := by
    after_results
    rfl
  refine (congrFun e (ix2 g (0 : Fin 1))).trans ?_
  exact shapeCast_apply _ shapeCasts_S128_S128x1 (ix2 g (0 : Fin 1)) (ix1 g) (by
    rw [Shape.rowMajor_val_one, Shape.rowMajor_val_two]
    show g.val = g.val * 1 + 0
    omega)

/-! ### The reference's own aggregates and degrees -/

/-- The reference's first aggregate is the aggregate of its input features. -/
theorem ref_agg1 (x0 : (⟨Cert.ReferenceIdeal.S100000x128, .f32⟩ : BufTy).Contents (Elt Ideal)) (x1 : (⟨Cert.ReferenceIdeal.S1600000, .f32⟩ : BufTy).Contents (Elt Ideal))
    (x12 : (⟨Cert.ReferenceIdeal.S2x1600000, .i32⟩ : BufTy).Contents (Elt Ideal)) :
    Cert.ReferenceIdeal.Read.val_main_v16 (F := Ideal) x0 x1 x12
      = aggR (F := Ideal) x0 x1 (Cert.ReferenceIdeal.Read.val_main_v1 (F := Ideal) x12) (Cert.ReferenceIdeal.Read.val_main_v3 (F := Ideal) x12) := rfl

/-- The reference's second aggregate is the aggregate of its first layer's output. -/
theorem ref_agg2 (x0 : (⟨Cert.ReferenceIdeal.S100000x128, .f32⟩ : BufTy).Contents (Elt Ideal)) (x1 : (⟨Cert.ReferenceIdeal.S1600000, .f32⟩ : BufTy).Contents (Elt Ideal))
    (x2 x3 : (⟨Cert.ReferenceIdeal.S128x128, .f32⟩ : BufTy).Contents (Elt Ideal)) (x4 : (⟨Cert.ReferenceIdeal.S128, .f32⟩ : BufTy).Contents (Elt Ideal))
    (x12 : (⟨Cert.ReferenceIdeal.S2x1600000, .i32⟩ : BufTy).Contents (Elt Ideal)) :
    Cert.ReferenceIdeal.Read.val_main_v51 (F := Ideal) x0 x1 x2 x3 x4 x12
      = aggR (F := Ideal) (Cert.ReferenceIdeal.Read.val_main_v32 (F := Ideal) x0 x1 x2 x3 x4 x12) x1
          (Cert.ReferenceIdeal.Read.val_main_v1 (F := Ideal) x12) (Cert.ReferenceIdeal.Read.val_main_v3 (F := Ideal) x12) := rfl

/-- The reference's third aggregate is the aggregate of its second layer's output. -/
theorem ref_agg3 (x0 : (⟨Cert.ReferenceIdeal.S100000x128, .f32⟩ : BufTy).Contents (Elt Ideal)) (x1 : (⟨Cert.ReferenceIdeal.S1600000, .f32⟩ : BufTy).Contents (Elt Ideal))
    (x2 x3 : (⟨Cert.ReferenceIdeal.S128x128, .f32⟩ : BufTy).Contents (Elt Ideal)) (x4 : (⟨Cert.ReferenceIdeal.S128, .f32⟩ : BufTy).Contents (Elt Ideal))
    (x5 x6 : (⟨Cert.ReferenceIdeal.S2x128x128, .f32⟩ : BufTy).Contents (Elt Ideal)) (x7 : (⟨Cert.ReferenceIdeal.S2x128, .f32⟩ : BufTy).Contents (Elt Ideal))
    (x12 : (⟨Cert.ReferenceIdeal.S2x1600000, .i32⟩ : BufTy).Contents (Elt Ideal)) :
    Cert.ReferenceIdeal.Read.val_main_v86 (F := Ideal) x0 x1 x2 x3 x4 x5 x6 x7 x12
      = aggR (F := Ideal) (Cert.ReferenceIdeal.Read.val_main_v67 (F := Ideal) x0 x1 x2 x3 x4 x5 x6 x7 x12) x1
          (Cert.ReferenceIdeal.Read.val_main_v1 (F := Ideal) x12) (Cert.ReferenceIdeal.Read.val_main_v3 (F := Ideal) x12) := rfl

/-- The reference's three degree vectors are the degree of the end rows. -/
theorem ref_deg1 (x12 : (⟨Cert.ReferenceIdeal.S2x1600000, .i32⟩ : BufTy).Contents (Elt Ideal)) :
    Cert.ReferenceIdeal.Read.val_main_v20 (F := Ideal) x12 = degR (F := Ideal) (Cert.ReferenceIdeal.Read.val_main_v3 (F := Ideal) x12) := rfl

theorem ref_deg2 (x12 : (⟨Cert.ReferenceIdeal.S2x1600000, .i32⟩ : BufTy).Contents (Elt Ideal)) :
    Cert.ReferenceIdeal.Read.val_main_v55 (F := Ideal) x12 = degR (F := Ideal) (Cert.ReferenceIdeal.Read.val_main_v3 (F := Ideal) x12) := rfl

theorem ref_deg3 (x12 : (⟨Cert.ReferenceIdeal.S2x1600000, .i32⟩ : BufTy).Contents (Elt Ideal)) :
    Cert.ReferenceIdeal.Read.val_main_v90 (F := Ideal) x12 = degR (F := Ideal) (Cert.ReferenceIdeal.Read.val_main_v3 (F := Ideal) x12) := rfl

end Cert.Bridge

end
-- ==== Proof.Bridge.Chain12.lean ====
/-
  The host operations the kernel program runs between its kernel regions are the operations the reference runs:
  before the second and the third dense layer, the slices of the stacked weights and the aggregation of the previous
  layer's output rows (gathered at the start row of each edge, weighted, and summed at the end row of each edge). At the
  ideal values a change of float format is the identity, so the gather of the narrower array widened afterwards is the
  gather of the same array of extended reals.
-/
import proofs.«420397_j11227044511906_3_alg».proof.Proof.Gen.KernelIdeal.Launch
import proofs.«420397_j11227044511906_3_alg».proof.Proof.Bridge.Agg
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.SL.Sem Idealize.ShloMosaic.StableHlo

/-- Before the second layer: the aggregate of the first layer's output rows. -/
theorem chain1_agg (W : Valuation τ sig (Elt Ideal)) :
    StableHlo.after (Gen.hostOps1 (F := Ideal)) W main_v42
      = aggR (F := Ideal) (W main_v22) (W main_arg1) (W main_v1) (W main_v3) := by
  show StableHlo.after hostOps1 W (Proc.devRef .tc main_v42) = _
  after_results_simp
  rfl

/-- Before the second layer: the left weight matrix is the first slice of the stacked left weights. -/
theorem chain1_wl (W : Valuation τ sig (Elt Ideal)) :
    StableHlo.after (Gen.hostOps1 (F := Ideal)) W main_v24
      = Cert.ReferenceIdeal.Read.val_main_v34 (F := Ideal) (W main_arg5) := by
  show StableHlo.after hostOps1 W (Proc.devRef .tc main_v24) = _
  after_results_simp
  rfl

/-- Before the second layer: the right weight matrix is the first slice of the stacked right weights. -/
theorem chain1_wr (W : Valuation τ sig (Elt Ideal)) :
    StableHlo.after (Gen.hostOps1 (F := Ideal)) W main_v26
      = Cert.ReferenceIdeal.Read.val_main_v36 (F := Ideal) (W main_arg6) := by
  show StableHlo.after hostOps1 W (Proc.devRef .tc main_v26) = _
  after_results_simp
  rfl

/-- Before the second layer: the bias is the first row of the stacked biases. -/
theorem chain1_b (W : Valuation τ sig (Elt Ideal)) :
    StableHlo.after (Gen.hostOps1 (F := Ideal)) W main_v28
      = Cert.ReferenceIdeal.Read.val_main_v38 (F := Ideal) (W main_arg7) := by
  show StableHlo.after hostOps1 W (Proc.devRef .tc main_v28) = _
  after_results_simp
  rfl

/-- Before the third layer: the aggregate of the second layer's output rows. -/
theorem chain2_agg (W : Valuation τ sig (Elt Ideal)) :
    StableHlo.after (Gen.hostOps2 (F := Ideal)) W main_v63
      = aggR (F := Ideal) (W main_v43) (W main_arg1) (W main_v1) (W main_v3) := by
  show StableHlo.after hostOps2 W (Proc.devRef .tc main_v63) = _
  after_results_simp
  rfl

/-- Before the third layer: the left weight matrix is the second slice of the stacked left weights. -/
theorem chain2_wl (W : Valuation τ sig (Elt Ideal)) :
    StableHlo.after (Gen.hostOps2 (F := Ideal)) W main_v45
      = Cert.ReferenceIdeal.Read.val_main_v69 (F := Ideal) (W main_arg5) := by
  show StableHlo.after hostOps2 W (Proc.devRef .tc main_v45) = _
  after_results_simp
  rfl

/-- Before the third layer: the right weight matrix is the second slice of the stacked right weights. -/
theorem chain2_wr (W : Valuation τ sig (Elt Ideal)) :
    StableHlo.after (Gen.hostOps2 (F := Ideal)) W main_v47
      = Cert.ReferenceIdeal.Read.val_main_v71 (F := Ideal) (W main_arg6) := by
  show StableHlo.after hostOps2 W (Proc.devRef .tc main_v47) = _
  after_results_simp
  rfl

/-- Before the third layer: the bias is the second row of the stacked biases. -/
theorem chain2_b (W : Valuation τ sig (Elt Ideal)) :
    StableHlo.after (Gen.hostOps2 (F := Ideal)) W main_v49
      = Cert.ReferenceIdeal.Read.val_main_v73 (F := Ideal) (W main_arg7) := by
  show StableHlo.after hostOps2 W (Proc.devRef .tc main_v49) = _
  after_results_simp
  rfl

end Cert.Bridge

end
-- ==== Proof.Ref.Layer.lean ====
/-
  The reference's three neighbourhood-mean layers, read one entry at a time.

  Each layer of the reference divides the aggregated messages by the broadcast of max(degree, 1), contracts the
  quotient with the left weight matrix and the layer's input with the right weight matrix, adds the two products and
  the broadcast bias, and clips below at zero. Read at row p and column q this is the specification's `layer` of the
  reference's own earlier stages: the broadcasts read the degree at p and the bias at q, each contraction is the sum
  over the shared axis, the constant 1.0 is the extended real one and the constant 0.0 is zero.
-/
import proofs.«420397_j11227044511906_3_alg».proof.Proof.Gen.ReferenceIdeal.Read
import proofs.«420397_j11227044511906_3_alg».proof.Proof.Spec
import Idealize.ShloMosaic.PureOps.Ideal.Laws
import Idealize.ShloMosaic.Lib.ValueIdx
import Idealize.ShloMosaic.Lib.IdealHost

set_option maxRecDepth 16384

noncomputable section

namespace Cert.RefSide

open Cert.ReferenceIdeal Cert.ReferenceIdeal.Read Idealize.ShloMosaic Idealize.ShloMosaic.ValueIdx

/-! ### Where the layout operations read -/

/-- The left operand of a row-by-column contraction is read at (row, k). -/
theorem lidx_row (p : Fin 100000) (q k : Fin 128) : lidx_main_v26 (ix2 p q) k = ix2 p k := by
  funext a
  match a with
  | ⟨0, _⟩ => rfl
  | ⟨1, _⟩ => rfl

/-- The right operand of a row-by-column contraction is read at (k, column). -/
theorem ridx_col (p : Fin 100000) (q k : Fin 128) : ridx_main_v26 (ix2 p q) k = ix2 k q := by
  funext a
  match a with
  | ⟨0, _⟩ => rfl
  | ⟨1, _⟩ => rfl

/-- The degree, broadcast along the row and then across the columns, is read at the row. -/
theorem deg_idx (p : Fin 100000) (k : Fin 128) : idx_main_v23 (idx_main_v24 (ix2 p k)) = ix1 p := by
  funext a
  match a with
  | ⟨0, _⟩ => rfl

/-- The bias, broadcast to one row and then down the rows, is read at the column. -/
theorem bias_idx (p : Fin 100000) (q : Fin 128) : idx_main_v29 (idx_main_v30 (ix2 p q)) = ix1 q := by
  funext a
  match a with
  | ⟨0, _⟩ => rfl

/-- The constant 1.0 is the extended real one. -/
theorem one_f32 : FloatOps.ofBits (F := Ideal) .f32 0x3F800000#32 = (1 : EReal) := Ideal.ofBits_one_f32

/-- The constant 0.0 is zero. -/
theorem zero_f32 : FloatOps.ofBits (F := Ideal) .f32 0x00000000#32 = (0 : EReal) := Ideal.ofBits_zero_f32

/-! ### Layer 1 -/

theorem layer1 (x0 : (⟨S100000x128, .f32⟩ : BufTy).Contents (Elt Ideal)) (x1 : (⟨S1600000, .f32⟩ : BufTy).Contents (Elt Ideal))
    (x2 x3 : (⟨S128x128, .f32⟩ : BufTy).Contents (Elt Ideal)) (x4 : (⟨S128, .f32⟩ : BufTy).Contents (Elt Ideal))
    (x12 : (⟨S2x1600000, .i32⟩ : BufTy).Contents (Elt Ideal)) (p : Fin 100000) (q : Fin 128) :
    val_main_v32 (F := Ideal) x0 x1 x2 x3 x4 x12 (ix2 p q)
      = Cert.Spec.layer (val_main_v16 (F := Ideal) x0 x1 x12) x0 (fun p => val_main_v20 (F := Ideal) x12 (ix1 p)) x2 x3 x4 p q := by
  rw [val_main_v32_apply, val_main_v31_apply, val_main_v28_apply, val_main_v26_apply, val_main_v27_apply,
    val_main_v30_apply, val_main_v29_apply, val_main_call0_v0_apply, val_main_call0_cst_apply]
  have e26 : ∀ k : Fin 128,
      val_main_v25 (F := Ideal) x0 x1 x12 (lidx_main_v26 (ix2 p q) k) * x2 (ridx_main_v26 (ix2 p q) k)
        = Ideal.div (val_main_v16 (F := Ideal) x0 x1 x12 (ix2 p k)) (max (val_main_v20 (F := Ideal) x12 (ix1 p)) 1) * x2 (ix2 k q) := by
    intro k
    rw [show lidx_main_v26 (ix2 p q) k = ix2 p k from lidx_row p q k,
      show ridx_main_v26 (ix2 p q) k = ix2 k q from ridx_col p q k,
      val_main_v25_apply, val_main_v24_apply, val_main_v23_apply, val_main_v22_apply, val_main_v21_apply,
      val_main_cst_3_apply, Ideal.hostDivf_def, Ideal.maximumf_def, one_f32]
    rw [deg_idx]
  have e27 : ∀ k : Fin 128, x0 (lidx_main_v27 (ix2 p q) k) * x3 (ridx_main_v27 (ix2 p q) k) = x0 (ix2 p k) * x3 (ix2 k q) := by
    intro k
    rw [show lidx_main_v27 (ix2 p q) k = ix2 p k from lidx_row p q k,
      show ridx_main_v27 (ix2 p q) k = ix2 k q from ridx_col p q k]
  rw [Finset.sum_congr rfl (fun k _ => e26 k), Finset.sum_congr rfl (fun k _ => e27 k), bias_idx,
    Ideal.maximumf_def, Ideal.addf_def, Ideal.addf_def, zero_f32]
  rfl

/-! ### Layer 2 -/

theorem layer2 (x0 : (⟨S100000x128, .f32⟩ : BufTy).Contents (Elt Ideal)) (x1 : (⟨S1600000, .f32⟩ : BufTy).Contents (Elt Ideal))
    (x2 x3 : (⟨S128x128, .f32⟩ : BufTy).Contents (Elt Ideal)) (x4 : (⟨S128, .f32⟩ : BufTy).Contents (Elt Ideal))
    (x5 x6 : (⟨S2x128x128, .f32⟩ : BufTy).Contents (Elt Ideal)) (x7 : (⟨S2x128, .f32⟩ : BufTy).Contents (Elt Ideal))
    (x12 : (⟨S2x1600000, .i32⟩ : BufTy).Contents (Elt Ideal)) (p : Fin 100000) (q : Fin 128) :
    val_main_v67 (F := Ideal) x0 x1 x2 x3 x4 x5 x6 x7 x12 (ix2 p q)
      = Cert.Spec.layer (val_main_v51 (F := Ideal) x0 x1 x2 x3 x4 x12) (val_main_v32 (F := Ideal) x0 x1 x2 x3 x4 x12)
          (fun p => val_main_v55 (F := Ideal) x12 (ix1 p))
          (val_main_v34 (F := Ideal) x5) (val_main_v36 (F := Ideal) x6) (val_main_v38 (F := Ideal) x7) p q := by
  rw [val_main_v67_apply, val_main_v66_apply, val_main_v63_apply, val_main_v61_apply, val_main_v62_apply,
    val_main_v65_apply, val_main_v64_apply, val_main_call1_v0_apply, val_main_call1_cst_apply]
  have eL : ∀ k : Fin 128,
      val_main_v60 (F := Ideal) x0 x1 x2 x3 x4 x12 (lidx_main_v61 (ix2 p q) k) * val_main_v34 (F := Ideal) x5 (ridx_main_v61 (ix2 p q) k)
        = Ideal.div (val_main_v51 (F := Ideal) x0 x1 x2 x3 x4 x12 (ix2 p k)) (max (val_main_v55 (F := Ideal) x12 (ix1 p)) 1)
            * val_main_v34 (F := Ideal) x5 (ix2 k q) := by
    intro k
    rw [show lidx_main_v61 (ix2 p q) k = ix2 p k from lidx_row p q k,
      show ridx_main_v61 (ix2 p q) k = ix2 k q from ridx_col p q k,
      val_main_v60_apply, val_main_v59_apply, val_main_v58_apply, val_main_v57_apply, val_main_v56_apply,
      val_main_cst_9_apply, Ideal.hostDivf_def, Ideal.maximumf_def, one_f32,
      show idx_main_v58 (idx_main_v59 (ix2 p k)) = ix1 p from deg_idx p k]
  have eR : ∀ k : Fin 128,
      val_main_v32 (F := Ideal) x0 x1 x2 x3 x4 x12 (lidx_main_v62 (ix2 p q) k) * val_main_v36 (F := Ideal) x6 (ridx_main_v62 (ix2 p q) k)
        = val_main_v32 (F := Ideal) x0 x1 x2 x3 x4 x12 (ix2 p k) * val_main_v36 (F := Ideal) x6 (ix2 k q) := by
    intro k
    rw [show lidx_main_v62 (ix2 p q) k = ix2 p k from lidx_row p q k,
      show ridx_main_v62 (ix2 p q) k = ix2 k q from ridx_col p q k]
  rw [Finset.sum_congr rfl (fun k _ => eL k), Finset.sum_congr rfl (fun k _ => eR k),
    show idx_main_v64 (idx_main_v65 (ix2 p q)) = ix1 q from bias_idx p q,
    Ideal.maximumf_def, Ideal.addf_def, Ideal.addf_def, zero_f32]
  rfl

/-! ### Layer 3 -/

theorem layer3 (x0 : (⟨S100000x128, .f32⟩ : BufTy).Contents (Elt Ideal)) (x1 : (⟨S1600000, .f32⟩ : BufTy).Contents (Elt Ideal))
    (x2 x3 : (⟨S128x128, .f32⟩ : BufTy).Contents (Elt Ideal)) (x4 : (⟨S128, .f32⟩ : BufTy).Contents (Elt Ideal))
    (x5 x6 : (⟨S2x128x128, .f32⟩ : BufTy).Contents (Elt Ideal)) (x7 : (⟨S2x128, .f32⟩ : BufTy).Contents (Elt Ideal))
    (x12 : (⟨S2x1600000, .i32⟩ : BufTy).Contents (Elt Ideal)) (p : Fin 100000) (q : Fin 128) :
    val_main_v102 (F := Ideal) x0 x1 x2 x3 x4 x5 x6 x7 x12 (ix2 p q)
      = Cert.Spec.layer (val_main_v86 (F := Ideal) x0 x1 x2 x3 x4 x5 x6 x7 x12) (val_main_v67 (F := Ideal) x0 x1 x2 x3 x4 x5 x6 x7 x12)
          (fun p => val_main_v90 (F := Ideal) x12 (ix1 p))
          (val_main_v69 (F := Ideal) x5) (val_main_v71 (F := Ideal) x6) (val_main_v73 (F := Ideal) x7) p q := by
  rw [val_main_v102_apply, val_main_v101_apply, val_main_v98_apply, val_main_v96_apply, val_main_v97_apply,
    val_main_v100_apply, val_main_v99_apply, val_main_call2_v0_apply, val_main_call2_cst_apply]
  have eL : ∀ k : Fin 128,
      val_main_v95 (F := Ideal) x0 x1 x2 x3 x4 x5 x6 x7 x12 (lidx_main_v96 (ix2 p q) k) * val_main_v69 (F := Ideal) x5 (ridx_main_v96 (ix2 p q) k)
        = Ideal.div (val_main_v86 (F := Ideal) x0 x1 x2 x3 x4 x5 x6 x7 x12 (ix2 p k)) (max (val_main_v90 (F := Ideal) x12 (ix1 p)) 1)
            * val_main_v69 (F := Ideal) x5 (ix2 k q) := by
    intro k
    rw [show lidx_main_v96 (ix2 p q) k = ix2 p k from lidx_row p q k,
      show ridx_main_v96 (ix2 p q) k = ix2 k q from ridx_col p q k,
      val_main_v95_apply, val_main_v94_apply, val_main_v93_apply, val_main_v92_apply, val_main_v91_apply,
      val_main_cst_15_apply, Ideal.hostDivf_def, Ideal.maximumf_def, one_f32,
      show idx_main_v93 (idx_main_v94 (ix2 p k)) = ix1 p from deg_idx p k]
  have eR : ∀ k : Fin 128,
      val_main_v67 (F := Ideal) x0 x1 x2 x3 x4 x5 x6 x7 x12 (lidx_main_v97 (ix2 p q) k) * val_main_v71 (F := Ideal) x6 (ridx_main_v97 (ix2 p q) k)
        = val_main_v67 (F := Ideal) x0 x1 x2 x3 x4 x5 x6 x7 x12 (ix2 p k) * val_main_v71 (F := Ideal) x6 (ix2 k q) := by
    intro k
    rw [show lidx_main_v97 (ix2 p q) k = ix2 p k from lidx_row p q k,
      show ridx_main_v97 (ix2 p q) k = ix2 k q from ridx_col p q k]
  rw [Finset.sum_congr rfl (fun k _ => eL k), Finset.sum_congr rfl (fun k _ => eR k),
    show idx_main_v99 (idx_main_v100 (ix2 p q)) = ix1 q from bias_idx p q,
    Ideal.maximumf_def, Ideal.addf_def, Ideal.addf_def, zero_f32]
  rfl

end Cert.RefSide

end
-- ==== Proof.LibGatherScatter.lean ====
/-
  Reading a gather and an accumulating scatter over the FIRST axis at one element.

  * `gather_rows`: rows of an [N × D] matrix taken at an [n × 1] column of start positions; result element (p, q) is the
    matrix at (the start position of p, read signed and clamped into [0, N - 1]; q).
  * `scatterAdd_vec`: updates of length n accumulated into a vector of length N at an [n × 1] column of start positions;
    element c is its old value plus the sum of the updates whose start position, read signed, equals c. A start position
    outside [0, N - 1] equals no c, so its update is dropped.
  * `scatterAdd_rows`: the same for [n × D] row updates accumulated into an [N × D] matrix; element (c, j) gathers the
    updates (e, j) over the rows e whose start position is c.

  All three are generic in the sizes and in the dimension-number record; the record's fields enter as hypotheses.
-/
import Idealize.ShloMosaic.PureOps.Ideal
import Idealize.ShloMosaic.Lib.ValueIdx

namespace Cert.LibGatherScatter

open Idealize.ShloMosaic Idealize.ShloMosaic.ValueIdx

/-- Equal lists read at equal positions give equal entries. -/
theorem getElem_congr' {α : Type} {l l' : List α} (hl : l = l') {k k' : Nat} (hk : k = k') (h : k < l.length) :
    l[k]'h = l'[k']'(by subst hl; subst hk; exact h) := by subst hl; subst hk; rfl

/-! ## The gather of rows -/

/-- rows of a matrix taken at a column of start indices: result (p, q) is the operand at (start index of p, read signed and clamped into [0, N-1]; q). -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (p : Fin n) (q : Fin D) (hN : 0 < N) :
    Host.gather d x idx (ix2 p q) = x (ix2 ⟨min (idx (ix2 p (0 : Fin 1))).toInt.toNat (N - 1), by omega⟩ q) := by
  unfold Host.gather
  congr 1
  have hsk : d.sKept = [1] := by
    show Shape.kept _ (d.collapsedSliceDims ++ d.operandBatchingDims) = [1]
    rw [hcoll, hob]; rfl
  have hbd : d.batchDims = [0] := by
    show Shape.kept _ d.offsetDims = [0]
    rw [hoff]; rfl
  have hsik : d.siKept = [0] := by
    show (List.finRange _).filter (·.val ≠ d.indexVectorDim) = [0]
    rw [hivd]; rfl
  have h0 : (d.operandIdx (ix2 p q) idx (0 : Fin 2)).val = min (idx (ix2 p (0 : Fin 1))).toInt.toNat (N - 1) := by
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X = 0 → ((ix2 p q : (⟨2, ![n, D]⟩ : Shape).Idx) X).val = p.val := fun X hX => by
        subst hX; rfl
      apply e
      rw [getElem_congr' hbd (show List.idxOf _ d.siKept = 0 by rw [hsik]; rfl)]
      rfl
    | ⟨1, _⟩ =>
      unfold GatherDims.siIdx
      rw [dif_pos (by rw [hivd])]
      apply Fin.ext
      show List.idxOf (0 : Fin 2) d.startIndexMap = 0
      rw [hsim]; simp
  have h1 : (d.operandIdx (ix2 p q) idx (1 : Fin 2)).val = q.val := by
    have hb : (1 : Fin 2) ∉ d.operandBatchingDims := by rw [hob]; exact List.not_mem_nil
    have hk : (1 : Fin 2) ∈ d.sKept := by rw [hsk]; simp
    have hm : (1 : Fin 2) ∉ d.startIndexMap := by rw [hsim]; simp
    simp only [GatherDims.operandIdx, GatherDims.batchCoord_eq_zero _ _ _ hb,
      Nat.add_zero, GatherDims.start, dif_neg hm, GatherDims.offCoord, dif_pos hk, Nat.zero_add]
    have e : ∀ X : Fin 2, X = 1 → ((ix2 p q : (⟨2, ![n, D]⟩ : Shape).Idx) X).val = q.val := fun X hX => by
      subst hX; rfl
    apply e
    rw [getElem_congr' hoff (show List.idxOf _ d.sKept = 0 by rw [hsk]; rfl)]
    rfl
  funext a
  apply Fin.ext
  match a with
  | ⟨0, _⟩ => exact h0
  | ⟨1, _⟩ => exact h1

/-! ## The accumulating scatters -/

/-- An update lands on operand element i exactly when, on every axis, start plus window coordinate is i's coordinate. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hf := congrFun (Option.some.inj heq) a
      have hv := congrArg Fin.val hf
      simp only at hv
      have := (h a).1
      omega
    · intro hall
      congr 1
      funext a
      apply Fin.ext
      show (d.start j idx a + (d.window j a : ℤ)).toNat = (i a).val
      rw [hall a]; exact Int.toNat_natCast _
  · rename_i h
    constructor
    · intro heq; cases heq
    · intro hall
      exfalso; apply h
      intro a
      rw [hall a]
      exact ⟨Int.natCast_nonneg _, by exact_mod_cast (i a).isLt⟩

/-- Updates of a vector indexed by one column of start positions: update e lands on element c exactly when its start position, read signed, is c. -/
theorem resultIdx?_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (idx : IVec ⟨2, ![n, 1]⟩ w) (e : Fin n) (c : Fin N) :
    d.resultIdx? (ix1 e) idx = some (ix1 c) ↔ (idx (ix2 e (0 : Fin 1))).toInt = (c.val : ℤ) := by
  rw [resultIdx?_eq_some_iff]
  have hsk : d.sKept = [] := by show Shape.kept _ d.insertedWindowDims = []; rw [hins]; rfl
  have hm : (0 : Fin 1) ∈ d.scatterDimsToOperandDims := by rw [hsd]; exact List.mem_singleton.mpr rfl
  have hk : (0 : Fin 1) ∉ d.sKept := by rw [hsk]; exact List.not_mem_nil
  have hst : d.start (ix1 e) idx (0 : Fin 1) = (idx (ix2 e (0 : Fin 1))).toInt := by
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 1, ((ix1 e : (⟨1, ![n]⟩ : Shape).Idx) X).val = e.val := fun X => by
        have hX : X = 0 := Subsingleton.elim _ _
        subst hX; rfl
      exact ee _
    | ⟨1, _⟩ =>
      unfold ScatterDims.siIdx
      rw [dif_pos (by rw [hivd])]
      apply Fin.ext
      show List.idxOf (0 : Fin 1) d.scatterDimsToOperandDims = 0
      rw [hsd]; simp
  have hw : d.window (ix1 e) (0 : Fin 1) = 0 := by
    unfold ScatterDims.window; rw [dif_neg hk]
  constructor
  · intro h
    have h0 : d.start (ix1 e) idx 0 + (d.window (ix1 e) 0 : ℤ) = (c.val : ℤ) := h 0
    rw [hst, hw] at h0
    simpa using h0
  · intro h a
    have ha : a = 0 := Subsingleton.elim _ _
    subst ha
    show d.start (ix1 e) idx 0 + (d.window (ix1 e) 0 : ℤ) = (c.val : ℤ)
    rw [hst, hw, h]
    simp

/-- the accumulating scatter into a vector: element c is what was there plus the sum of the updates whose start index, read signed, is c. -/
theorem scatterAdd_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (x : FVec Ideal ⟨1, ![N]⟩ .f32) (idx : IVec ⟨2, ![n, 1]⟩ w) (u : FVec Ideal ⟨1, ![n]⟩ .f32) (c : Fin N) :
    Host.scatterAdd d x idx u (ix1 c)
      = x (ix1 c) + ∑ e ∈ Finset.univ.filter (fun e : Fin n => (idx (ix2 e (0 : Fin 1))).toInt = (c.val : ℤ)), u (ix1 e) := by
  show Ideal.hostScatterAdd d x idx u (ix1 c) = _
  unfold Ideal.hostScatterAdd
  congr 1
  refine Finset.sum_bij' (fun jj _ => (jj 0 : Fin n)) (fun e _ => ix1 e) ?_ ?_ ?_ ?_ ?_
  · intro jj hjj
    have h2 := (Finset.mem_filter.1 hjj).2
    rw [eq_ix1 jj] at h2
    exact Finset.mem_filter.2 ⟨Finset.mem_univ _, (resultIdx?_vec d huw hins hsd hivd idx _ c).1 h2⟩
  · intro e he
    exact Finset.mem_filter.2 ⟨Finset.mem_univ _, (resultIdx?_vec d huw hins hsd hivd idx e c).2 (Finset.mem_filter.1 he).2⟩
  · intro jj _; exact (eq_ix1 jj).symm
  · intro e _; rfl
  · intro jj _; exact congrArg u (eq_ix1 jj)

/-- Row updates of a matrix indexed by one column of start rows: update element (e, j') lands on element (c, j) exactly when row e's start, read signed, is c and the columns agree. -/
theorem resultIdx?_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (idx : IVec ⟨2, ![n, 1]⟩ w) (e : Fin n) (j' : Fin D) (c : Fin N) (j : Fin D) :
    d.resultIdx? (ix2 e j') idx = some (ix2 c j) ↔ (idx (ix2 e (0 : Fin 1))).toInt = (c.val : ℤ) ∧ j' = j := by
  rw [resultIdx?_eq_some_iff]
  have hsk : d.sKept = [1] := by show Shape.kept _ d.insertedWindowDims = [1]; rw [hins]; rfl
  have hus : d.uScatter = [0] := by show Shape.kept _ d.updateWindowDims = [0]; rw [huw]; rfl
  have hsik : d.siKept = [0] := by show (List.finRange _).filter (·.val ≠ d.indexVectorDim) = [0]; rw [hivd]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  have hst0 : d.start (ix2 e j') idx (0 : Fin 2) = (idx (ix2 e (0 : Fin 1))).toInt := by
    unfold ScatterDims.start
    rw [dif_pos hm0]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 2, X = 0 → ((ix2 e j' : (⟨2, ![n, D]⟩ : Shape).Idx) X).val = e.val := fun X hX => by
        subst hX; rfl
      apply ee
      rw [getElem_congr' hus (show List.idxOf _ d.siKept = 0 by rw [hsik]; rfl)]
      rfl
    | ⟨1, _⟩ =>
      unfold ScatterDims.siIdx
      rw [dif_pos (by rw [hivd])]
      apply Fin.ext
      show List.idxOf (0 : Fin 2) d.scatterDimsToOperandDims = 0
      rw [hsd]; simp
  have hst1 : d.start (ix2 e j') idx (1 : Fin 2) = 0 := by
    unfold ScatterDims.start; rw [dif_neg hm1]
  have hw0 : d.window (ix2 e j') (0 : Fin 2) = 0 := by
    unfold ScatterDims.window; rw [dif_neg hk0]
  have hw1 : d.window (ix2 e j') (1 : Fin 2) = j'.val := by
    unfold ScatterDims.window; rw [dif_pos hk1]
    have ee : ∀ X : Fin 2, X = 1 → ((ix2 e j' : (⟨2, ![n, D]⟩ : Shape).Idx) X).val = j'.val := fun X hX => by
      subst hX; rfl
    apply ee
    rw [getElem_congr' huw (show List.idxOf _ d.sKept = 0 by rw [hsk]; rfl)]
    rfl
  constructor
  · intro h
    have h0 : d.start (ix2 e j') idx 0 + (d.window (ix2 e j') 0 : ℤ) = (c.val : ℤ) := h 0
    have h1 : d.start (ix2 e j') idx 1 + (d.window (ix2 e j') 1 : ℤ) = (j.val : ℤ) := h 1
    rw [hst0, hw0] at h0
    rw [hst1, hw1] at h1
    exact ⟨by simpa using h0, Fin.ext (by omega)⟩
  · rintro ⟨h, rfl⟩ a
    match a with
    | ⟨0, _⟩ =>
      show d.start (ix2 e j') idx 0 + (d.window (ix2 e j') 0 : ℤ) = (c.val : ℤ)
      rw [hst0, hw0, h]; simp
    | ⟨1, _⟩ =>
      show d.start (ix2 e j') idx 1 + (d.window (ix2 e j') 1 : ℤ) = (j'.val : ℤ)
      rw [hst1, hw1]; simp

/-- the accumulating scatter of rows into a matrix: element (c, j) is what was there plus the sum over the rows e whose start index, read signed, is c of the update at (e, j). -/
theorem scatterAdd_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (x : FVec Ideal ⟨2, ![N, D]⟩ .f32) (idx : IVec ⟨2, ![n, 1]⟩ w) (u : FVec Ideal ⟨2, ![n, D]⟩ .f32) (c : Fin N) (j : Fin D) :
    Host.scatterAdd d x idx u (ix2 c j)
      = x (ix2 c j) + ∑ e ∈ Finset.univ.filter (fun e : Fin n => (idx (ix2 e (0 : Fin 1))).toInt = (c.val : ℤ)), u (ix2 e j) := by
  show Ideal.hostScatterAdd d x idx u (ix2 c j) = _
  unfold Ideal.hostScatterAdd
  congr 1
  have key : ∀ jj : (⟨2, ![n, D]⟩ : Shape).Idx, d.resultIdx? jj idx = some (ix2 c j) →
      (idx (ix2 (jj 0 : Fin n) (0 : Fin 1))).toInt = (c.val : ℤ) ∧ (jj 1 : Fin D) = j := fun jj h => by
    rw [eq_ix2 jj] at h
    exact (resultIdx?_rows d huw hins hsd hivd idx _ _ c j).1 h
  refine Finset.sum_bij' (fun jj _ => (jj 0 : Fin n)) (fun e _ => ix2 e j) ?_ ?_ ?_ ?_ ?_
  · intro jj hjj
    exact Finset.mem_filter.2 ⟨Finset.mem_univ _, (key jj (Finset.mem_filter.1 hjj).2).1⟩
  · intro e he
    exact Finset.mem_filter.2 ⟨Finset.mem_univ _,
      (resultIdx?_rows d huw hins hsd hivd idx e j c j).2 ⟨(Finset.mem_filter.1 he).2, rfl⟩⟩
  · intro jj hjj
    have h2 := (key jj (Finset.mem_filter.1 hjj).2).2
    rw [eq_ix2 jj]
    exact congrArg (fun t => ix2 (jj 0 : Fin n) t) h2.symm
  · intro e _; rfl
  · intro jj hjj
    have h2 := (key jj (Finset.mem_filter.1 hjj).2).2
    show u jj = u (ix2 (jj 0 : Fin n) j)
    rw [← h2]
    exact congrArg u (eq_ix2 jj)

end Cert.LibGatherScatter
-- ==== Proof.Ref.Head.lean ====
/-
  The reference's pooling and head, read element by element.

  * The two accumulating scatters over the graph ids are, per graph g, the sum of the feature rows (and the count) of the
    nodes whose id, read as a signed word, is g: the scatter starts from zero and adds a node's row to the graph its id
    names, so the value at g is the sum over the nodes whose id is g; written as a sum over all nodes it has the row
    where the id is g and zero elsewhere.
  * The head divides each graph's row sum by max(count, 1), applies two affine layers (the first clipped below at
    zero) and the row-wise logarithm of the soft maximum. The running maximum over the ten classes starts from minus
    infinity, the least extended real, so it is the supremum of the ten scores.
-/
import proofs.«420397_j11227044511906_3_alg».proof.Proof.Gen.ReferenceIdeal.Read
import proofs.«420397_j11227044511906_3_alg».proof.Proof.Spec
import proofs.«420397_j11227044511906_3_alg».proof.Proof.LibGatherScatter
import Idealize.ShloMosaic.PureOps.Ideal.Laws
import Idealize.ShloMosaic.Lib.ValueIdx
import Idealize.ShloMosaic.Lib.IdealHost

set_option maxRecDepth 16384

noncomputable section

namespace Cert.RefSide

open Cert.ReferenceIdeal Cert.ReferenceIdeal.Read Idealize.ShloMosaic Idealize.ShloMosaic.ValueIdx
open Idealize.ShloMosaic.StableHlo

/-- The graph-id column read at row e is node e's id. -/
theorem ids104 (x13 : (⟨S100000, .i32⟩ : BufTy).Contents (Elt Ideal)) (e : Fin 100000) :
    val_main_v104 (F := Ideal) x13 (ix2 e (0 : Fin 1)) = x13 (ix1 e) := by
  rw [val_main_v104_apply]
  exact congrArg x13 (funext fun a => by match a with | ⟨0, _⟩ => rfl)

theorem ids108 (x13 : (⟨S100000, .i32⟩ : BufTy).Contents (Elt Ideal)) (e : Fin 100000) :
    val_main_v108 (F := Ideal) x13 (ix2 e (0 : Fin 1)) = x13 (ix1 e) := by
  rw [val_main_v108_apply]
  exact congrArg x13 (funext fun a => by match a with | ⟨0, _⟩ => rfl)

/-- The node count of graph g: the scatter of ones into zeros over the graph ids. -/
theorem pool_cnt (x13 : (⟨S100000, .i32⟩ : BufTy).Contents (Elt Ideal)) (g : Fin 128) :
    val_main_v109 (F := Ideal) x13 (ix1 g) = Cert.Spec.poolCnt (fun n => x13 (ix1 n)) g := by
  unfold val_main_v109
  rw [Cert.LibGatherScatter.scatterAdd_vec scatter_S128_S100000x1_S100000_n_0_0_1 rfl rfl rfl rfl]
  rw [val_main_v107_apply, val_main_cst_18_apply, Ideal.ofBits_def, Ideal.ofBits_zero_f32, zero_add]
  unfold Cert.Spec.poolCnt
  rw [Finset.sum_filter]
  refine Finset.sum_congr rfl fun e _ => ?_
  rw [ids108, val_main_v106_apply, val_main_cst_17_apply, Ideal.ofBits_def, Ideal.ofBits_one_f32]

/-- The row sum of graph g at feature d: the scatter of the node rows into zeros over the graph ids. -/
theorem pool_sum (x0 : (⟨S100000x128, .f32⟩ : BufTy).Contents (Elt Ideal)) (x1 : (⟨S1600000, .f32⟩ : BufTy).Contents (Elt Ideal)) (x2 x3 : (⟨S128x128, .f32⟩ : BufTy).Contents (Elt Ideal)) (x4 : (⟨S128, .f32⟩ : BufTy).Contents (Elt Ideal)) (x5 x6 : (⟨S2x128x128, .f32⟩ : BufTy).Contents (Elt Ideal)) (x7 : (⟨S2x128, .f32⟩ : BufTy).Contents (Elt Ideal)) (x12 : (⟨S2x1600000, .i32⟩ : BufTy).Contents (Elt Ideal)) (x13 : (⟨S100000, .i32⟩ : BufTy).Contents (Elt Ideal)) (g d : Fin 128) :
    val_main_v105 (F := Ideal) x0 x1 x2 x3 x4 x5 x6 x7 x12 x13 (ix2 g d)
      = Cert.Spec.poolSum (val_main_v102 (F := Ideal) x0 x1 x2 x3 x4 x5 x6 x7 x12) (fun n => x13 (ix1 n)) g d := by
  unfold val_main_v105
  rw [Cert.LibGatherScatter.scatterAdd_rows scatter_S128x128_S100000x1_S100000x128_1_0_0_1 rfl rfl rfl rfl]
  rw [val_main_v103_apply, val_main_cst_16_apply, Ideal.ofBits_def, Ideal.ofBits_zero_f32, zero_add]
  unfold Cert.Spec.poolSum
  rw [Finset.sum_filter]
  refine Finset.sum_congr rfl fun e _ => ?_
  rw [ids104]

/-- The bit pattern of minus infinity is the least extended real. -/
theorem ofBits_ninf : Ideal.ofBits .f32 0xFF800000#32 = (⊥ : EReal) := by simp [Ideal.ofBits, Ideal.ieee]

/-- A running maximum from the least element is the supremum. -/
theorem fold_max_bot {ι : Type} (s : Finset ι) (f : ι → EReal) : s.fold max ⊥ f = s.sup f := rfl

/-- The divisor of graph g's row: its count clipped below at one, the same at every column. -/
theorem div113 (x13 : (⟨S100000, .i32⟩ : BufTy).Contents (Elt Ideal)) (g k : Fin 128) :
    val_main_v113 (F := Ideal) x13 (ix2 g k) = max (val_main_v109 (F := Ideal) x13 (ix1 g)) 1 := by
  have e : idx_main_v112 (idx_main_v113 (ix2 g k : S128x128.Idx)) = ix1 g := funext fun a => by match a with | ⟨0, _⟩ => rfl
  rw [val_main_v113_apply, val_main_v112_apply, val_main_v111_apply, val_main_v110_apply, val_main_cst_19_apply,
    Ideal.maximumf_def, Ideal.ofBits_def, Ideal.ofBits_one_f32, e]

/-- The mean row of graph g. -/
theorem mean114 (x0 : (⟨S100000x128, .f32⟩ : BufTy).Contents (Elt Ideal)) (x1 : (⟨S1600000, .f32⟩ : BufTy).Contents (Elt Ideal)) (x2 x3 : (⟨S128x128, .f32⟩ : BufTy).Contents (Elt Ideal)) (x4 : (⟨S128, .f32⟩ : BufTy).Contents (Elt Ideal)) (x5 x6 : (⟨S2x128x128, .f32⟩ : BufTy).Contents (Elt Ideal)) (x7 : (⟨S2x128, .f32⟩ : BufTy).Contents (Elt Ideal)) (x12 : (⟨S2x1600000, .i32⟩ : BufTy).Contents (Elt Ideal)) (x13 : (⟨S100000, .i32⟩ : BufTy).Contents (Elt Ideal)) (g k : Fin 128) :
    val_main_v114 (F := Ideal) x0 x1 x2 x3 x4 x5 x6 x7 x12 x13 (ix2 g k) = Cert.Spec.mean (val_main_v105 (F := Ideal) x0 x1 x2 x3 x4 x5 x6 x7 x12 x13) (fun g => val_main_v109 (F := Ideal) x13 (ix1 g)) g k := by
  rw [val_main_v114_apply, Ideal.hostDivf_def, div113]
  rfl

/-- The hidden layer of the head. -/
theorem hidden119 (x0 : (⟨S100000x128, .f32⟩ : BufTy).Contents (Elt Ideal)) (x1 : (⟨S1600000, .f32⟩ : BufTy).Contents (Elt Ideal)) (x2 x3 : (⟨S128x128, .f32⟩ : BufTy).Contents (Elt Ideal)) (x4 : (⟨S128, .f32⟩ : BufTy).Contents (Elt Ideal)) (x5 x6 : (⟨S2x128x128, .f32⟩ : BufTy).Contents (Elt Ideal)) (x7 : (⟨S2x128, .f32⟩ : BufTy).Contents (Elt Ideal)) (x8 : (⟨S128x128, .f32⟩ : BufTy).Contents (Elt Ideal)) (x9 : (⟨S128, .f32⟩ : BufTy).Contents (Elt Ideal)) (x12 : (⟨S2x1600000, .i32⟩ : BufTy).Contents (Elt Ideal)) (x13 : (⟨S100000, .i32⟩ : BufTy).Contents (Elt Ideal)) (g j : Fin 128) :
    val_main_v119 (F := Ideal) x0 x1 x2 x3 x4 x5 x6 x7 x8 x9 x12 x13 (ix2 g j) = Cert.Spec.hidden (val_main_v105 (F := Ideal) x0 x1 x2 x3 x4 x5 x6 x7 x12 x13) (fun g => val_main_v109 (F := Ideal) x13 (ix1 g)) x8 x9 g j := by
  have e9 : idx_main_v116 (idx_main_v117 (ix2 g j : S128x128.Idx)) = ix1 j := funext fun a => by match a with | ⟨0, _⟩ => rfl
  rw [val_main_v119_apply, val_main_v118_apply, val_main_v115_apply, val_main_v117_apply, val_main_v116_apply,
    val_main_call3_v0_apply, val_main_call3_cst_apply, Ideal.maximumf_def, Ideal.addf_def, Ideal.ofBits_def,
    Ideal.ofBits_zero_f32, e9]
  unfold Cert.Spec.hidden
  refine congrArg (fun t => max (t + x9 (ix1 j)) 0) (Finset.sum_congr rfl fun k _ => ?_)
  have el : lidx_main_v115 (ix2 g j : S128x128.Idx) k = ix2 g k := funext fun a => by match a with | ⟨0, _⟩ => rfl | ⟨1, _⟩ => rfl
  have er : ridx_main_v115 (ix2 g j : S128x128.Idx) k = ix2 k j := funext fun a => by match a with | ⟨0, _⟩ => rfl | ⟨1, _⟩ => rfl
  rw [el, er, mean114]

/-- The class scores before normalisation. -/
theorem logits123 (x0 : (⟨S100000x128, .f32⟩ : BufTy).Contents (Elt Ideal)) (x1 : (⟨S1600000, .f32⟩ : BufTy).Contents (Elt Ideal)) (x2 x3 : (⟨S128x128, .f32⟩ : BufTy).Contents (Elt Ideal)) (x4 : (⟨S128, .f32⟩ : BufTy).Contents (Elt Ideal)) (x5 x6 : (⟨S2x128x128, .f32⟩ : BufTy).Contents (Elt Ideal)) (x7 : (⟨S2x128, .f32⟩ : BufTy).Contents (Elt Ideal)) (x8 : (⟨S128x128, .f32⟩ : BufTy).Contents (Elt Ideal)) (x9 : (⟨S128, .f32⟩ : BufTy).Contents (Elt Ideal)) (x10 : (⟨S128x10, .f32⟩ : BufTy).Contents (Elt Ideal)) (x11 : (⟨S10, .f32⟩ : BufTy).Contents (Elt Ideal)) (x12 : (⟨S2x1600000, .i32⟩ : BufTy).Contents (Elt Ideal)) (x13 : (⟨S100000, .i32⟩ : BufTy).Contents (Elt Ideal)) (g : Fin 128) (c : Fin 10) :
    val_main_v123 (F := Ideal) x0 x1 x2 x3 x4 x5 x6 x7 x8 x9 x10 x11 x12 x13 (ix2 g c) = Cert.Spec.logits (val_main_v105 (F := Ideal) x0 x1 x2 x3 x4 x5 x6 x7 x12 x13) (fun g => val_main_v109 (F := Ideal) x13 (ix1 g)) x8 x9 x10 x11 g c := by
  have e11 : idx_main_v121 (idx_main_v122 (ix2 g c : S128x10.Idx)) = ix1 c := funext fun a => by match a with | ⟨0, _⟩ => rfl
  rw [val_main_v123_apply, val_main_v120_apply, val_main_v122_apply, val_main_v121_apply, Ideal.addf_def, e11]
  unfold Cert.Spec.logits
  refine congrArg (fun t => t + x11 (ix1 c)) (Finset.sum_congr rfl fun k _ => ?_)
  have el : lidx_main_v120 (ix2 g c : S128x10.Idx) k = ix2 g k := funext fun a => by match a with | ⟨0, _⟩ => rfl | ⟨1, _⟩ => rfl
  have er : ridx_main_v120 (ix2 g c : S128x10.Idx) k = ix2 k c := funext fun a => by match a with | ⟨0, _⟩ => rfl | ⟨1, _⟩ => rfl
  rw [el, er, hidden119]

/-- The running maximum of row g over the ten classes, started from minus infinity, is the supremum of the row. -/
theorem rowmax (x0 : (⟨S100000x128, .f32⟩ : BufTy).Contents (Elt Ideal)) (x1 : (⟨S1600000, .f32⟩ : BufTy).Contents (Elt Ideal)) (x2 x3 : (⟨S128x128, .f32⟩ : BufTy).Contents (Elt Ideal)) (x4 : (⟨S128, .f32⟩ : BufTy).Contents (Elt Ideal)) (x5 x6 : (⟨S2x128x128, .f32⟩ : BufTy).Contents (Elt Ideal)) (x7 : (⟨S2x128, .f32⟩ : BufTy).Contents (Elt Ideal)) (x8 : (⟨S128x128, .f32⟩ : BufTy).Contents (Elt Ideal)) (x9 : (⟨S128, .f32⟩ : BufTy).Contents (Elt Ideal)) (x10 : (⟨S128x10, .f32⟩ : BufTy).Contents (Elt Ideal)) (x11 : (⟨S10, .f32⟩ : BufTy).Contents (Elt Ideal)) (x12 : (⟨S2x1600000, .i32⟩ : BufTy).Contents (Elt Ideal)) (x13 : (⟨S100000, .i32⟩ : BufTy).Contents (Elt Ideal)) (g : Fin 128) :
    val_main_call4_v0 (F := Ideal) x0 x1 x2 x3 x4 x5 x6 x7 x8 x9 x10 x11 x12 x13 (ix1 g)
      = Finset.univ.sup (fun c' : Fin 10 => val_main_v123 (F := Ideal) x0 x1 x2 x3 x4 x5 x6 x7 x8 x9 x10 x11 x12 x13 (ix2 g c')) := by
  unfold val_main_call4_v0
  generalize val_main_v123 (F := Ideal) x0 x1 x2 x3 x4 x5 x6 x7 x8 x9 x10 x11 x12 x13 = z
  have h : S128x10.Reduces [1] S128 := by decide
  refine (Host.reduce_eq_fold_single (α := Ideal .f32) FloatOps.maximumf (show S128x10.Idx → Ideal .f32 from z)
    (val_main_call4_cst (F := Ideal)) Gen.reducesTo_S128x10_S128_d1 h Gen.h_S_ (ix1 g)).trans ?_
  rw [val_main_call4_cst_apply, Ideal.ofBits_def, ofBits_ninf]
  have hf : (z ∘ h.lift (ix1 g)) = fun c' : Fin 10 => z (ix2 g c') :=
    funext fun k => congrArg z (by funext a; apply Fin.ext; fin_cases a <;> rfl)
  exact (congrArg (fun f => Finset.fold (max : EReal → EReal → EReal) ⊥ f (Finset.univ : Finset (Fin 10))) hf).trans
    (fold_max_bot _ _)

/-- The head: mean pool, two affine layers, and the row-wise logarithm of the soft maximum. -/
theorem head (x0 : (⟨S100000x128, .f32⟩ : BufTy).Contents (Elt Ideal)) (x1 : (⟨S1600000, .f32⟩ : BufTy).Contents (Elt Ideal)) (x2 x3 : (⟨S128x128, .f32⟩ : BufTy).Contents (Elt Ideal)) (x4 : (⟨S128, .f32⟩ : BufTy).Contents (Elt Ideal)) (x5 x6 : (⟨S2x128x128, .f32⟩ : BufTy).Contents (Elt Ideal)) (x7 : (⟨S2x128, .f32⟩ : BufTy).Contents (Elt Ideal)) (x8 : (⟨S128x128, .f32⟩ : BufTy).Contents (Elt Ideal)) (x9 : (⟨S128, .f32⟩ : BufTy).Contents (Elt Ideal)) (x10 : (⟨S128x10, .f32⟩ : BufTy).Contents (Elt Ideal)) (x11 : (⟨S10, .f32⟩ : BufTy).Contents (Elt Ideal)) (x12 : (⟨S2x1600000, .i32⟩ : BufTy).Contents (Elt Ideal)) (x13 : (⟨S100000, .i32⟩ : BufTy).Contents (Elt Ideal)) (g : Fin 128) (c : Fin 10) :
    val_main_v124 (F := Ideal) x0 x1 x2 x3 x4 x5 x6 x7 x8 x9 x10 x11 x12 x13 (ix2 g c) = Cert.Spec.head (val_main_v105 (F := Ideal) x0 x1 x2 x3 x4 x5 x6 x7 x12 x13) (fun g => val_main_v109 (F := Ideal) x13 (ix1 g)) x8 x9 x10 x11 g c := by
  have hmax : ∀ c' : Fin 10, val_main_call4_v4 (F := Ideal) x0 x1 x2 x3 x4 x5 x6 x7 x8 x9 x10 x11 x12 x13 (ix2 g c')
      = Finset.univ.sup (fun c'' : Fin 10 => val_main_v123 (F := Ideal) x0 x1 x2 x3 x4 x5 x6 x7 x8 x9 x10 x11 x12 x13 (ix2 g c'')) := by
    intro c'
    have e : idx_main_call4_v3 (idx_main_call4_v4 (ix2 g c' : S128x10.Idx)) = ix1 g := funext fun a => by match a with | ⟨0, _⟩ => rfl
    rw [val_main_call4_v4_apply, val_main_call4_v3_apply, val_main_call4_v2_apply, val_main_call4_v1_apply,
      val_main_call4_cst_0_apply, Ideal.maximumf_def, Ideal.ofBits_def, ofBits_ninf, e, rowmax]
    exact max_bot_left _
  have h5 : ∀ c' : Fin 10, val_main_call4_v5 (F := Ideal) x0 x1 x2 x3 x4 x5 x6 x7 x8 x9 x10 x11 x12 x13 (ix2 g c')
      = val_main_v123 (F := Ideal) x0 x1 x2 x3 x4 x5 x6 x7 x8 x9 x10 x11 x12 x13 (ix2 g c')
        - Finset.univ.sup (fun c'' : Fin 10 => val_main_v123 (F := Ideal) x0 x1 x2 x3 x4 x5 x6 x7 x8 x9 x10 x11 x12 x13 (ix2 g c'')) := by
    intro c'; rw [val_main_call4_v5_apply, Ideal.subf_def, hmax]
  have hz : Cert.Spec.logits (val_main_v105 (F := Ideal) x0 x1 x2 x3 x4 x5 x6 x7 x12 x13) (fun g => val_main_v109 (F := Ideal) x13 (ix1 g)) x8 x9 x10 x11
      = fun g c => val_main_v123 (F := Ideal) x0 x1 x2 x3 x4 x5 x6 x7 x8 x9 x10 x11 x12 x13 (ix2 g c) :=
    funext fun g => funext fun c => (logits123 x0 x1 x2 x3 x4 x5 x6 x7 x8 x9 x10 x11 x12 x13 g c).symm
  have e7 : ∀ k : Fin 10, idx_main_call4_v7 (idx_main_call4_v8 (idx_main_call4_v10 (ix2 g c : S128x10.Idx))) k = ix2 g k :=
    fun k => funext fun a => by match a with | ⟨0, _⟩ => rfl | ⟨1, _⟩ => rfl
  rw [val_main_v124_apply, Ideal.subf_def, h5, val_main_call4_v10_apply, val_main_call4_v9_apply, val_main_call4_v8_apply,
    val_main_call4_v7_apply, val_main_call4_cst_1_apply, Ideal.hostUnary_log_def, Ideal.ofBits_def, Ideal.ofBits_zero_f32,
    zero_add]
  unfold Cert.Spec.head
  rw [hz]
  unfold Cert.Spec.logSoftmax
  refine congrArg (fun t => (val_main_v123 (F := Ideal) x0 x1 x2 x3 x4 x5 x6 x7 x8 x9 x10 x11 x12 x13 (ix2 g c)
      - Finset.univ.sup (fun c'' : Fin 10 => val_main_v123 (F := Ideal) x0 x1 x2 x3 x4 x5 x6 x7 x8 x9 x10 x11 x12 x13 (ix2 g c''))) - Ideal.log t)
    (Finset.sum_congr rfl fun k _ => ?_)
  rw [e7, val_main_call4_v6_apply, Ideal.hostUnary_exp_def, h5]

end Cert.RefSide

end
-- ==== Proof.Bridge.Final.lean ====
/-
  The two programs compute one function. Layer by layer the kernel program's arrays are the reference's stages at the
  same arguments: the host operations between the regions are the reference's own operations (the aggregate, the
  degree, the slices of the stacked weights), each dense region is the layer the reference computes, the pooling
  region the reference's two scatter-sums, and the head region its last stretch. So the array the last region leaves
  is the reference's result.
-/
import proofs.«420397_j11227044511906_3_alg».proof.Proof.KI.Flow
import proofs.«420397_j11227044511906_3_alg».proof.Proof.KI.ValLayer
import proofs.«420397_j11227044511906_3_alg».proof.Proof.KI.ValPool
import proofs.«420397_j11227044511906_3_alg».proof.Proof.KI.ValMlp
import proofs.«420397_j11227044511906_3_alg».proof.Proof.Bridge.Chain0
import proofs.«420397_j11227044511906_3_alg».proof.Proof.Bridge.Chain12
import proofs.«420397_j11227044511906_3_alg».proof.Proof.Ref.Layer
import proofs.«420397_j11227044511906_3_alg».proof.Proof.Ref.Head

set_option maxRecDepth 16384

noncomputable section

namespace Cert.Bridge

open Cert.KernelIdeal Cert.KernelIdeal.Gen Cert.KernelIdeal.Hand Cert.KernelIdeal.HandVal
open Idealize.ShloMosaic Idealize.ShloMosaic.TcCoe Idealize.ShloMosaic.ValueIdx
open Idealize.SL Idealize.SL.Sem

variable (m : (ℓ : Loc nD τ sig) → Buf (Elt Ideal) ℓ) (c : Dev nD)

/-! ## The first layer -/

theorem agg1_eq : rd (U1 m) c main_v21 = Cert.ReferenceIdeal.Read.val_main_v16 (F := Ideal) (m ((c : Thread nD τ).loc main_arg0)) (m ((c : Thread nD τ).loc main_arg1)) (m ((c : Thread nD τ).loc main_arg12)) :=
  (chain0_agg (V0 m c)).trans (ref_agg1 _ _ _).symm

theorem deg1_eq (p : Fin 100000) : rd (U1 m) c main_v8 (ix2 p (0 : Fin 1)) = Cert.ReferenceIdeal.Read.val_main_v20 (F := Ideal) (m ((c : Thread nD τ).loc main_arg12)) (ix1 p) :=
  (chain0_deg (V0 m c) p).trans (congrFun (ref_deg1 _).symm (ix1 p))

theorem src_eq : rd (U1 m) c main_v1 = Cert.ReferenceIdeal.Read.val_main_v1 (F := Ideal) (m ((c : Thread nD τ).loc main_arg12)) := chain0_src (V0 m c)
theorem dst_eq : rd (U1 m) c main_v3 = Cert.ReferenceIdeal.Read.val_main_v3 (F := Ideal) (m ((c : Thread nD τ).loc main_arg12)) := chain0_dst (V0 m c)

/-- What the first dense region leaves is the reference's first layer. -/
theorem layer1_eq : o2 m c = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) := by
  funext i
  obtain ⟨p, q, rfl⟩ : ∃ (p : Fin 100000) (q : Fin 128), i = ix2 p q := ⟨i 0, i 1, eq_ix2 i⟩
  refine (layer_val0 (rd (U1 m)) c p q).trans ?_
  rw [Cert.RefSide.layer1, agg1_eq m c, (keep1 m c main_arg0 (by decide)), (keep1 m c main_arg2 (by decide)), (keep1 m c main_arg3 (by decide)), (keep1 m c main_arg4 (by decide)),
    show (fun p => rd (U1 m) c main_v8 (ix2 p (0 : Fin 1))) = (fun p => Cert.ReferenceIdeal.Read.val_main_v20 (F := Ideal) (m ((c : Thread nD τ).loc main_arg12)) (ix1 p)) from funext (deg1_eq m c)]

/-! ## The second layer -/

theorem agg2_eq : rd (U3 m) c main_v42 = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) := by
  refine (chain1_agg (U2 m c)).trans ?_
  rw [show U2 m c main_v22 = o2 m c from U2_at_main_v22 m c, layer1_eq m c,
    show U2 m c main_arg1 = (m ((c : Thread nD τ).loc main_arg1)) from ((keep2 m c main_arg1 (by decide)).trans (keep1 m c main_arg1 (by decide))),
    show U2 m c main_v1 = Cert.ReferenceIdeal.Read.val_main_v1 (F := Ideal) (m ((c : Thread nD τ).loc main_arg12)) from (keep2 m c main_v1 (by decide)).trans (src_eq m c),
    show U2 m c main_v3 = Cert.ReferenceIdeal.Read.val_main_v3 (F := Ideal) (m ((c : Thread nD τ).loc main_arg12)) from (keep2 m c main_v3 (by decide)).trans (dst_eq m c)]
  exact (ref_agg2 _ _ _ _ _ _).symm

theorem deg2_eq (p : Fin 100000) : rd (U3 m) c main_v8 (ix2 p (0 : Fin 1)) = Cert.ReferenceIdeal.Read.val_main_v55 (F := Ideal) (m ((c : Thread nD τ).loc main_arg12)) (ix1 p) := by
  rw [show rd (U3 m) c main_v8 = rd (U1 m) c main_v8 from ((keep3 m c main_v8 (by decide)).trans (keep2 m c main_v8 (by decide)))]
  exact (chain0_deg (V0 m c) p).trans (congrFun (ref_deg2 _).symm (ix1 p))

/-- What the second dense region leaves is the reference's second layer. -/
theorem layer2_eq : o4 m c = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) := by
  funext i
  obtain ⟨p, q, rfl⟩ : ∃ (p : Fin 100000) (q : Fin 128), i = ix2 p q := ⟨i 0, i 1, eq_ix2 i⟩
  refine (layer_val1 (rd (U3 m)) c p q).trans ?_
  rw [Cert.RefSide.layer2, agg2_eq m c,
    show rd (U3 m) c main_v22 = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) from ((keep3 m c main_v22 (by decide)).trans (U2_at_main_v22 m c)).trans (layer1_eq m c),
    show rd (U3 m) c main_v24 = Cert.ReferenceIdeal.Read.val_main_v34 (F := Ideal) (m ((c : Thread nD τ).loc main_arg5)) from (chain1_wl (U2 m c)).trans (congrArg _ ((keep2 m c main_arg5 (by decide)).trans (keep1 m c main_arg5 (by decide)))),
    show rd (U3 m) c main_v26 = Cert.ReferenceIdeal.Read.val_main_v36 (F := Ideal) (m ((c : Thread nD τ).loc main_arg6)) from (chain1_wr (U2 m c)).trans (congrArg _ ((keep2 m c main_arg6 (by decide)).trans (keep1 m c main_arg6 (by decide)))),
    show rd (U3 m) c main_v28 = Cert.ReferenceIdeal.Read.val_main_v38 (F := Ideal) (m ((c : Thread nD τ).loc main_arg7)) from (chain1_b (U2 m c)).trans (congrArg _ ((keep2 m c main_arg7 (by decide)).trans (keep1 m c main_arg7 (by decide)))),
    show (fun p => rd (U3 m) c main_v8 (ix2 p (0 : Fin 1))) = (fun p => Cert.ReferenceIdeal.Read.val_main_v55 (F := Ideal) (m ((c : Thread nD τ).loc main_arg12)) (ix1 p)) from funext (deg2_eq m c)]

/-! ## The third layer -/

theorem agg3_eq : rd (U5 m) c main_v63 = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) := by
  refine (chain2_agg (U4 m c)).trans ?_
  rw [show U4 m c main_v43 = o4 m c from U4_at_main_v43 m c, layer2_eq m c,
    show U4 m c main_arg1 = (m ((c : Thread nD τ).loc main_arg1)) from ((((keep4 m c main_arg1 (by decide)).trans (keep3 m c main_arg1 (by decide))).trans (keep2 m c main_arg1 (by decide))).trans (keep1 m c main_arg1 (by decide))),
    show U4 m c main_v1 = Cert.ReferenceIdeal.Read.val_main_v1 (F := Ideal) (m ((c : Thread nD τ).loc main_arg12)) from ((((keep4 m c main_v1 (by decide)).trans (keep3 m c main_v1 (by decide))).trans (keep2 m c main_v1 (by decide)))).trans (src_eq m c),
    show U4 m c main_v3 = Cert.ReferenceIdeal.Read.val_main_v3 (F := Ideal) (m ((c : Thread nD τ).loc main_arg12)) from ((((keep4 m c main_v3 (by decide)).trans (keep3 m c main_v3 (by decide))).trans (keep2 m c main_v3 (by decide)))).trans (dst_eq m c)]
  exact (ref_agg3 _ _ _ _ _ _ _ _ _).symm

theorem deg3_eq (p : Fin 100000) : rd (U5 m) c main_v8 (ix2 p (0 : Fin 1)) = Cert.ReferenceIdeal.Read.val_main_v90 (F := Ideal) (m ((c : Thread nD τ).loc main_arg12)) (ix1 p) := by
  rw [show rd (U5 m) c main_v8 = rd (U1 m) c main_v8 from ((((keep5 m c main_v8 (by decide)).trans (keep4 m c main_v8 (by decide))).trans (keep3 m c main_v8 (by decide))).trans (keep2 m c main_v8 (by decide)))]
  exact (chain0_deg (V0 m c) p).trans (congrFun (ref_deg3 _).symm (ix1 p))

/-- What the third dense region leaves is the reference's third layer. -/
theorem layer3_eq : o6 m c = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) := by
  funext i
  obtain ⟨p, q, rfl⟩ : ∃ (p : Fin 100000) (q : Fin 128), i = ix2 p q := ⟨i 0, i 1, eq_ix2 i⟩
  refine (layer_val2 (rd (U5 m)) c p q).trans ?_
  rw [Cert.RefSide.layer3, agg3_eq m c,
    show rd (U5 m) c main_v43 = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) from ((keep5 m c main_v43 (by decide)).trans (U4_at_main_v43 m c)).trans (layer2_eq m c),
    show rd (U5 m) c main_v45 = Cert.ReferenceIdeal.Read.val_main_v69 (F := Ideal) (m ((c : Thread nD τ).loc main_arg5)) from (chain2_wl (U4 m c)).trans (congrArg _ ((((keep4 m c main_arg5 (by decide)).trans (keep3 m c main_arg5 (by decide))).trans (keep2 m c main_arg5 (by decide))).trans (keep1 m c main_arg5 (by decide)))),
    show rd (U5 m) c main_v47 = Cert.ReferenceIdeal.Read.val_main_v71 (F := Ideal) (m ((c : Thread nD τ).loc main_arg6)) from (chain2_wr (U4 m c)).trans (congrArg _ ((((keep4 m c main_arg6 (by decide)).trans (keep3 m c main_arg6 (by decide))).trans (keep2 m c main_arg6 (by decide))).trans (keep1 m c main_arg6 (by decide)))),
    show rd (U5 m) c main_v49 = Cert.ReferenceIdeal.Read.val_main_v73 (F := Ideal) (m ((c : Thread nD τ).loc main_arg7)) from (chain2_b (U4 m c)).trans (congrArg _ ((((keep4 m c main_arg7 (by decide)).trans (keep3 m c main_arg7 (by decide))).trans (keep2 m c main_arg7 (by decide))).trans (keep1 m c main_arg7 (by decide)))),
    show (fun p => rd (U5 m) c main_v8 (ix2 p (0 : Fin 1))) = (fun p => Cert.ReferenceIdeal.Read.val_main_v90 (F := Ideal) (m ((c : Thread nD τ).loc main_arg12)) (ix1 p)) from funext (deg3_eq m c)]

/-! ## The pool -/

theorem ids_eq (n : Fin 100000) : rd (U7 m) c main_v65 (ix2 n (0 : Fin 1)) = (m ((c : Thread nD τ).loc main_arg13)) (ix1 n) := by
  refine (chain3_ids (U6 m c) n).trans ?_
  rw [show U6 m c main_arg13 = (m ((c : Thread nD τ).loc main_arg13)) from ((((((keep6 m c main_arg13 (by decide)).trans (keep5 m c main_arg13 (by decide))).trans (keep4 m c main_arg13 (by decide))).trans (keep3 m c main_arg13 (by decide))).trans (keep2 m c main_arg13 (by decide))).trans (keep1 m c main_arg13 (by decide)))]

theorem feat_eq : rd (U7 m) c main_v64 = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) :=
  ((keep7 m c main_v64 (by decide)).trans (U6_at_main_v64 m c)).trans (layer3_eq m c)

/-- The pooled sums are the reference's. -/
theorem pool_sum_eq (g d : Fin 128) : o8a m c (ix2 g d) = Cert.ReferenceIdeal.Read.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (ix2 g d) := by
  show (dat3 (rd (U7 m)) c).arrAt 2 cfg3.N (ix2 g d) = _
  rw [arrAt3_2, pool_val_sum, Cert.RefSide.pool_sum, feat_eq m c,
    show (fun n => rd (U7 m) c main_v65 (ix2 n (0 : Fin 1))) = (fun n => (m ((c : Thread nD τ).loc main_arg13)) (ix1 n)) from funext (ids_eq m c)]

/-- The node counts are the reference's. -/
theorem pool_cnt_eq (g : Fin 128) : o8b m c (ix1 g) = Cert.ReferenceIdeal.Read.val_main_v109 (F := Ideal) (m ((c : Thread nD τ).loc main_arg13)) (ix1 g) := by
  show (dat3 (rd (U7 m)) c).arrAt 3 cfg3.N (ix1 g) = _
  rw [arrAt3_3, pool_val_cnt, Cert.RefSide.pool_cnt,
    show (fun n => rd (U7 m) c main_v65 (ix2 n (0 : Fin 1))) = (fun n => (m ((c : Thread nD τ).loc main_arg13)) (ix1 n)) from funext (ids_eq m c)]

/-! ## The head -/

theorem psum_eq : rd (U9 m) c main_v66_0 = Cert.ReferenceIdeal.Read.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) := by
  refine ((keep9 m c main_v66_0 (by decide)).trans (U8_at_main_v66_0 m c)).trans ?_
  funext i
  obtain ⟨g, d, rfl⟩ : ∃ (g d : Fin 128), i = ix2 g d := ⟨i 0, i 1, eq_ix2 i⟩
  exact pool_sum_eq m c g d

theorem cnt_eq (g : Fin 128) : rd (U9 m) c main_v67 (ix2 g (0 : Fin 1)) = Cert.ReferenceIdeal.Read.val_main_v109 (F := Ideal) (m ((c : Thread nD τ).loc main_arg13)) (ix1 g) := by
  refine (chain4_cnt (U8 m c) g).trans ?_
  rw [show U8 m c main_v66_1 = o8b m c from U8_at_main_v66_1 m c]
  exact pool_cnt_eq m c g

/-- The array the last region leaves is the reference's result. -/
theorem result_eq : o10 m c = Cert.ReferenceIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext i
  obtain ⟨g, k, rfl⟩ : ∃ (g : Fin 128) (k : Fin 10), i = ix2 g k := ⟨i 0, i 1, eq_ix2 i⟩
  refine (head_val (rd (U9 m)) c g k).trans ?_
  rw [Cert.RefSide.head, psum_eq m c,
    show rd (U9 m) c main_arg8 = (m ((c : Thread nD τ).loc main_arg8)) from (((((((((keep9 m c main_arg8 (by decide)).trans (keep8 m c main_arg8 (by decide) (by decide))).trans (keep7 m c main_arg8 (by decide))).trans (keep6 m c main_arg8 (by decide))).trans (keep5 m c main_arg8 (by decide))).trans (keep4 m c main_arg8 (by decide))).trans (keep3 m c main_arg8 (by decide))).trans (keep2 m c main_arg8 (by decide))).trans (keep1 m c main_arg8 (by decide))),
    show rd (U9 m) c main_arg9 = (m ((c : Thread nD τ).loc main_arg9)) from (((((((((keep9 m c main_arg9 (by decide)).trans (keep8 m c main_arg9 (by decide) (by decide))).trans (keep7 m c main_arg9 (by decide))).trans (keep6 m c main_arg9 (by decide))).trans (keep5 m c main_arg9 (by decide))).trans (keep4 m c main_arg9 (by decide))).trans (keep3 m c main_arg9 (by decide))).trans (keep2 m c main_arg9 (by decide))).trans (keep1 m c main_arg9 (by decide))),
    show rd (U9 m) c main_arg10 = (m ((c : Thread nD τ).loc main_arg10)) from (((((((((keep9 m c main_arg10 (by decide)).trans (keep8 m c main_arg10 (by decide) (by decide))).trans (keep7 m c main_arg10 (by decide))).trans (keep6 m c main_arg10 (by decide))).trans (keep5 m c main_arg10 (by decide))).trans (keep4 m c main_arg10 (by decide))).trans (keep3 m c main_arg10 (by decide))).trans (keep2 m c main_arg10 (by decide))).trans (keep1 m c main_arg10 (by decide))),
    show rd (U9 m) c main_arg11 = (m ((c : Thread nD τ).loc main_arg11)) from (((((((((keep9 m c main_arg11 (by decide)).trans (keep8 m c main_arg11 (by decide) (by decide))).trans (keep7 m c main_arg11 (by decide))).trans (keep6 m c main_arg11 (by decide))).trans (keep5 m c main_arg11 (by decide))).trans (keep4 m c main_arg11 (by decide))).trans (keep3 m c main_arg11 (by decide))).trans (keep2 m c main_arg11 (by decide))).trans (keep1 m c main_arg11 (by decide))),
    show (fun g => rd (U9 m) c main_v67 (ix2 g (0 : Fin 1))) = (fun g => Cert.ReferenceIdeal.Read.val_main_v109 (F := Ideal) (m ((c : Thread nD τ).loc main_arg13)) (ix1 g)) from funext (cnt_eq m c)]

end Cert.Bridge

end
-- ==== Proof.lean ====
/-
  The certificate of the graph network: three neighbourhood-mean layers, a mean pool over the graphs and a two-layer
  head with a log-soft-maximum, as five kernel regions among host gathers and scatter-sums, against the plain program.

  Frames. The kernel program (at the word level and at the extended reals alike) runs item by item: a host stretch
  applies its operations; a dense region tiles the rows by 5000, each grid point storing one output tile and leaving
  its inputs in place; the pooling region carries two accumulators through its twenty grid points, cleared at the
  first and copied out at the last; the head region has one point. No item writes an argument array. The reference is
  host operations only.

  Values, at the extended reals. A change of float format is the identity there, so each dense region computes
  max(0, (agg / max(deg, 1)) W_l + x W_r + b) row by row, which is the reference's layer; the one-hot product of the
  pooling region is the reference's scatter-sum, row n counted for graph g exactly when its id, read signed, is g
  (0 times anything is 0 on the extended reals, so no finiteness is needed); the head is the reference's last stretch,
  the two maxima over the ten classes being one supremum. The host operations between the regions are the reference's
  own operations on equal operands. The one rewrite of the idealization, a round trip through bf16 removed inside the
  pooling kernel, is the identity at the extended reals.
-/
import proofs.«420397_j11227044511906_3_alg».proof.Defs
import proofs.«420397_j11227044511906_3_alg».proof.Proof.Gen.Kernel
import proofs.«420397_j11227044511906_3_alg».proof.Proof.Gen.KernelIdeal
import proofs.«420397_j11227044511906_3_alg».proof.Proof.Gen.ReferenceIdeal
import proofs.«420397_j11227044511906_3_alg».proof.Proof.Gen.ReferenceIdeal.Run
import proofs.«420397_j11227044511906_3_alg».proof.Proof.Gen.ReferenceIdeal.Read
import proofs.«420397_j11227044511906_3_alg».proof.Proof.Gen.Pre_finite_inputs
import proofs.«420397_j11227044511906_3_alg».proof.Proof.K.Flow
import proofs.«420397_j11227044511906_3_alg».proof.Proof.KI.Flow
import proofs.«420397_j11227044511906_3_alg».proof.Proof.Bridge.Final
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Hand.run_frame (F := Bits) m ρ)

/-- So does its idealization. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Hand.run_frame (F := Ideal) m ρ)

/-- The reference is host operations only: its run with the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The one rewrite of the idealization: widening back what was just narrowed is the identity at the extended reals. -/
theorem preserves : Cert.preserves_Kernel_KernelIdeal := IdealRules.truncf_extf.statement _ .f32 .bf16

/-- From memories that agree on the arguments both programs end with the same result: the array the head region
    leaves is the reference's last stage at the same arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.o10 m c, Cert.KernelIdeal.Hand.run_frame (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v124_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
